-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v37_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256 : Shape := ⟨1, ![256]⟩
abbrev S512x100000 : Shape := ⟨2, ![512, 100000]⟩
abbrev S512 : Shape := ⟨1, ![512]⟩
abbrev S_ : Shape := ⟨0, ![]⟩
abbrev S100000 : Shape := ⟨1, ![100000]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  reducesTo_S512x100000_S100000_d0 : S512x100000.ReducesTo [0] S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S256 32) (main_arg2 : FVec F S512x100000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S256 32 := broadcastInDim S256 ![] bcast_S_S256 main_c_6
  let main_v20 : IVec S256 1 := cmpi .sge main_arg1 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v18 main_v21
  let main_c_8 : IVec S_ 32 := constantI S_ 32 100000#32
  let main_v23 : IVec S256 32 := broadcastInDim S256 ![] bcast_S_S256 main_c_8
  let main_v24 : IVec S256 1 := cmpi .slt main_arg1 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v22 main_v25
  let main_v27 : FVec F S512x100000 .f32 := mulf main_arg2 main_arg2
  let main_cst_10 : FVec F S_ .f32 := constant S_ .f32 0x00000000#32
  let main_v28 : FVec F S100000 .f32 := (fun x v => Host.reduceAdd x v reducesTo_S512x100000_S100000_d0 h_S_) main_v27 main_cst_10
  let main_cst_11 : FVec F S_ .f32 := constant S_ .f32 0x00000000#32
  let main_v29 : FVec F S100000 .f32 := broadcastInDim S100000 ![] bcast_S_S100000 main_cst_11
  let main_v30 : IVec S100000 1 := cmpf .ogt main_v28 main_v29
  let main_c_12 : IVec S_ 1 := constantI S_ 1 1#1
  let main_v31 : IVec S_ 1 := (fun x v => Host.reduce IntOp.andi x v reducesTo_S100000_S_d0 h_S_) main_v30 main_c_12
  let main_v32 : IVec S_ 1 := andi main_v26 main_v31
  main_v32

def fn {F : FTy → Type} [FloatOps F] (main_arg0 : FVec F S256x512 .f32) (main_arg1 : IVec S256 32) (main_arg2 : FVec F S512x100000 .f32) (main_arg3 : FVec F S512 .f32) (main_arg4 : FVec F S512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x100000 .f32 := Host.absf main_arg2
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_v13 main_v16
-- ==== Kernel.lean ====
abbrev S256x512 : Shape := ⟨2, ![256, 512]⟩
abbrev S256 : Shape := ⟨1, ![256]⟩
abbrev S512x100000 : Shape := ⟨2, ![512, 100000]⟩
abbrev S512 : Shape := ⟨1, ![512]⟩
abbrev S_ : Shape := ⟨0, ![]⟩
abbrev S1x512 : Shape := ⟨2, ![1, 512]⟩
abbrev S256x1 : Shape := ⟨2, ![256, 1]⟩
abbrev S256x100000 : Shape := ⟨2, ![256, 100000]⟩
abbrev S512x2048 : Shape := ⟨2, ![512, 2048]⟩
abbrev S256x2048 : Shape := ⟨2, ![256, 2048]⟩
abbrev S2048 : Shape := ⟨1, ![2048]⟩
abbrev S1x2048 : Shape := ⟨2, ![1, 2048]⟩

abbrev nBuf : Space → Nat
  | .hbm => 82
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S512x100000, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S256x512, .f32⟩
  | .hbm, ⟨28, _⟩ => ⟨S256x512, .f32⟩
  | .hbm, ⟨29, _⟩ => ⟨S1x512, .f32⟩
  | .hbm, ⟨30, _⟩ => ⟨S256x512, .f32⟩
  | .hbm, ⟨31, _⟩ => ⟨S256x512, .f32⟩
  | .hbm, ⟨32, _⟩ => ⟨S1x512, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S256x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x1, .f32⟩
  | .hbm, ⟨58, _⟩ => ⟨S256x1, .f32⟩
  | .hbm, ⟨59, _⟩ => ⟨S256x512, .f32⟩
  | .hbm, ⟨60, _⟩ => ⟨S256x512, .f32⟩
  | .hbm, ⟨61, _⟩ => ⟨S256x100000, .f32⟩
  | .hbm, ⟨62, _⟩ => ⟨S256x1, .f32⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S_, .f32⟩
  | .hbm, ⟨72, _⟩ => ⟨S256x1, .f32⟩
  | .hbm, ⟨73, _⟩ => ⟨S256x1, .f32⟩
  | .hbm, ⟨74, _⟩ => ⟨S256x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S256x512, .f32⟩
  | .local _ .vmem, ⟨1, _⟩ => ⟨S512x2048, .f32⟩
  | .local _ .vmem, ⟨2, _⟩ => ⟨S512x2048, .f32⟩
  | .local _ .vmem, ⟨3, _⟩ => ⟨S256, .i32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v83 : BitVec 1 := Scalar.cmpi .eq arg0 c48_i32
  let v84 : BitVec 32 := Scalar.extui v83
  let c0_i32_37 : BitVec 32 := 0#32
  let v85 : BitVec 1 := Scalar.cmpi .ne v84 c0_i32_37
  v85

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  reducesTo_S256x512_S512_d0 : S256x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  broadcasts_S1x2048_S256x2048 : S1x2048.Broadcasts S256x2048
  broadcasts_S256x1_S256x2048 : S256x1.Broadcasts S256x2048
  iota_S256x2048_d1_w32 : S256x2048.Iotas .tc 32 [1]
  inb_S256_S256_0 : ∀ a, (![0] : Fin 1 → Nat) a + S256.size a ≤ S256.size a
  h_S256 : 0 < S256.numel
  shapeCasts_S256_S256x1 : S256.ShapeCasts S256x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256x1_S256 : S256x1.ShapeCasts S256
  reducesTo_S256_S_d0 : S256.ReducesTo [0] S_
  reducesTo_S256x1_S_d0_1 : S256x1.ReducesTo [0, 1] S_
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2048.size a < S512x100000.size a
  hwx0_1 : ∀ i : grid0.Coords, EltTy.bits .f32 = 32 ∨ (Rect.unit (s := S512x100000) (fun a => cc0_transform_1 i a * S512x2048.size a) (fun a => (Pipeline.Clip.of (cc0_transform_1 i a) (S512x2048.size a) (S512x100000.size a)).extent (S512x2048.size a)) fun a => Pipeline.Clip.inb (Pipeline.Clip.ok_of (hstart0_1 i a))).WholeWords (EltTy.packing .f32)
  hwxs0_1 : ∀ i : grid0.Coords, EltTy.bits .f32 = 32 ∨ (Rect.unit (s := S512x2048) (fun _ => 0) (fun a => (Pipeline.Clip.of (cc0_transform_1 i a) (S512x2048.size a) (S512x100000.size a)).extent (S512x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .i32 = 32 ∨ (Rect.block (s := S256) S256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x2048.size a < S256x100000.size a
  hwx0_5 : ∀ i : grid0.Coords, EltTy.bits .f32 = 32 ∨ (Rect.unit (s := S256x100000) (fun a => cc0_transform_5 i a * S256x2048.size a) (fun a => (Pipeline.Clip.of (cc0_transform_5 i a) (S256x2048.size a) (S256x100000.size a)).extent (S256x2048.size a)) fun a => Pipeline.Clip.inb (Pipeline.Clip.ok_of (hstart0_5 i a))).WholeWords (EltTy.packing .f32)
  hwxs0_5 : ∀ i : grid0.Coords, EltTy.bits .f32 = 32 ∨ (Rect.unit (s := S256x2048) (fun _ => 0) (fun a => (Pipeline.Clip.of (cc0_transform_5 i a) (S256x2048.size a) (S256x100000.size a)).extent (S256x2048.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v36) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S512x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v37_0) S256x2048.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpec (Memref.whole main_v37_1) S256x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x512 : Shape := ⟨2, ![256, 512]⟩
abbrev S256 : Shape := ⟨1, ![256]⟩
abbrev S512x100000 : Shape := ⟨2, ![512, 100000]⟩
abbrev S512 : Shape := ⟨1, ![512]⟩
abbrev S_ : Shape := ⟨0, ![]⟩
abbrev S1x512 : Shape := ⟨2, ![1, 512]⟩
abbrev S256x1 : Shape := ⟨2, ![256, 1]⟩
abbrev S100000 : Shape := ⟨1, ![100000]⟩
abbrev S1x100000 : Shape := ⟨2, ![1, 100000]⟩
abbrev S256x100000 : Shape := ⟨2, ![256, 100000]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 168
  | .vmem => 0
  | .smem => 0
  | _ => 0

abbrev hbmTy0_0 (i : Nat) : BufTy := match i % 128 with
  | 0 => ⟨S256x512, .f32⟩
  | 1 => ⟨S256, .i32⟩
  | 2 => ⟨S512x100000, .f32⟩
  | 3 => ⟨S512, .f32⟩
  | 4 => ⟨S512, .f32⟩
  | 5 => ⟨S_, .f32⟩
  | 6 => ⟨S512, .f32⟩
  | 7 => ⟨S_, .f32⟩
  | 8 => ⟨S512, .f32⟩
  | 9 => ⟨S512, .f32⟩
  | 10 => ⟨S1x512, .f32⟩
  | 11 => ⟨S256x512, .f32⟩
  | 12 => ⟨S256x512, .f32⟩
  | 13 => ⟨S256x512, .f32⟩
  | 14 => ⟨S_, .f32⟩
  | 15 => ⟨S512, .f32⟩
  | 16 => ⟨S_, .f32⟩
  | 17 => ⟨S512, .f32⟩
  | 18 => ⟨S512, .f32⟩
  | 19 => ⟨S1x512, .f32⟩
  | 20 => ⟨S256x512, .f32⟩
  | 21 => ⟨S256x512, .f32⟩
  | 22 => ⟨S_, .f32⟩
  | 23 => ⟨S512, .f32⟩
  | 24 => ⟨S512, .f32⟩
  | 25 => ⟨S512, .f32⟩
  | 26 => ⟨S1x512, .f32⟩
  | 27 => ⟨S256x512, .f32⟩
  | 28 => ⟨S256x512, .f32⟩
  | 29 => ⟨S1x512, .f32⟩
  | 30 => ⟨S256x512, .f32⟩
  | 31 => ⟨S256x512, .f32⟩
  | 32 => ⟨S1x512, .f32⟩
  | 33 => ⟨S256x512, .f32⟩
  | 34 => ⟨S256x512, .f32⟩
  | 35 => ⟨S256x512, .f32⟩
  | 36 => ⟨S_, .f32⟩
  | 37 => ⟨S256, .f32⟩
  | 38 => ⟨S256x1, .f32⟩
  | 39 => ⟨S256x1, .f32⟩
  | 40 => ⟨S_, .f32⟩
  | 41 => ⟨S_, .f32⟩
  | 42 => ⟨S_, .f32⟩
  | 43 => ⟨S256x1, .f32⟩
  | 44 => ⟨S256x1, .f32⟩
  | 45 => ⟨S_, .f32⟩
  | 46 => ⟨S256x1, .f32⟩
  | 47 => ⟨S256x1, .f32⟩
  | 48 => ⟨S_, .f32⟩
  | 49 => ⟨S256x1, .f32⟩
  | 50 => ⟨S256x1, .f32⟩
  | 51 => ⟨S_, .f32⟩
  | 52 => ⟨S256x1, .f32⟩
  | 53 => ⟨S256x1, .f32⟩
  | 54 => ⟨S_, .f32⟩
  | 55 => ⟨S256x1, .f32⟩
  | 56 => ⟨S256x1, .f32⟩
  | 57 => ⟨S256x1, .f32⟩
  | 58 => ⟨S256x1, .f32⟩
  | 59 => ⟨S512x100000, .f32⟩
  | 60 => ⟨S_, .f32⟩
  | 61 => ⟨S100000, .f32⟩
  | 62 => ⟨S1x100000, .f32⟩
  | 63 => ⟨S1x100000, .f32⟩
  | 64 => ⟨S512x100000, .f32⟩
  | 65 => ⟨S512x100000, .f32⟩
  | 66 => ⟨S256x512, .f32⟩
  | 67 => ⟨S_, .f32⟩
  | 68 => ⟨S256, .f32⟩
  | 69 => ⟨S256x1, .f32⟩
  | 70 => ⟨S256x1, .f32⟩
  | 71 => ⟨S256x512, .f32⟩
  | 72 => ⟨S256x512, .f32⟩
  | 73 => ⟨S256x100000, .f32⟩
  | 74 => ⟨S_, .f32⟩
  | 75 => ⟨S_, .f32⟩
  | 76 => ⟨S_, .f32⟩
  | 77 => ⟨S256x100000, .f32⟩
  | 78 => ⟨S256x100000, .f32⟩
  | 79 => ⟨S_, .f32⟩
  | 80 => ⟨S256x100000, .f32⟩
  | 81 => ⟨S256x100000, .f32⟩
  | 82 => ⟨S256x100000, .f32⟩
  | 83 => ⟨S_, .f32⟩
  | 84 => ⟨S256x100000, .f32⟩
  | 85 => ⟨S256x100000, .f32⟩
  | 86 => ⟨S256x100000, .f32⟩
  | 87 => ⟨S256x100000, .f32⟩
  | 88 => ⟨S256x100000, .f32⟩
  | 89 => ⟨S256x100000, .f32⟩
  | 90 => ⟨S256x100000, .f32⟩
  | 91 => ⟨S256x100000, .f32⟩
  | 92 => ⟨S_, .f32⟩
  | 93 => ⟨S256x100000, .f32⟩
  | 94 => ⟨S256x100000, .i1⟩
  | 95 => ⟨S256x100000, .f32⟩
  | 96 => ⟨S256x1, .i32⟩
  | 97 => ⟨S1x100000, .i32⟩
  | 98 => ⟨S256x100000, .i32⟩
  | 99 => ⟨S256x100000, .i32⟩
  | 100 => ⟨S256x100000, .i1⟩
  | 101 => ⟨S256x100000, .f32⟩
  | 102 => ⟨S256x100000, .f32⟩
  | 103 => ⟨S_, .f32⟩
  | 104 => ⟨S256x100000, .f32⟩
  | 105 => ⟨S256x100000, .f32⟩
  | 106 => ⟨S256x100000, .f32⟩
  | 107 => ⟨S256x100000, .f32⟩
  | 108 => ⟨S_, .f32⟩
  | 109 => ⟨S256x100000, .f32⟩
  | 110 => ⟨S256x100000, .f32⟩
  | 111 => ⟨S_, .f32⟩
  | 112 => ⟨S256, .f32⟩
  | 113 => ⟨S_, .f32⟩
  | 114 => ⟨S256, .f32⟩
  | 115 => ⟨S256, .f32⟩
  | 116 => ⟨S256x1, .f32⟩
  | 117 => ⟨S256x100000, .f32⟩
  | 118 => ⟨S256x100000, .f32⟩
  | 119 => ⟨S256x100000, .f32⟩
  | 120 => ⟨S_, .f32⟩
  | 121 => ⟨S256, .f32⟩
  | 122 => ⟨S256x1, .f32⟩
  | 123 => ⟨S256x1, .f32⟩
  | 124 => ⟨S256x100000, .f32⟩
  | 125 => ⟨S256x100000, .f32⟩
  | 126 => ⟨S256x1, .i32⟩
  | 127 => ⟨S_, .i32⟩
  | _ => ⟨S256x512, .f32⟩

abbrev hbmTy0_1 (i : Nat) : BufTy := match i % 128 with
  | 0 => ⟨S256x1, .i32⟩
  | 1 => ⟨S256x1, .i1⟩
  | 2 => ⟨S_, .i32⟩
  | 3 => ⟨S256x1, .i32⟩
  | 4 => ⟨S256x1, .i32⟩
  | 5 => ⟨S256x1, .i32⟩
  | 6 => ⟨S256x1x1, .i32⟩
  | 7 => ⟨S1, .i32⟩
  | 8 => ⟨S_, .i32⟩
  | 9 => ⟨S256x1x1, .i32⟩
  | 10 => ⟨S256x1x1, .i1⟩
  | 11 => ⟨S1x1x1, .i32⟩
  | 12 => ⟨S256x1x1, .i32⟩
  | 13 => ⟨S256x1x1, .i1⟩
  | 14 => ⟨S256x1x1, .i1⟩
  | 15 => ⟨S_, .i1⟩
  | 16 => ⟨S256x1, .i1⟩
  | 17 => ⟨S256x1, .f32⟩
  | 18 => ⟨S_, .f32⟩
  | 19 => ⟨S256x1, .f32⟩
  | 20 => ⟨S256x1, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S256x1, .f32⟩
  | 28 => ⟨S256x1, .f32⟩
  | 29 => ⟨S_, .f32⟩
  | 30 => ⟨S256x1, .f32⟩
  | 31 => ⟨S256x1, .f32⟩
  | 32 => ⟨S256x1, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v42 : Ref sig .tc := ⟨.hbm, 81, rfl⟩
abbrev main_v43 : Ref sig .tc := ⟨.hbm, 82, rfl⟩
abbrev main_cst_11 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v55 : Ref sig .tc := ⟨.hbm, 101, rfl⟩
abbrev main_v56 : Ref sig .tc := ⟨.hbm, 102, rfl⟩
abbrev main_cst_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_14 : Ref sig .tc := ⟨.hbm, 108, rfl⟩
abbrev main_v61 : Ref sig .tc := ⟨.hbm, 109, rfl⟩
abbrev main_v62 : Ref sig .tc := ⟨.hbm, 110, rfl⟩
abbrev main_call7_cst : Ref sig .tc := ⟨.hbm, 111, rfl⟩
abbrev main_call7_v0 : Ref sig .tc := ⟨.hbm, 112, rfl⟩
abbrev main_call7_cst_0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_cst_1 : Ref sig .tc := ⟨.hbm, 120, rfl⟩
abbrev main_call7_v7 : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_v63 : Ref sig .tc := ⟨.hbm, 125, rfl⟩
abbrev main_v64 : Ref sig .tc := ⟨.hbm, 126, rfl⟩
abbrev main_call8_c : Ref sig .tc := ⟨.hbm, 127, rfl⟩
abbrev main_call8_v0 : Ref sig .tc := ⟨.hbm, 128, rfl⟩
abbrev main_call8_v1 : Ref sig .tc := ⟨.hbm, 129, rfl⟩
abbrev main_call8_c_0 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_v5 : Ref sig .tc := ⟨.hbm, 134, rfl⟩
abbrev main_call8_c_1 : Ref sig .tc := ⟨.hbm, 135, rfl⟩
abbrev main_call8_c_2 : Ref sig .tc := ⟨.hbm, 136, rfl⟩
abbrev main_call8_v6 : Ref sig .tc := ⟨.hbm, 137, rfl⟩
abbrev main_call8_v7 : Ref sig .tc := ⟨.hbm, 138, rfl⟩
abbrev main_call8_v8 : Ref sig .tc := ⟨.hbm, 139, rfl⟩
abbrev main_call8_v9 : Ref sig .tc := ⟨.hbm, 140, rfl⟩
abbrev main_call8_v10 : Ref sig .tc := ⟨.hbm, 141, rfl⟩
abbrev main_call8_v11 : Ref sig .tc := ⟨.hbm, 142, rfl⟩
abbrev main_call8_c_3 : Ref sig .tc := ⟨.hbm, 143, rfl⟩
abbrev main_call8_v12 : Ref sig .tc := ⟨.hbm, 144, rfl⟩
abbrev main_call8_v13 : Ref sig .tc := ⟨.hbm, 145, rfl⟩
abbrev main_call8_cst : Ref sig .tc := ⟨.hbm, 146, rfl⟩
abbrev main_call8_v14 : Ref sig .tc := ⟨.hbm, 147, rfl⟩
abbrev main_v65 : Ref sig .tc := ⟨.hbm, 148, rfl⟩
abbrev main_cst_15 : Ref sig .tc := ⟨.hbm, 149, rfl⟩
abbrev main_v66 : Ref sig .tc := ⟨.hbm, 150, rfl⟩
abbrev main_cst_16 : Ref sig .tc := ⟨.hbm, 151, rfl⟩
abbrev main_v67 : Ref sig .tc := ⟨.hbm, 152, rfl⟩
abbrev main_v68 : Ref sig .tc := ⟨.hbm, 153, rfl⟩
abbrev main_cst_17 : Ref sig .tc := ⟨.hbm, 154, rfl⟩
abbrev main_v69 : Ref sig .tc := ⟨.hbm, 155, rfl⟩
abbrev main_v70 : Ref sig .tc := ⟨.hbm, 156, rfl⟩
abbrev main_cst_18 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_cst_19 : Ref sig .tc := ⟨.hbm, 161, rfl⟩
abbrev main_v74 : Ref sig .tc := ⟨.hbm, 162, rfl⟩
abbrev main_cst_20 : Ref sig .tc := ⟨.hbm, 163, rfl⟩
abbrev main_v75 : Ref sig .tc := ⟨.hbm, 164, rfl⟩
abbrev main_cst_21 : Ref sig .tc := ⟨.hbm, 165, rfl⟩
abbrev main_v76 : Ref sig .tc := ⟨.hbm, 166, rfl⟩
abbrev main_v77 : Ref sig .tc := ⟨.hbm, 167, rfl⟩

abbrev nD : Nat := 1
abbrev τ : Topo := Topo.v7x

variable {F : FTy → Type} [FloatOps F]

class Facts₀ : Prop where
  reducesTo_S256x512_S512_d0 : S256x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  reducesTo_S512x100000_S100000_d0 : S512x100000.ReducesTo [0] S100000
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S256x1_S256x512_0_1 : S256x1.BroadcastsInDim S256x512 (![0, 1] : Fin 2 → Fin S256x512.rank)
  bcast_S_S256x100000 : S_.BroadcastsInDim S256x100000 (![] : Fin 0 → Fin S256x100000.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  reducesTo_S256x100000_S256_d1 : S256x100000.ReducesTo [1] S256
  bcast_S_S256 : S_.BroadcastsInDim S256 (![] : Fin 0 → Fin S256.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x512_S512x100000_S256x100000_1_0_0_1_n_n_wf : DotDims.WF S256x512 S512x100000 S256x100000 [1] [0] [0] [1] [] []
  gather_S256x100000_S256x1x1_S256x1_n_1_0_0_1_2_11_wf : GatherDims.WF S256x100000 S256x1x1 S256x1 [] [1] [0] [1] [0] 2 ![1, 1]

variable [Facts₀]

def dot_S256x512_S512x100000_S256x100000_1_0_0_1_n_n : DotDims S256x512 S512x100000 S256x100000 where
  lhsContracting := [1]
  rhsContracting := [0]
  lhsNonContracting := [0]
  rhsNonContracting := [1]
  lhsBatch := []
  rhsBatch := []
  wf := dot_S256x512_S512x100000_S256x100000_1_0_0_1_n_n_wf
def gather_S256x100000_S256x1x1_S256x1_n_1_0_0_1_2_11 : GatherDims S256x100000 S256x1x1 S256x1 where
  offsetDims := []
  collapsedSliceDims := [1]
  operandBatchingDims := [0]
  startIndicesBatchingDims := [0]
  startIndexMap := [1]
  indexVectorDim := 2
  sliceSizes := ![1, 1]
  wf := gather_S256x100000_S256x1x1_S256x1_n_1_0_0_1_2_11_wf

class Facts : Prop extends Facts₀ where

variable [Facts]
-- ==== Proof.BitsFrame.lean ====
/- The frame of the printed kernel at the bit-exact float model: it runs to the end, faults nowhere, and leaves its five
   argument arrays unchanged.

   Two of the pipeline's windows (the weight blocks and the logits blocks) overhang their arrays at the last tile, so what
   a staging buffer's tail holds there is named by nothing, and at the bit-exact model the scratch operands' contents
   depend on it afterwards. A frame needs none of that named: the proof data below are RELATIONS that say nothing of what
   the body leaves in any staging buffer, the region's invariant holds the scratch operands at some contents, and the
   body is shown to run from any contents whatever. The input arrays are never written by the pipeline, the buffers that
   bypass the region are untouched by it, and the host lines after the region write neither. -/
import proofs.«418458_j50414326120960_1_alg».proof.Proof.Gen.Kernel.Skeleton
import proofs.«418458_j50414326120960_1_alg».proof.Proof.Gen.Kernel.Frame
import proofs.«418458_j50414326120960_1_alg».proof.Proof.Gen.Kernel
import proofs.«418458_j50414326120960_1_alg».proof.Proof.Gen.Pre_finite_inputs
import proofs.«418458_j50414326120960_1_alg».proof.Defs

set_option maxRecDepth 16384

noncomputable section

namespace Cert.BitsFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The first conditional of the body (in its first part): the tile index is zero. -/
abbrev cond1 (i : grid0.Coords) : Prop :=
  (Scalar.cmpi .ne (Scalar.extui (Scalar.cmpi .eq (BitVec.ofNat 32 (i 0).val) 0#32)) 0#32) = 1#1

/-- The second conditional of the body: the tile index is the last one. -/
abbrev cond2 (i : grid0.Coords) : Prop := k0_cond2 i = 1#1

/-- A memref's elements on core `c` held at the full share, at SOME contents of their buffer. -/
abbrev held (c : Dev nD) {sp : Space} {sh : Shape} {e : EltTy} (a : Memref sig .tc sp sh e) : sProp 𝕄 :=
  iprop(∃ f : a.view.ty.Contents (Elt F), a.view.loc (c : Thread nD τ) ↦[a.view.set]{fullShare} f)

/-- Owning a memref at some contents it reads is holding it. -/
theorem held_of_owns (c : Dev nD) {sp : Space} {sh : Shape} {e : EltTy} (a : Memref sig .tc sp sh e) :
    iprop(∃ d, owns (c : Thread nD τ) a fullShare d) ⊢ (held (F := F) c a : sProp 𝕄) := by
  unfold owns
  iintro ⟨%d, %f, -, H⟩
  iexists f; iexact H

/-- Holding a memref is owning it at what it then reads. -/
theorem owns_of_held (c : Dev nD) {sp : Space} {sh : Shape} {e : EltTy} (a : Memref sig .tc sp sh e) :
    (held (F := F) c a : sProp 𝕄) ⊢ iprop(∃ d, owns (c : Thread nD τ) a fullShare d) := by
  iintro ⟨%f, H⟩
  iexists (a.view.read (Elt F) f)
  iapply (owns_intro (c : Thread nD τ) a fullShare f)
  iexact H

/-- What the body is run from and what it gives back: each of its ten memrefs held at some contents. -/
abbrev allHeld (c : Dev nD)
    (arg1 : Memref sig .tc .vmem S256x512 .f32) (arg2 : Memref sig .tc .vmem S512x2048 .f32)
    (arg3 : Memref sig .tc .vmem S256 .i32) (arg4 arg5 : Memref sig .tc .vmem S256x1 .f32)
    (arg6 : Memref sig .tc .vmem S256x2048 .f32) (arg7 arg8 arg9 arg10 : Memref sig .tc .vmem S256x1 .f32) : sProp 𝕄 :=
  iprop(held (F := F) c arg1 ∗ held (F := F) c arg2 ∗ held (F := F) c arg3 ∗ held (F := F) c arg4 ∗ held (F := F) c arg5
    ∗ held (F := F) c arg6 ∗ held (F := F) c arg7 ∗ held (F := F) c arg8 ∗ held (F := F) c arg9 ∗ held (F := F) c arg10)

/-- A memref held is owned at some contents in any relation that always holds. -/
theorem leaves_of_held (c : Dev nD) {sp : Space} {sh : Shape} {e : EltTy} (a : Memref sig .tc sp sh e)
    (R : (sh.Idx → Elt F e) → Prop) (hR : ∀ X, R X) :
    (held (F := F) c a : sProp 𝕄) ⊢ iprop(∃ X, ⌜R X⌝ ∗ owns (c : Thread nD τ) a fullShare X) := by
  iintro ⟨%f, H⟩
  iexists (a.view.read (Elt F) f)
  isplitr; · ipureintro; exact hR _
  iapply (owns_intro (c : Thread nD τ) a fullShare f)
  iexact H

/-! ## The body's runs, one per assignment of its two conditionals

Each run is stated for ANY grid point and ANY ten whole memrefs, each held at some contents of its buffer: the printed
function is its skeleton, whose loads read whole buffers that are held, whose stores overwrite whole buffers that are
held, and whose two conditionals are decided by the case's hypotheses; the continuation gets every memref back, held at
some contents (the stored ones at what was written over them). -/

set_option maxHeartbeats 1000000 in
/-- The body's run when both conditionals are taken (the scratch operands reset, then the result stored): no tile of this grid is both first and last, but the body runs there all the same, so the four cases cover every grid point with no fact about the grid. -/
theorem run_TT (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc1 : cond1 i) (hc2 : cond2 i) (E : Set ℕ) (K : PUnit → sProp 𝕄) :
    iprop(allHeld (F := F) c arg1 arg2 arg3 arg4 arg5 arg6 arg7 arg8 arg9 arg10
        ∗ (allHeld (F := F) c arg1 arg2 arg3 arg4 arg5 arg6 arg7 arg8 arg9 arg10 -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold allHeld held
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hk⟩
  sl_exec (disch := first | exact hc1 | exact hc2)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

set_option maxHeartbeats 1000000 in
/-- The body's run at the first tile: the scratch operands are reset before the tile's logits are folded in; the result window is not stored. -/
theorem run_TF (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc1 : cond1 i) (hc2 : ¬cond2 i) (E : Set ℕ) (K : PUnit → sProp 𝕄) :
    iprop(allHeld (F := F) c arg1 arg2 arg3 arg4 arg5 arg6 arg7 arg8 arg9 arg10
        ∗ (allHeld (F := F) c arg1 arg2 arg3 arg4 arg5 arg6 arg7 arg8 arg9 arg10 -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold allHeld held
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hk⟩
  sl_exec (disch := first | exact hc1 | exact hc2)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

set_option maxHeartbeats 1000000 in
/-- The body's run at the last tile: the tile's logits are folded in and the result is stored from the scratch operands. -/
theorem run_FT (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc1 : ¬cond1 i) (hc2 : cond2 i) (E : Set ℕ) (K : PUnit → sProp 𝕄) :
    iprop(allHeld (F := F) c arg1 arg2 arg3 arg4 arg5 arg6 arg7 arg8 arg9 arg10
        ∗ (allHeld (F := F) c arg1 arg2 arg3 arg4 arg5 arg6 arg7 arg8 arg9 arg10 -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold allHeld held
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hk⟩
  sl_exec (disch := first | exact hc1 | exact hc2)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

set_option maxHeartbeats 1000000 in
/-- The body's run at a middle tile: the tile's logits are folded into the scratch operands; the result window is not stored. -/
theorem run_FF (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc1 : ¬cond1 i) (hc2 : ¬cond2 i) (E : Set ℕ) (K : PUnit → sProp 𝕄) :
    iprop(allHeld (F := F) c arg1 arg2 arg3 arg4 arg5 arg6 arg7 arg8 arg9 arg10
        ∗ (allHeld (F := F) c arg1 arg2 arg3 arg4 arg5 arg6 arg7 arg8 arg9 arg10 -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold allHeld held
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hk⟩
  sl_exec (disch := first | exact hc1 | exact hc2)
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

variable (m : (ℓ : Loc nD τ sig) → Buf (Elt F) ℓ) (ρ : Dev nD → PrngReg)

/-! ## The body, from any contents -/

/-- The body of the kernel at any grid point, on any ten whole memrefs each held at some contents, runs to the
    continuation holding each at some contents: by cases on its two conditionals (the tile is the first; the tile
    is the last), each case its run. Nothing is assumed of what the buffers hold: every load is of a whole buffer
    held, every store overwrites a whole buffer held, and no value read steers control or an address. -/
theorem run_body (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (E : Set ℕ) (K : PUnit → sProp 𝕄) :
    iprop(allHeld (F := F) c arg1 arg2 arg3 arg4 arg5 arg6 arg7 arg8 arg9 arg10
        ∗ (allHeld (F := F) c arg1 arg2 arg3 arg4 arg5 arg6 arg7 arg8 arg9 arg10 -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  by_cases hc1 : cond1 i
  · by_cases hc2 : cond2 i
    · exact run_TT c i arg1 harg1 arg2 harg2 arg3 harg3 arg4 harg4 arg5 harg5 arg6 harg6 arg7 harg7 arg8 harg8 arg9 harg9 arg10 harg10 hc1 hc2 E K
    · exact run_TF c i arg1 harg1 arg2 harg2 arg3 harg3 arg4 harg4 arg5 harg5 arg6 harg6 arg7 harg7 arg8 harg8 arg9 harg9 arg10 harg10 hc1 hc2 E K
  · by_cases hc2 : cond2 i
    · exact run_FT c i arg1 harg1 arg2 harg2 arg3 harg3 arg4 harg4 arg5 harg5 arg6 harg6 arg7 harg7 arg8 harg8 arg9 harg9 arg10 harg10 hc1 hc2 E K
    · exact run_FF c i arg1 harg1 arg2 harg2 arg3 harg3 arg4 harg4 arg5 harg5 arg6 harg6 arg7 harg7 arg8 harg8 arg9 harg9 arg10 harg10 hc1 hc2 E K

/-! ## The staging memrefs and the scratch operands at a point -/

abbrev ms0 (t : Fin cfg0.N) : Memref sig .tc .vmem S256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)
/-- The scratch operands: whole scoped buffers of the kernel's own (running maximum, running sum, running target logit). -/
abbrev scM0 : Memref sig .tc .vmem S256x1 .f32 := Memref.whole cc0_scratch0
abbrev scM1 : Memref sig .tc .vmem S256x1 .f32 := Memref.whole cc0_scratch1
abbrev scM2 : Memref sig .tc .vmem S256x1 .f32 := Memref.whole cc0_scratch2

/-- The region's invariant: the three scratch operands, each held at some contents, and the random-number generator's
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-! ## The relational proof data: nothing is said of what the body leaves -/

/-- The proof data of the one pipeline on core `c`, as RELATIONS: the arrays as the region finds them; of what the
    body leaves in a window's staging buffer, nothing (the relation that always holds) — the claim reads no staging
    buffer and no output array —; the invariant the scratch operands at some contents; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

set_option maxHeartbeats 1600000 in
/-- The body at any point, whatever the staging buffers hold: the invariant hands over the scratch operands, the
    windows their current staging buffers; the body runs from any contents (`run_body`) and every buffer comes back at
    some contents, which is all the relations ask. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4) ∗ owns (c : Thread nD τ) (ms5 t) fullShare (Y 5)
        ∗ owns (c : Thread nD τ) (ms6 t) fullShare (Y 6))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X)
            ∗ (∃ X, ⌜(rdat m c).after 4 t (Y 4) X⌝ ∗ owns (c : Thread nD τ) (ms4 t) fullShare X)
            ∗ (∃ X, ⌜(rdat m c).after 5 t (Y 5) X⌝ ∗ owns (c : Thread nD τ) (ms5 t) fullShare X)
            ∗ (∃ X, ⌜(rdat m c).after 6 t (Y 6) X⌝ ∗ owns (c : Thread nD τ) (ms6 t) fullShare X))) := by
  rw [show (rdat m c).Φ t.castSucc = Pipeline.ΦA spec0 c from rfl, show (rdat m c).Φ t.succ = Pipeline.ΦA spec0 c from rfl,
    show (rdat m c).owesAt () t.succ = (rdat m c).owesAt () t.castSucc from rfl, PhiA_eq]
  unfold bodyAt0
  iintro ⟨⟨⟨HS0, HS1, HS2⟩, Hg⟩, Ho, H0, H1, H2, H3, H4, H5, H6⟩
  iapply (run_body c (grid0.coords t) (ms0 t) (hs0 t) (ms1 t) (hs1 t) (ms2 t) (hs2 t) (ms3 t) (hs3 t) (ms4 t) (hs4 t)
    (ms5 t) (hs5 t) (ms6 t) (hs6 t) scM0 (Memref.isWhole_whole _) scM1 (Memref.isWhole_whole _) scM2 (Memref.isWhole_whole _) Set.univ _)
  isplitl [H0 H1 H2 H3 H4 H5 H6 HS0 HS1 HS2]
  · isplitl [H0]; · iapply (held_of_owns c (ms0 t)); iexists _; iexact H0
    isplitl [H1]; · iapply (held_of_owns c (ms1 t)); iexists _; iexact H1
    isplitl [H2]; · iapply (held_of_owns c (ms2 t)); iexists _; iexact H2
    isplitl [H3]; · iapply (held_of_owns c (ms3 t)); iexists _; iexact H3
    isplitl [H4]; · iapply (held_of_owns c (ms4 t)); iexists _; iexact H4
    isplitl [H5]; · iapply (held_of_owns c (ms5 t)); iexists _; iexact H5
    isplitl [H6]; · iapply (held_of_owns c (ms6 t)); iexists _; iexact H6
    isplitl [HS0]; · iapply (held_of_owns c scM0); iexact HS0
    isplitl [HS1]; · iapply (held_of_owns c scM1); iexact HS1
    iapply (held_of_owns c scM2); iexact HS2
  iintro ⟨H0, H1, H2, H3, H4, H5, H6, HS0, HS1, HS2⟩
  isplitl [HS0 HS1 HS2 Hg]
  · isplitl [HS0 HS1 HS2]
    · isplitl [HS0]; · iapply (owns_of_held c scM0); iexact HS0
      isplitl [HS1]; · iapply (owns_of_held c scM1); iexact HS1
      iapply (owns_of_held c scM2); iexact HS2
    iexact Hg
  isplitl [Ho]; · iexact Ho
  isplitl [H0]; · iapply (leaves_of_held c (ms0 t) _ (fun _ => True.intro)); iexact H0
  isplitl [H1]; · iapply (leaves_of_held c (ms1 t) _ (fun _ => True.intro)); iexact H1
  isplitl [H2]; · iapply (leaves_of_held c (ms2 t) _ (fun _ => True.intro)); iexact H2
  isplitl [H3]; · iapply (leaves_of_held c (ms3 t) _ (fun _ => True.intro)); iexact H3
  isplitl [H4]; · iapply (leaves_of_held c (ms4 t) _ (fun _ => True.intro)); iexact H4
  isplitl [H5]; · iapply (leaves_of_held c (ms5 t) _ (fun _ => True.intro)); iexact H5
  iapply (leaves_of_held c (ms6 t) _ (fun _ => True.intro)); iexact H6

/-- The library's relational body obligation, at every point. -/
theorem body_obligation (c : Dev nD) :
    (rdat (F := F) m c).BodyObligation (defs₀ (F := F)) Variants.none () Set.univ := fun t Y _ => by
  rw [bigSep_W0, bigSep_W0]
  exact sound_body m c t Y

/-! ## The host lines after the region -/

open Classical in
/-- The buffers the host lines after the region write. -/
def T : Finset (Ref sig .tc) :=
  Finset.univ.filter fun b => ∃ op ∈ (hostOps1 : List (HloOp τ sig (Elt F))), Proc.devRef .tc b ∈ op.writes

theorem sfx_T : ∀ ops ∈ ([hostOps1] : List (List (HloOp τ sig (Elt F)))), ∀ op ∈ ops,
    ∀ b : Ref sig .tc, Proc.devRef .tc b ∈ op.writes → b ∈ T (F := F) := by
  intro ops hops op hop b hb
  simp only [List.mem_cons, List.mem_nil_iff, or_false] at hops
  subst hops
  exact Finset.mem_filter.mpr ⟨Finset.mem_univ _, op, hop, hb⟩

/-- A buffer none of those lines writes is not among them. -/
theorem not_mem_T (b : Ref sig .tc)
    (h : ∀ op ∈ (hostOps1 : List (HloOp τ sig (Elt F))), Proc.devRef .tc b ∉ op.writes) : b ∉ T (F := F) := fun hb => by
  obtain ⟨op, hop, hw⟩ := (Finset.mem_filter.mp hb).2
  exact h op hop hw

/-- No host line after the region writes `main_arg0`. -/
theorem not_mem_T_arg0 : main_arg0 ∉ T (F := F) :=
  not_mem_T main_arg0 (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line after the region writes `main_arg3`. -/
theorem not_mem_T_arg3 : main_arg3 ∉ T (F := F) :=
  not_mem_T main_arg3 (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line after the region writes `main_arg4`. -/
theorem not_mem_T_arg4 : main_arg4 ∉ T (F := F) :=
  not_mem_T main_arg4 (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run and the frame -/

set_option backward.isDefEq.respectTransparency.types false in
/-- Every weakly fair execution of @main on the TensorCores terminates, nothing faulting; at the end every input array
    of the pipeline holds what it held when the region was entered, and so does every buffer that bypasses the region
    and that no later host line writes. -/
theorem run_main : θ_run defs (onTc (τ := τ) (main (F := F))) (s₀ m ρ)
    (RDat.FramePostR cfg0 (rdat m) (T (F := F)) (V m)) :=
  RDat.θ_run_frame_around_T cfgs (0 : Fin 1) launch0 defs₀ Variants.none (rdat m) (T (F := F)) m ρ main
    (hbody := body_obligation m) (hshare := fun c => (rdat m c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame at any float model: the five argument arrays end as launched. `main_arg1` and `main_arg2` are the arrays
    of input windows 2 and 1, which the pipeline only reads; `main_arg0`, `main_arg3`, `main_arg4` bypass the region and
    no host line writes them. -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), not_mem_T_arg0⟩)).trans (V_main_arg0 m c),
     (h.arr_in c 2 rfl).trans ((A_eq m c 2).trans (V_main_arg1 m c)),
     (h.arr_in c 1 rfl).trans ((A_eq m c 1).trans (V_main_arg2 m c)),
     ((h c).2 main_arg3 (Finset.mem_sdiff.mpr ⟨Pipeline.mem_restRefs_of main_arg3 (by decide) (by decide), not_mem_T_arg3⟩)).trans (V_main_arg3 m c),
     ((h c).2 main_arg4 (Finset.mem_sdiff.mpr ⟨Pipeline.mem_restRefs_of main_arg4 (by decide) (by decide), not_mem_T_arg4⟩)).trans (V_main_arg4 m c)⟩)
    (run_main m ρ)

/-- THE FRAME of the printed kernel, at the bit-exact float model. -/
theorem frame : Cert.frame_Kernel (hKernel := Cert.Kernel.Gen.facts) (hPre_finite_inputs := Cert.Pre_finite_inputs.Gen.facts) :=
  fun m ρ _ => frame_gen (F := Bits) m ρ

end Cert.BitsFrame

end
-- ==== Proof.Preserves.lean ====
/-
  The idealization's one ledger entry: the kernel's fill for the padded columns, the word of -1e30, is read
  at the ideal instance as the name "neg_big", to which the certificate's table gives the value -∞.
-/
import proofs.«418458_j50414326120960_1_alg».proof.Defs

noncomputable section

namespace Cert.Preserves

open Idealize.ShloMosaic

/-- The table gives "neg_big" the value ⊥, and the printed constant is that value at the ideal instance. -/
theorem preserves : Cert.preserves_Kernel_KernelIdeal :=
  IdealRules.named_const.statement Cert.KernelIdeal.κ "neg_big" .f32 0xF149F2CA#32 ⊥ rfl

end Cert.Preserves

end
-- ==== Proof.IdealRun.Base.lean ====
import proofs.«418458_j50414326120960_1_alg».proof.Proof.Gen.KernelIdeal.Skeleton
import proofs.«418458_j50414326120960_1_alg».proof.Proof.Gen.KernelIdeal.Launch
import proofs.«418458_j50414326120960_1_alg».proof.Proof.Gen.KernelIdeal.Points
import proofs.«418458_j50414326120960_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's two branch conditions, in closed form over the grid -/

/-- The condition of the body's first conditional (the reset of the running statistics), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the final negative log-likelihood), from the grid coordinate. -/
abbrev cond0_1 (i : grid0.Coords) : Prop := k0_cond2 i = 1#1
/-- It holds at the last point only. -/
theorem hcond0_1 : ∀ t : Fin cfg0.N, cond0_1 (grid0.coords t) ↔ t.val = 48 :=
  (by decide +kernel : ∀ t : Fin grid0.N, cond0_1 (grid0.coords t) ↔ t.val = 48)

/-! ## Where the last output window is idle -/

/-- Off the last point the last output window is idle: nothing is stored into it, -/
theorem idleAt0_6 : ∀ t : Fin cfg0.N, ¬cond0_1 (grid0.coords t) → cfg0.idle 6 (grid0.coords t) = true := by decide +kernel
/-- and it is not written back there. -/
theorem noFlush0_6 : ∀ t : Fin cfg0.N, ¬cond0_1 (grid0.coords t) → (cfg0.win 6).flush t = false := by decide +kernel
/-- At the last point it is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
/-- The three scratch operands: the running maximum, the running sum, the running target logit. -/
abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2

/-- What the launch hands the region, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The two zero offsets of a whole-buffer rectangle of rank two, however spelt. -/
theorem hz2 : (![0, 0] : Fin 2 → Nat) = fun _ => 0 := by funext a; fin_cases a <;> rfl

end Cert.IdealRun

end
-- ==== Proof.IdealRun.Vals.lean ====
import proofs.«418458_j50414326120960_1_alg».proof.Proof.IdealRun.Base
import Idealize.ShloMosaic.Lib.Pipeline.Value

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What one point of the body computes, over the values it loads

The body's payload functions composed as the body composes them: from the feature block `x`, the weight block `W`,
the targets `tg`, the two margin columns `cm`, `sn` and the three running statistics as loaded. -/

/-- The lane index vector the body compares the targets with. -/
abbrev iotaV : IVec S256x2048 32 := iota .tc S256x2048 32 [1] iota_S256x2048_d1_w32
/-- The clamped cosines of the point's block. -/
abbrev cosV (x : Vec F S256x512 .f32) (W : Vec F S512x2048 .f32) : FVec F S256x2048 .f32 := k0_pay7 W x
/-- The margin-shifted cosines. -/
abbrev marV (x : Vec F S256x512 .f32) (W : Vec F S512x2048 .f32) (cm sn : Vec F S256x1 .f32) : FVec F S256x2048 .f32 := k0_pay8 W x cm sn
/-- The point's block of logits: what the body stores into the logits window's buffer. -/
abbrev lgtV (i : grid0.Coords) (x : Vec F S256x512 .f32) (W : Vec F S512x2048 .f32) (tg : Vec F S256 .i32) (cm sn : Vec F S256x1 .f32) : FVec F S256x2048 .f32 :=
  k0_pay12 (cosV x W) (marV x W cm sn) iotaV (k0_pay9 i) tg
/-- The running maximum the point leaves, from the one it loaded. -/
abbrev mxV (i : grid0.Coords) (x : Vec F S256x512 .f32) (W : Vec F S512x2048 .f32) (tg : Vec F S256 .i32) (cm sn : Vec F S256x1 .f32) (mp : Vec F S256x1 .f32) : FVec F S256x1 .f32 :=
  k0_pay2 (k0_pay13 (cosV x W) (marV x W cm sn) iotaV (k0_pay9 i) tg mp)
/-- The running sum the point leaves, from the running maximum and sum it loaded. -/
abbrev sxV (i : grid0.Coords) (x : Vec F S256x512 .f32) (W : Vec F S512x2048 .f32) (tg : Vec F S256 .i32) (cm sn : Vec F S256x1 .f32) (mp sp : Vec F S256x1 .f32) : FVec F S256x1 .f32 :=
  k0_pay14 (cosV x W) (marV x W cm sn) iotaV (k0_pay9 i) tg mp mp sp
/-- The running target logit the point leaves, from the one it loaded. -/
abbrev txV (i : grid0.Coords) (x : Vec F S256x512 .f32) (W : Vec F S512x2048 .f32) (tg : Vec F S256 .i32) (cm sn : Vec F S256x1 .f32) (tp : Vec F S256x1 .f32) : FVec F S256x1 .f32 :=
  k0_pay1 (k0_pay15 (cosV x W) (marV x W cm sn) iotaV (k0_pay9 i) tg tp)

/-- The zero offset of a whole-buffer rectangle of rank one, however spelt. -/
theorem hz1 : (![0] : Fin 1 → Nat) = fun _ => 0 := by funext a; fin_cases a; rfl

end Cert.IdealRun

end
-- ==== Proof.IdealRun.Data.lean ====
import proofs.«418458_j50414326120960_1_alg».proof.Proof.IdealRun.Vals

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents the run tracks, abstractly -/

/-- What the proof names of the kernel's run: the logits block each point leaves, the three running statistics after
    each number of points (position `0`: as the first point's reset leaves them), and the final column. -/
structure Track (F : FTy → Type) where
  outB : Fin cfg0.N → Vec F S256x2048 .f32
  mx : ℕ → Vec F S256x1 .f32
  sx : ℕ → Vec F S256x1 .f32
  tx : ℕ → Vec F S256x1 .f32
  nll : Vec F S256x1 .f32

/-! ## What the body loads at a point -/

/-- The feature block (the whole array, at every point). -/
abbrev xAt (c : Dev nD) (t : Fin cfg0.N) : Vec F S256x512 .f32 := iblk m c 0 t
/-- The weight block as the buffer holds it: the part of the block inside the array, filled out by `d` past the array's
    end. -/
abbrev wAt (c : Dev nD) (t : Fin cfg0.N) (d : Vec F S512x2048 .f32) : Vec F S512x2048 .f32 :=
  (cfg0.win 1).fill (cfg0.grid.coords t) d (iblk m c 1 t)
/-- The targets. -/
abbrev tgAt (c : Dev nD) (t : Fin cfg0.N) : Vec F S256 .i32 := iblk m c 2 t
/-- The two margin columns. -/
abbrev cmAt (c : Dev nD) (t : Fin cfg0.N) : Vec F S256x1 .f32 := iblk m c 3 t
abbrev snAt (c : Dev nD) (t : Fin cfg0.N) : Vec F S256x1 .f32 := iblk m c 4 t

/-- THE PURE STEPS. What the tracked contents must satisfy for the run to follow them: the reset values; at every
    point, whatever fills the weight buffer past the array's end, the logits block agrees with the tracked one on the part
    written back, and the three statistics step from the tracked values to the next tracked values; the final column is
    the negative log-likelihood of the last statistics. -/
structure Steps (T : Track F) (c : Dev nD) : Prop where
  mx0 : T.mx 0 = k0_pay4
  sx0 : T.sx 0 = k0_pay5
  tx0 : T.tx 0 = k0_pay6
  out : ∀ (t : Fin cfg0.N) (d : Vec F S512x2048 .f32),
    (cfg0.win 5).cut (cfg0.grid.coords t) (lgtV (grid0.coords t) (xAt m c t) (wAt m c t d) (tgAt m c t) (cmAt m c t) (snAt m c t))
      = (cfg0.win 5).cut (cfg0.grid.coords t) (T.outB t)
  mx : ∀ (t : Fin cfg0.N) (d : Vec F S512x2048 .f32),
    mxV (grid0.coords t) (xAt m c t) (wAt m c t d) (tgAt m c t) (cmAt m c t) (snAt m c t) (T.mx t.val) = T.mx (t.val + 1)
  sx : ∀ (t : Fin cfg0.N) (d : Vec F S512x2048 .f32),
    sxV (grid0.coords t) (xAt m c t) (wAt m c t d) (tgAt m c t) (cmAt m c t) (snAt m c t) (T.mx t.val) (T.sx t.val) = T.sx (t.val + 1)
  tx : ∀ (t : Fin cfg0.N) (d : Vec F S512x2048 .f32),
    txV (grid0.coords t) (xAt m c t) (wAt m c t d) (tgAt m c t) (cmAt m c t) (snAt m c t) (T.tx t.val) = T.tx (t.val + 1)
  nll : k0_pay3 (T.mx 49) (T.sx 49) (T.tx 49) = T.nll

/-! ## The region invariant -/

/-- Before position `n`: at the start what the launch hands the region (every scratch at anything); afterwards the three
    running statistics at the tracked values after `n` points, and the generator register at some state. -/
def PhiS (T : Track F) (c : Dev nD) : ℕ → sProp 𝕄
  | 0 => Pipeline.ΦA spec0 c
  | n + 1 => iprop(iprop(owns (c : Thread nD τ) scM0_0 fullShare (T.mx (n + 1)) ∗ owns (c : Thread nD τ) scM0_1 fullShare (T.sx (n + 1)) ∗ owns (c : Thread nD τ) scM0_2 fullShare (T.tx (n + 1))) ∗ (∃ r, prngReg c r))

theorem PhiS_zero (T : Track F) (c : Dev nD) : PhiS T c 0 = Pipeline.ΦA spec0 c := rfl

theorem PhiS_pos (T : Track F) (c : Dev nD) (n : ℕ) (hz : n ≠ 0) :
    PhiS T c n = iprop(iprop(owns (c : Thread nD τ) scM0_0 fullShare (T.mx n) ∗ owns (c : Thread nD τ) scM0_1 fullShare (T.sx n) ∗ owns (c : Thread nD τ) scM0_2 fullShare (T.tx n)) ∗ (∃ r, prngReg c r)) := by
  cases n with
  | zero => exact absurd rfl hz
  | succ n => rfl

/-! ## The pipeline's proof data -/

/-- The proof data of the one pipeline on core `c`: the arrays as the region finds them; after the body at point `t`
    each input's buffer at its block (the clipped weight block filled out by zeros), the logits buffer at the tracked
    block, the last output's at the tracked column; the invariant `PhiS`; nothing owed; full shares. -/
def dats (T : Dev nD → Track F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => (T c).outB t
    | ⟨6, _⟩ => (T c).nll
  Φ t := PhiS (T c) c t.val
  q _ := fullShare
  owed _ := 0

theorem A_eq (T : Dev nD → Track F) (c : Dev nD) (w : Fin cfg0.W) : (dats m T 0 c).A w = V m c (Pipeline.arrRef spec0 w) := by
  dsimp only [dats]

theorem Phi_castSucc (T : Dev nD → Track F) (c : Dev nD) (t : Fin cfg0.N) :
    (dats m T 0 c).Φ t.castSucc = PhiS (T c) c t.val := by
  dsimp only [dats]; simp only [Fin.coe_castSucc]

theorem Phi_succ (T : Dev nD → Track F) (c : Dev nD) (t : Fin cfg0.N) :
    (dats m T 0 c).Φ t.succ = PhiS (T c) c (t.val + 1) := by
  dsimp only [dats]; simp only [Fin.val_succ]

theorem after0 (T : Dev nD → Track F) (c : Dev nD) (t : Fin cfg0.N) : (dats m T 0 c).after 0 t = iblk m c 0 t := by dsimp only [dats]
theorem after1 (T : Dev nD → Track F) (c : Dev nD) (t : Fin cfg0.N) :
    (dats m T 0 c).after 1 t = (cfg0.win 1).fill (cfg0.grid.coords t) (fun _ => Scalar.ofBits .f32 0#32) (iblk m c 1 t) := by dsimp only [dats]
theorem after2 (T : Dev nD → Track F) (c : Dev nD) (t : Fin cfg0.N) : (dats m T 0 c).after 2 t = iblk m c 2 t := by dsimp only [dats]
theorem after3 (T : Dev nD → Track F) (c : Dev nD) (t : Fin cfg0.N) : (dats m T 0 c).after 3 t = iblk m c 3 t := by dsimp only [dats]
theorem after4 (T : Dev nD → Track F) (c : Dev nD) (t : Fin cfg0.N) : (dats m T 0 c).after 4 t = iblk m c 4 t := by dsimp only [dats]
theorem after5 (T : Dev nD → Track F) (c : Dev nD) (t : Fin cfg0.N) : (dats m T 0 c).after 5 t = (T c).outB t := by dsimp only [dats]
theorem after6 (T : Dev nD → Track F) (c : Dev nD) (t : Fin cfg0.N) : (dats m T 0 c).after 6 t = (T c).nll := by dsimp only [dats]

/-! ## What each buffer holds when the body runs -/

theorem before0 (T : Dev nD → Track F) (c : Dev nD) (t : Fin cfg0.N) (d) : (dats m T 0 c).before 0 t d = iblk m c 0 t :=
  before0_0_of m (dats m T 0 c) (A_eq m T c 0) (after0 m T c) t d
theorem before2 (T : Dev nD → Track F) (c : Dev nD) (t : Fin cfg0.N) (d) : (dats m T 0 c).before 2 t d = iblk m c 2 t :=
  before0_2_of m (dats m T 0 c) (A_eq m T c 2) (after2 m T c) t d
theorem before3 (T : Dev nD → Track F) (c : Dev nD) (t : Fin cfg0.N) (d) : (dats m T 0 c).before 3 t d = iblk m c 3 t :=
  before0_3_of m (dats m T 0 c) (A_eq m T c 3) (after3 m T c) t d
theorem before4 (T : Dev nD → Track F) (c : Dev nD) (t : Fin cfg0.N) (d) : (dats m T 0 c).before 4 t d = iblk m c 4 t :=
  before0_4_of m (dats m T 0 c) (A_eq m T c 4) (after4 m T c) t d

/-- The weight window is fetched at every point: its buffer holds the block's part inside the array, and past the
    array's end what it held. -/
theorem before1 (T : Dev nD → Track F) (c : Dev nD) (t : Fin cfg0.N) (d) :
    (dats m T 0 c).before 1 t d = (cfg0.win 1).fill (cfg0.grid.coords t) d (iblk m c 1 t) := by
  unfold Dat.before; rw [if_pos (fetch0_1 t)]; unfold Dat.fetched Dat.blockOf iblk; rw [A_eq]

/-- An output window is never fetched. -/
theorem fetch0_5 : ∀ t : Fin cfg0.N, (cfg0.win 5).fetch t = false :=
  (by decide +kernel : ∀ t : Fin grid0.N, win0_5.fetch t = false)

/-- The logits window is written back at every point: its buffer holds nothing the proof names. -/
theorem before5 (T : Dev nD → Track F) (c : Dev nD) (t : Fin cfg0.N) (d) : (dats m T 0 c).before 5 t d = d := by
  unfold Dat.before
  rw [if_neg (by rw [fetch0_5 t]; exact Bool.false_ne_true)]
  by_cases ht : t.val = 0
  · rw [if_pos ht]
  · rw [if_neg ht]; dsimp only; rw [if_pos (flush0_5 _)]

/-- The part of the weight buffer the proof data names is the block inside the array. -/
theorem cut_after1 (T : Dev nD → Track F) (c : Dev nD) (t : Fin cfg0.N) :
    (cfg0.win 1).cut (cfg0.grid.coords t) ((dats m T 0 c).after 1 t) = iblk m c 1 t := by
  rw [after1]; exact (cfg0.win 1).cut_fill _ _ _

end Cert.IdealRun

end
-- ==== Proof.IdealRun.RunA.lean ====
import proofs.«418458_j50414326120960_1_alg».proof.Proof.IdealRun.Vals

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT THE FIRST POINT (the first conditional taken, the second not). On whole memrefs — the five inputs' at
    their contents, the logits buffer and the three running statistics at anything, the last output's buffer at contents
    handed back untouched — the body resets the three statistics and then runs as at a middle point over the reset
    values. -/
theorem kernelRun0_A (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : ¬cond0_1 i)
    (x : Vec F S256x512 .f32) (W : Vec F S512x2048 .f32) (tg : Vec F S256 .i32) (cm sn : Vec F S256x1 .f32)
    (xi6 : Vec F S256x1 .f32) (E : Set ℕ) (K : PUnit → sProp 𝕄) :
    iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
        ∗ (∃ d, owns (c : Thread nD τ) arg6 fullShare d) ∗ owns (c : Thread nD τ) arg7 fullShare xi6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
            ∗ owns (c : Thread nD τ) arg6 fullShare (lgtV i x W tg cm sn) ∗ owns (c : Thread nD τ) arg7 fullShare xi6
            ∗ owns (c : Thread nD τ) arg8 fullShare (mxV i x W tg cm sn k0_pay4) ∗ owns (c : Thread nD τ) arg9 fullShare (sxV i x W tg cm sn k0_pay4 k0_pay5) ∗ owns (c : Thread nD τ) arg10 fullShare (txV i x W tg cm sn k0_pay6)) -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (fun y => ⟨_, List.mem_cons_self, View.mem_set_unit_zero hz2 inb_S256x2048_S256x2048_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H7]
  · iexists _; isplitr; · ipureintro; exact harg7.read_unread _
    iexact H7
  isplitl [H8]
  · iexists _; isplitr; swap; · iexact H8
    ipureintro
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H9]
  · iexists _; isplitr; swap; · iexact H9
    ipureintro
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  iexists _; isplitr; swap; · iexact H10
  ipureintro
  rw [View.read_writes_eq_canon _ _ _ (fun y => ⟨_, List.mem_cons_self, View.mem_set_unit_zero hz2 inb_S256x1_S256x1_0_0 y⟩)]
  sl_unfold_words
  rw [View.canon_cons_unit_zero hz2]
  simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
  rfl

end Cert.IdealRun

end
-- ==== Proof.IdealRun.RunB.lean ====
import proofs.«418458_j50414326120960_1_alg».proof.Proof.IdealRun.Vals

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A MIDDLE POINT (neither conditional taken). On whole memrefs — the five inputs' at their contents, the
    logits buffer at anything, the last output's buffer at contents handed back untouched, the three running statistics at
    what the point before left — the body runs to the continuation holding the inputs as they were, the logits buffer
    at the point's block of logits and the three statistics updated. -/
theorem kernelRun0_B (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i)
    (x : Vec F S256x512 .f32) (W : Vec F S512x2048 .f32) (tg : Vec F S256 .i32) (cm sn : Vec F S256x1 .f32)
    (xi6 : Vec F S256x1 .f32) (mp sp tp : Vec F S256x1 .f32) (E : Set ℕ) (K : PUnit → sProp 𝕄) :
    iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
        ∗ (∃ d, owns (c : Thread nD τ) arg6 fullShare d) ∗ owns (c : Thread nD τ) arg7 fullShare xi6
        ∗ owns (c : Thread nD τ) arg8 fullShare mp ∗ owns (c : Thread nD τ) arg9 fullShare sp ∗ owns (c : Thread nD τ) arg10 fullShare tp
        ∗ (iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
            ∗ owns (c : Thread nD τ) arg6 fullShare (lgtV i x W tg cm sn) ∗ owns (c : Thread nD τ) arg7 fullShare xi6
            ∗ owns (c : Thread nD τ) arg8 fullShare (mxV i x W tg cm sn mp) ∗ owns (c : Thread nD τ) arg9 fullShare (sxV i x W tg cm sn mp sp) ∗ owns (c : Thread nD τ) arg10 fullShare (txV i x W tg cm sn tp)) -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (fun y => ⟨_, List.mem_cons_self, View.mem_set_unit_zero hz2 inb_S256x2048_S256x2048_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H7]
  · iexists _; isplitr; · ipureintro; exact harg7.read_unread _
    iexact H7
  isplitl [H8]
  · iexists _; isplitr; swap; · iexact H8
    ipureintro
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H9]
  · iexists _; isplitr; swap; · iexact H9
    ipureintro
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  iexists _; isplitr; swap; · iexact H10
  ipureintro
  rw [View.read_writes_eq_canon _ _ _ (fun y => ⟨_, List.mem_cons_self, View.mem_set_unit_zero hz2 inb_S256x1_S256x1_0_0 y⟩)]
  sl_unfold_words
  rw [View.canon_cons_unit_zero hz2]
  simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
  rfl

end Cert.IdealRun

end
-- ==== Proof.IdealRun.RunC.lean ====
import proofs.«418458_j50414326120960_1_alg».proof.Proof.IdealRun.Vals

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE LAST POINT (the first conditional not taken, the second taken). On whole memrefs — the five inputs'
    at their contents, the two outputs' buffers at anything, the three running statistics at what the point before left —
    the body runs as at a middle point and then stores the negative log-likelihood of the three statistics it has just
    stored into the last output's buffer. -/
theorem kernelRun0_C (c : Dev nD) (i : grid0.Coords) (arg1 : Memref sig .tc .vmem S256x512 .f32) (harg1 : arg1.IsWhole) (arg2 : Memref sig .tc .vmem S512x2048 .f32) (harg2 : arg2.IsWhole) (arg3 : Memref sig .tc .vmem S256 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i)
    (x : Vec F S256x512 .f32) (W : Vec F S512x2048 .f32) (tg : Vec F S256 .i32) (cm sn : Vec F S256x1 .f32)
    (mp sp tp : Vec F S256x1 .f32) (E : Set ℕ) (K : PUnit → sProp 𝕄) :
    iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
        ∗ (∃ d, owns (c : Thread nD τ) arg6 fullShare d) ∗ (∃ d, owns (c : Thread nD τ) arg7 fullShare d)
        ∗ owns (c : Thread nD τ) arg8 fullShare mp ∗ owns (c : Thread nD τ) arg9 fullShare sp ∗ owns (c : Thread nD τ) arg10 fullShare tp
        ∗ (iprop(owns (c : Thread nD τ) arg1 fullShare x ∗ owns (c : Thread nD τ) arg2 fullShare W ∗ owns (c : Thread nD τ) arg3 fullShare tg
        ∗ owns (c : Thread nD τ) arg4 fullShare cm ∗ owns (c : Thread nD τ) arg5 fullShare sn
            ∗ owns (c : Thread nD τ) arg6 fullShare (lgtV i x W tg cm sn) ∗ owns (c : Thread nD τ) arg7 fullShare (k0_pay3 (mxV i x W tg cm sn mp) (sxV i x W tg cm sn mp sp) (txV i x W tg cm sn tp))
            ∗ owns (c : Thread nD τ) arg8 fullShare (mxV i x W tg cm sn mp) ∗ owns (c : Thread nD τ) arg9 fullShare (sxV i x W tg cm sn mp sp) ∗ owns (c : Thread nD τ) arg10 fullShare (txV i x W tg cm sn tp)) -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10) K := by
  simp only [cc0__logits_kernel_eq_skeleton]; unfold cc0__logits_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (fun y => ⟨_, List.mem_cons_self, View.mem_set_unit_zero hz2 inb_S256x2048_S256x2048_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H7]
  · iexists _; isplitr; swap; · iexact H7
    ipureintro
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H8]
  · iexists _; isplitr; swap; · iexact H8
    ipureintro
    delta kernelRun0_C.sl.H8_1
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  isplitl [H9]
  · iexists _; isplitr; swap; · iexact H9
    ipureintro
    delta kernelRun0_C.sl.H9_1
    rw [View.read_writes_eq_canon _ _ _ (fun y => ⟨_, List.mem_cons_self, View.mem_set_unit_zero hz2 inb_S256x1_S256x1_0_0 y⟩)]
    sl_unfold_words
    rw [View.canon_cons_unit_zero hz2]
    simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
    rfl
  iexists _; isplitr; swap; · iexact H10
  ipureintro
  try delta kernelRun0_C.sl.H10_1
  rw [View.read_writes_eq_canon _ _ _ (fun y => ⟨_, List.mem_cons_self, View.mem_set_unit_zero hz2 inb_S256x1_S256x1_0_0 y⟩)]
  sl_unfold_words
  rw [View.canon_cons_unit_zero hz2]
  simp only [View.readAt_eq_ld, Memref.IsWhole.read_unread, View.ld_unit_zero (S := S256x1) hz2, View.ld_unit_zero (S := S256x2048) hz2, View.ld_unit_zero (S := S512x2048) hz2, View.ld_unit_zero (S := S256x512) hz2, View.ld_unit_zero (S := S256) hz1, View.readCov_unit_zero (S := S256x1) _ hz2]
  rfl

end Cert.IdealRun

end
-- ==== Proof.IdealRun.Body.lean ====
import proofs.«418458_j50414326120960_1_alg».proof.Proof.IdealRun.Data
import proofs.«418458_j50414326120960_1_alg».proof.Proof.IdealRun.RunA
import proofs.«418458_j50414326120960_1_alg».proof.Proof.IdealRun.RunB
import proofs.«418458_j50414326120960_1_alg».proof.Proof.IdealRun.RunC

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the obligation asks of each buffer after the body -/

theorem leaves0 (T : Dev nD → Track F) (c : Dev nD) (t : Fin cfg0.N) :
    (dats m T 0 c).leaves 0 t = owns (c : Thread nD τ) (ms0_0 t) fullShare (iblk m c 0 t) :=
  congrArg (owns (c : Thread nD τ) (ms0_0 t) fullShare) (after0 m T c t)
theorem leaves2 (T : Dev nD → Track F) (c : Dev nD) (t : Fin cfg0.N) :
    (dats m T 0 c).leaves 2 t = owns (c : Thread nD τ) (ms0_2 t) fullShare (iblk m c 2 t) :=
  congrArg (owns (c : Thread nD τ) (ms0_2 t) fullShare) (after2 m T c t)
theorem leaves3 (T : Dev nD → Track F) (c : Dev nD) (t : Fin cfg0.N) :
    (dats m T 0 c).leaves 3 t = owns (c : Thread nD τ) (ms0_3 t) fullShare (iblk m c 3 t) :=
  congrArg (owns (c : Thread nD τ) (ms0_3 t) fullShare) (after3 m T c t)
theorem leaves4 (T : Dev nD → Track F) (c : Dev nD) (t : Fin cfg0.N) :
    (dats m T 0 c).leaves 4 t = owns (c : Thread nD τ) (ms0_4 t) fullShare (iblk m c 4 t) :=
  congrArg (owns (c : Thread nD τ) (ms0_4 t) fullShare) (after4 m T c t)
/-- The two clipped windows are stated on the part the transfers move only. -/
theorem leaves1 (T : Dev nD → Track F) (c : Dev nD) (t : Fin cfg0.N) :
    (dats m T 0 c).leaves 1 t = iprop(∃ d, owns (c : Thread nD τ) (ms0_1 t) fullShare ((cfg0.win 1).fill (cfg0.grid.coords t) d (iblk m c 1 t))) := by
  rw [← cut_after1 m T c t]; rfl
theorem leaves5 (T : Dev nD → Track F) (c : Dev nD) (t : Fin cfg0.N) :
    (dats m T 0 c).leaves 5 t = iprop(∃ d, owns (c : Thread nD τ) (ms0_5 t) fullShare ((cfg0.win 5).fill (cfg0.grid.coords t) d ((cfg0.win 5).cut (cfg0.grid.coords t) ((T c).outB t)))) := by
  rw [← after5 m T c t]; rfl
/-- The last output window at the last point: live. -/
theorem leaves6_live (T : Dev nD → Track F) (c : Dev nD) (t : Fin cfg0.N) (hc1 : cond0_1 (grid0.coords t)) :
    (dats m T 0 c).leaves 6 t = owns (c : Thread nD τ) (ms0_6 t) fullShare ((T c).nll) := by
  unfold Dat.leaves; rw [liveAt0_6 t hc1]
  exact congrArg (owns (c : Thread nD τ) (ms0_6 t) fullShare) (after6 m T c t)

/-! ## The body obligation, at a generic point -/

/-- What the body is called with at point `t`, the windows one by one, -/
def bodyPre (T : Dev nD → Track F) (c : Dev nD) (t : Fin cfg0.N) : sProp 𝕄 :=
  iprop((dats m T 0 c).Φ t.castSucc ∗ (dats m T 0 c).owesAt () t.castSucc
    ∗ (∃ d, owns (c : Thread nD τ) (ms0_0 t) fullShare ((dats m T 0 c).before 0 t d))
    ∗ (∃ d, owns (c : Thread nD τ) (ms0_1 t) fullShare ((dats m T 0 c).before 1 t d))
    ∗ (∃ d, owns (c : Thread nD τ) (ms0_2 t) fullShare ((dats m T 0 c).before 2 t d))
    ∗ (∃ d, owns (c : Thread nD τ) (ms0_3 t) fullShare ((dats m T 0 c).before 3 t d))
    ∗ (∃ d, owns (c : Thread nD τ) (ms0_4 t) fullShare ((dats m T 0 c).before 4 t d))
    ∗ (∃ d, owns (c : Thread nD τ) (ms0_5 t) fullShare ((dats m T 0 c).before 5 t d))
    ∗ (∃ d, owns (c : Thread nD τ) (ms0_6 t) fullShare ((dats m T 0 c).before 6 t d)))

/-- and what it returns. -/
def bodyPost (T : Dev nD → Track F) (c : Dev nD) (t : Fin cfg0.N) : sProp 𝕄 :=
  iprop((dats m T 0 c).Φ t.succ ∗ (dats m T 0 c).owesAt () t.succ
    ∗ (dats m T 0 c).leaves 0 t
    ∗ (dats m T 0 c).leaves 1 t
    ∗ (dats m T 0 c).leaves 2 t
    ∗ (dats m T 0 c).leaves 3 t
    ∗ (dats m T 0 c).leaves 4 t
    ∗ (dats m T 0 c).leaves 5 t
    ∗ (dats m T 0 c).leaves 6 t)

set_option maxHeartbeats 4000000 in
/-- The body at any point. The inputs' buffers hold their blocks, the weight buffer its block filled out past the
    array's end by whatever it held; the closed forms of the two conditions say which of the three cases the point is in;
    that case's run applies, the three running statistics arriving at the tracked values (at the first point: at anything,
    the reset values being the tracked ones at position `0`) and leaving at the next tracked values by the pure steps;
    the logits buffer is left at the point's block, which agrees with the tracked block on the part written back; the
    last output's buffer is handed back untouched off the last point and left at the tracked column there. -/
theorem sound_body (T : Dev nD → Track F) (hT : ∀ c, Steps m (T c) c) (c : Dev nD) (t : Fin cfg0.N) :
    bodyPre m T c t ⊢ wp frame (wpE (defs₀ (F := F)) Variants.none c none) Set.univ (bodyAt0 t) (fun _ => bodyPost m T c t) := by
  unfold bodyPre bodyPost bodyAt0
  simp only [before0, before1, before2, before3, before4, before5]
  rw [show (dats m T 0 c).owesAt () t.succ = (dats m T 0 c).owesAt () t.castSucc from rfl]
  rw [Phi_castSucc, Phi_succ, PhiS_pos (T c) c (t.val + 1) (Nat.succ_ne_zero _)]
  rw [leaves0, leaves1, leaves2, leaves3, leaves4, leaves5]
  have hN : t.val < 49 := lt_of_lt_of_eq t.isLt (show cfg0.N = 49 from N_0)
  by_cases h0 : t.val = 0
  · have hc0 : cond0_0 (grid0.coords t) := (hcond0_0 t).mpr h0
    have hc1 : ¬cond0_1 (grid0.coords t) := fun h => by have := (hcond0_1 t).mp h; omega
    rw [Dat.leaves_idle (dats m T 0 c) 6 t (idleAt0_6 t hc1) (noFlush0_6 t hc1)]
    rw [show PhiS (T c) c t.val = Pipeline.ΦA spec0 c from by rw [h0, PhiS_zero], PhiA0_eq]
    have hm : (k0_pay4 : FVec F S256x1 .f32) = (T c).mx t.val := by rw [h0]; exact (hT c).mx0.symm
    have hs : (k0_pay5 : FVec F S256x1 .f32) = (T c).sx t.val := by rw [h0]; exact (hT c).sx0.symm
    have hx : (k0_pay6 : FVec F S256x1 .f32) = (T c).tx t.val := by rw [h0]; exact (hT c).tx0.symm
    iintro ⟨⟨⟨⟨%e8, HS0⟩, ⟨%e9, HS1⟩, ⟨%e10, HS2⟩⟩, Hg⟩, Ho, ⟨%d0, H0⟩, ⟨%d1, H1⟩, ⟨%d2, H2⟩, ⟨%d3, H3⟩, ⟨%d4, H4⟩, ⟨%d5, H5⟩, ⟨%d6, H6⟩⟩
    have hrun := fun K => kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xAt m c t) (wAt m c t d1) (tgAt m c t) (cmAt m c t) (snAt m c t) ((dats m T 0 c).before 6 t d6) Set.univ K
    rw [hm, hs, hx, (hT c).mx t d1, (hT c).sx t d1, (hT c).tx t d1] at hrun
    iapply (hrun _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexists _; iexact HS0
    isplitl [HS1]; · iexists _; iexact HS1
    isplitl [HS2]; · iexists _; iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]
    · iexists (lgtV (grid0.coords t) (xAt m c t) (wAt m c t d1) (tgAt m c t) (cmAt m c t) (snAt m c t))
      rw [(cfg0.win 5).fill_congr_cut (cfg0.grid.coords t) ((hT c).out t d1)]
      iexact H5
    iexists d6; iexact H6
  · by_cases h1 : t.val = 48
    · have hc0 : ¬cond0_0 (grid0.coords t) := fun h => h0 ((hcond0_0 t).mp h)
      have hc1 : cond0_1 (grid0.coords t) := (hcond0_1 t).mpr h1
      rw [leaves6_live m T c t hc1, PhiS_pos (T c) c t.val h0]
      have e7 : k0_pay3 ((T c).mx (t.val + 1)) ((T c).sx (t.val + 1)) ((T c).tx (t.val + 1)) = (T c).nll := by
        rw [h1]; exact (hT c).nll
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xAt m c t) (wAt m c t d1) (tgAt m c t) (cmAt m c t) (snAt m c t) ((T c).mx t.val) ((T c).sx t.val) ((T c).tx t.val) Set.univ K
      rw [(hT c).mx t d1, (hT c).sx t d1, (hT c).tx t d1, e7] at hrun
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]
      · iexists (lgtV (grid0.coords t) (xAt m c t) (wAt m c t d1) (tgAt m c t) (cmAt m c t) (snAt m c t))
        rw [(cfg0.win 5).fill_congr_cut (cfg0.grid.coords t) ((hT c).out t d1)]
        iexact H5
      iexact H6
    · have hc0 : ¬cond0_0 (grid0.coords t) := fun h => h0 ((hcond0_0 t).mp h)
      have hc1 : ¬cond0_1 (grid0.coords t) := fun h => h1 ((hcond0_1 t).mp h)
      rw [Dat.leaves_idle (dats m T 0 c) 6 t (idleAt0_6 t hc1) (noFlush0_6 t hc1), PhiS_pos (T c) c t.val h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xAt m c t) (wAt m c t d1) (tgAt m c t) (cmAt m c t) (snAt m c t) ((dats m T 0 c).before 6 t d6) ((T c).mx t.val) ((T c).sx t.val) ((T c).tx t.val) Set.univ K
      rw [(hT c).mx t d1, (hT c).sx t d1, (hT c).tx t d1] at hrun
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]
      · iexists (lgtV (grid0.coords t) (xAt m c t) (wAt m c t d1) (tgAt m c t) (cmAt m c t) (snAt m c t))
        rw [(cfg0.win 5).fill_congr_cut (cfg0.grid.coords t) ((hT c).out t d1)]
        iexact H5
      iexists d6; iexact H6

/-- The library's body obligation, at every point, as the loop uses it for windows whose blocks overhang their arrays. -/
theorem body_obligation (T : Dev nD → Track F) (hT : ∀ c, Steps m (T c) c) (c : Dev nD) :
    BodyObligationLoose (dats (F := F) m T 0 c) (defs₀ (F := F)) Variants.none () Set.univ := fun t => by
  rw [bigSep_W0, bigSep_W0]
  exact sound_body m T hT c t

/-- What the launch hands the region is the invariant before the first point. -/
theorem hin (T : Dev nD → Track F) (c : Dev nD) : Pipeline.ΦA spec0 c ⊢ (dats m T 0 c).Φ 0 := by
  rw [show (dats m T 0 c).Φ 0 = Pipeline.ΦA spec0 c from rfl]

/-- After the last point the invariant gives it back: the statistics' named contents are forgotten. -/
theorem hout (T : Dev nD → Track F) (c : Dev nD) : (dats m T 0 c).Φ (Fin.last cfg0.N) ⊢ Pipeline.ΦA spec0 c := by
  rw [show (dats m T 0 c).Φ (Fin.last cfg0.N) = PhiS (T c) c (Fin.last cfg0.N).val from rfl,
    PhiS_pos (T c) c (Fin.last cfg0.N).val (by rw [Fin.val_last]; have : cfg0.N = 49 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.IdealRun

end
-- ==== Proof.IdealRun.lean ====
import proofs.«418458_j50414326120960_1_alg».proof.Proof.IdealRun.Body

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- At the compiled mesh, for any values, from any memory with zero counters, for tracked contents that satisfy the pure
    steps: every weakly fair execution of @main on the TensorCores terminates, and every final state has every array of
    the pipeline at what the library computes from the proof data and every other unscoped buffer as the lines after the
    region leave it. -/
theorem run_main (T : Dev nD → Track F) (hT : ∀ c, Steps m (T c) c) :
    θ_run defs (onTc (τ := τ) (main (F := F))) (s₀ m ρ) (Pipeline.FramePost cfgs (dats m T) 0 (Pipeline.afterTail₀ cfgs (dats m T) 0 (V0 m) [hostOps1])) :=
  Pipeline.θ_run_frame_around_track cfgs (dats m T) (0 : Fin 1) launch0 defs₀ Variants.none m ρ main
    (hbody := fun c => body_obligation m T hT c) (hshare := fun c => (dats m T 0 c).share_full fun _ => rfl)
    (howed := fun _ _ => rfl) (V₀ := V0 m) (opss := [hostOps1]) (hsub := sfx_sub) (hfresh := sfx_fresh) (hkeep := sfx_keeps)
    (hmain := hmain m Variants.none) (hA := A_eq m T) (hin := hin m T) (hout := hout m T)

/-- THE FRAME: the input arrays end as launched. -/
theorem frame (T : Dev nD → Track F) (hT : ∀ c, Steps m (T c) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m T) (A_eq m T) (run_main m ρ T hT)

end Cert.IdealRun

end
-- ==== Proof.TileLogits.lean ====
/-
  The block of logits one grid point stores, read index by index at the ideal values: the clipped cosine of a row
  of activations against one column of the weight tile, the additive angular margin on the target column, the scale
  by 64, and the fill value on the columns past the array's end.
-/
import proofs.«418458_j50414326120960_1_alg».proof.Proof.Gen.KernelIdeal.Skeleton
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws
import Idealize.ShloMosaic.PureOps.IdealRules

noncomputable section

open scoped BigOperators

namespace Cert.TileLogits

open Cert.KernelIdeal Cert.KernelIdeal.Gen Idealize.ShloMosaic Idealize.ShloMosaic.ValueIdx Idealize.SL.Sem

/-! ## The definitions the statements are over -/

/-- The clipped cosine of row `b` of the activations against one column of the weight tile: the inner product
    divided by the column's Euclidean norm, clamped to [-1, 1]. -/
def cosK (X : Vec Ideal S256x512 .f32) (col : Fin 512 → EReal) (b : Fin 256) : EReal :=
  min 1 (max (-1) (Ideal.div (∑ k : Fin 512, X (ix2 b k) * col k) (Ideal.sqrt (∑ k : Fin 512, col k * col k))))

/-- The scaled logit from a cosine `c`: on the target column (`hit`) a positive cosine is replaced by
    `cos (θ + m) = c · cos m − √(max (1 − c²) 0) · sin m`; everything is scaled by 64. -/
def logitK (c cm sn : EReal) (hit : Bool) : EReal :=
  64 * (if hit then (if 0 < c then c * cm - Ideal.sqrt (max (1 - c * c) 0) * sn else c) else c)

/-- The column numbers inside a tile: the lane index along axis 1. -/
abbrev IOTA : IVec S256x2048 32 := iota .tc S256x2048 32 [1] iota_S256x2048_d1_w32

/-- The block of logits grid point `i` stores, from the staged operands. -/
abbrev L (X : Vec Ideal S256x512 .f32) (CMv SMv : Vec Ideal S256x1 .f32) (TG : Vec Ideal S256 .i32) (i : grid0.Coords)
    (W : Vec Ideal S512x2048 .f32) : FVec Ideal S256x2048 .f32 :=
  k0_pay12 (F := Ideal) (k0_pay7 (F := Ideal) W X) (k0_pay8 (F := Ideal) W X CMv SMv) IOTA (k0_pay9 i) TG

/-! ## Bit patterns and the named fill -/

/-- The f32 pattern `0xBF800000` is minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The f32 pattern `0x42800000` is sixty-four. -/
theorem ofBits_64_f32 : Ideal.ofBits .f32 0x42800000#32 = 64 := by
  have h : Ideal.ofBits .f32 0x42800000#32 = ((64 : ℝ) : EReal) := by
    simp [Ideal.ofBits, Ideal.ieee, -EReal.coe_mul]; norm_num
  rw [h]; norm_cast

/-- The named fill value is the bottom of the extended reals. -/
theorem neg_big : Named.named (F := Ideal) Cert.KernelIdeal.κ "neg_big" (φ := .f32) 0xF149F2CA#32 = ⊥ :=
  IdealRules.named_const.ideal_named_scalar _ _ _ _ rfl

/-! ## Layout operations of a column at an index -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A one-bit word that is a decided proposition selects as the `if` on the proposition. -/
theorem select_ofBool {α : Type} (p : Prop) [Decidable p] (x y : α) :
    Scalar.select (BitVec.ofBool (decide p)) x y = if p then x else y := by
  unfold Scalar.select
  by_cases h : p
  · rw [if_pos h, decide_eq_true h]; exact if_pos rfl
  · rw [if_neg h, decide_eq_false h]; exact if_neg (by decide)

/-! ## The column number of an element, and the two masks -/

variable (X : Vec Ideal S256x512 .f32) (W W' : Vec Ideal S512x2048 .f32) (CMv SMv : Vec Ideal S256x1 .f32)
  (TG : Vec Ideal S256 .i32) (i : grid0.Coords)

/-- Element `(b, j)` of tile `T` carries the column number `T · 2048 + j`: the words are small, nothing wraps. -/
theorem col_word (b : Fin 256) (j : Fin 2048) :
    k0_pay10 IOTA (k0_pay9 i) (ix2 b j) = BitVec.ofNat 32 ((i 0).val * 2048 + j.val) := by
  have h49 : (i 0).val < 49 := (i 0).isLt
  have hj := j.isLt
  show IntOp.addi (IOTA (ix2 b j)) (Scalar.muli (BitVec.ofNat 32 (i 0).val) 2048#32) = _
  rw [show IOTA (ix2 b j) = BitVec.ofNat 32 j.val from
    iota_single_apply .tc S256x2048 32 1 iota_S256x2048_d1_w32 (ix2 b j)]
  apply BitVec.eq_of_toNat_eq
  simp only [IntOp.addi, Scalar.muli, IntOp.muli, BitVec.toNat_add, BitVec.toNat_mul, BitVec.toNat_ofNat]
  omega

theorem col_toNat (b : Fin 256) (j : Fin 2048) :
    (BitVec.ofNat 32 ((i 0).val * 2048 + j.val)).toNat = (i 0).val * 2048 + j.val := by
  have h49 : (i 0).val < 49 := (i 0).isLt
  have hj := j.isLt
  rw [BitVec.toNat_ofNat]; omega

/-- The one-hot mask: the element's column number is the row's target. -/
theorem hit_eq (b : Fin 256) (j : Fin 2048) :
    (k0_pay11 (F := Ideal) IOTA (k0_pay9 i) TG (ix2 b j) = 1#1) ↔ BitVec.ofNat 32 ((i 0).val * 2048 + j.val) = TG (ix1 b) := by
  show IntOp.cmpi .eq (k0_pay10 IOTA (k0_pay9 i) (ix2 b j))
      (broadcastTo S256x2048 (shapeCast S256x1 TG shapeCasts_S256_S256x1) broadcasts_S256x1_S256x2048 (ix2 b j)) = 1#1 ↔ _
  rw [col_word, broadcastTo_a1_ab_apply, shapeCast_a_a1_apply]
  exact StableHlo.Predicate.cmpi_eq_iff

/-- The validity mask: the element's column number is inside the array. -/
theorem valid_iff (b : Fin 256) (j : Fin 2048) :
    IntOp.cmpi .slt (k0_pay10 IOTA (k0_pay9 i) (ix2 b j)) 100000#32 = 1#1 ↔ (i 0).val * 2048 + j.val < 100000 := by
  have h49 : (i 0).val < 49 := (i 0).isLt
  have hj := j.isLt
  rw [col_word, StableHlo.Predicate.slt_iff_toNat (by rw [col_toNat i b j]; omega) (by decide), col_toNat i b j]
  exact Iff.rfl

/-! ## The matrix product and the column norms at an index -/

theorem lhs_tile_0 (p : S256x2048.Idx) (q : dot_S256x512_S512x2048_S256x2048_1_0_0_1_n_n.contr.Idx) :
    (dot_S256x512_S512x2048_S256x2048_1_0_0_1_n_n.lhsIdx p q 0).val = (p 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_tile_1 (p : S256x2048.Idx) (q : dot_S256x512_S512x2048_S256x2048_1_0_0_1_n_n.contr.Idx) :
    (dot_S256x512_S512x2048_S256x2048_1_0_0_1_n_n.lhsIdx p q 1).val = (q ⟨0, by decide⟩).val :=
  dot_S256x512_S512x2048_S256x2048_1_0_0_1_n_n.lhsIdx_val_of_single rfl p q
theorem rhs_tile_0 (p : S256x2048.Idx) (q : dot_S256x512_S512x2048_S256x2048_1_0_0_1_n_n.contr.Idx) :
    (dot_S256x512_S512x2048_S256x2048_1_0_0_1_n_n.rhsIdx p q 0).val = (q ⟨0, by decide⟩).val :=
  dot_S256x512_S512x2048_S256x2048_1_0_0_1_n_n.rhsIdx_val_of_single rfl p q
theorem rhs_tile_1 (p : S256x2048.Idx) (q : dot_S256x512_S512x2048_S256x2048_1_0_0_1_n_n.contr.Idx) :
    (dot_S256x512_S512x2048_S256x2048_1_0_0_1_n_n.rhsIdx p q 1).val = (p 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The tile's matrix product onto the zero accumulator, at `(b, j)`: row `b` of the left operand against column `j`
    of the right. -/
theorem dotTile_apply {φ₁ φ₂ : FTy} (A : FVec Ideal S256x512 φ₁) (B : FVec Ideal S512x2048 φ₂) (b : Fin 256) (j : Fin 2048) :
    matmul dot_S256x512_S512x2048_S256x2048_1_0_0_1_n_n none A B (constant (F := Ideal) S256x2048 .f32 0x00000000#32) (ix2 b j)
      = ∑ k : Fin 512, A (ix2 b k) * B (ix2 k j) := by
  refine (Ideal.matmul_constant_zero_apply dot_S256x512_S512x2048_S256x2048_1_0_0_1_n_n none A B (ix2 b j)).trans ?_
  rw [← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 b j) ((contrEquiv1 dot_S256x512_S512x2048_S256x2048_1_0_0_1_n_n 512 rfl rfl).symm k) = ix2 b k := funext fun a => Fin.ext (by
    match a with
    | ⟨0, _⟩ => exact lhs_tile_0 _ _
    | ⟨1, _⟩ => exact (lhs_tile_1 _ _).trans hk)
  have er : dot_S256x512_S512x2048_S256x2048_1_0_0_1_n_n.rhsIdx (ix2 b j) ((contrEquiv1 dot_S256x512_S512x2048_S256x2048_1_0_0_1_n_n 512 rfl rfl).symm k) = ix2 k j := funext fun a => Fin.ext (by
    match a with
    | ⟨0, _⟩ => exact (rhs_tile_0 _ _).trans hk
    | ⟨1, _⟩ => exact rhs_tile_1 _ _)
  rw [el, er]

/-- The sum of a tile's squares down each column, from zero, at column `j`. -/
theorem colSq_apply (V : FVec Ideal S512x2048 .f32) (hφ : FKind.Formats .f32) (hacc : (0x00000000#32 : BitVec 32) = 0x00000000#32)
    (j : Fin 2048) :
    multiReduction (F := Ideal) .add [0] S2048 V 0x00000000#32 reduces_S512x2048_S2048 hφ hacc (ix1 j) = ∑ k : Fin 512, V (ix2 k j) := by
  refine (Ideal.multiReduction_add_single V 0x00000000#32 reduces_S512x2048_S2048 hφ hacc (ix1 j)).trans ?_
  refine Finset.sum_congr rfl fun k _ => ?_
  exact congrArg V (funext fun a => Fin.ext (by match a with | ⟨0, _⟩ => rfl | ⟨1, _⟩ => rfl))

/-! ## The cosine, the margin and the block -/

/-- The clipped cosine block at `(b, j)`. -/
theorem pay7_apply (b : Fin 256) (j : Fin 2048) :
    k0_pay7 (F := Ideal) W X (ix2 b j) = cosK X (fun k => W (ix2 k j)) b := by
  show min (Ideal.ofBits .f32 0x3F800000#32) (max (Ideal.ofBits .f32 0xBF800000#32)
      (Ideal.div
        (matmul dot_S256x512_S512x2048_S256x2048_1_0_0_1_n_n none
          (truncf .bf16 (shapeCast S256x512 X shapeCasts_S256x512_S256x512) bitsLt_bf16_f32) (truncf .bf16 W bitsLt_bf16_f32)
          (constant (F := Ideal) S256x2048 .f32 0x00000000#32) (ix2 b j))
        (broadcastTo S256x2048
          (sqrt (shapeCast S1x2048
            (multiReduction (F := Ideal) .add [0] S2048 (mulf W W) 0x00000000#32 reduces_S512x2048_S2048 (.inl rfl) rfl)
            shapeCasts_S2048_S1x2048))
          broadcasts_S1x2048_S256x2048 (ix2 b j)))) = _
  rw [dotTile_apply, broadcastTo_1b_ab_apply, Ideal.ofBits_one_f32, ofBits_neg_one_f32]
  show min 1 (max (-1) (Ideal.div _ (Ideal.sqrt (shapeCast S1x2048
      (multiReduction (F := Ideal) .add [0] S2048 (mulf W W) 0x00000000#32 reduces_S512x2048_S2048 (.inl rfl) rfl)
      shapeCasts_S2048_S1x2048 (ix2 (0 : Fin 1) j))))) = _
  rw [shapeCast_a_1a_apply, colSq_apply, shapeCast_self]
  rfl

/-- The margin-adjusted cosine block at `(b, j)`. -/
theorem pay8_apply (b : Fin 256) (j : Fin 2048) :
    k0_pay8 (F := Ideal) W X CMv SMv (ix2 b j)
      = if 0 < cosK X (fun k => W (ix2 k j)) b
        then cosK X (fun k => W (ix2 k j)) b * CMv (ix2 b 0)
          - Ideal.sqrt (max (1 - cosK X (fun k => W (ix2 k j)) b * cosK X (fun k => W (ix2 k j)) b) 0) * SMv (ix2 b 0)
        else cosK X (fun k => W (ix2 k j)) b := by
  show Scalar.select (BitVec.ofBool (decide (Ideal.ofBits .f32 0x00000000#32 < k0_pay7 (F := Ideal) W X (ix2 b j))))
      (k0_pay7 (F := Ideal) W X (ix2 b j)
          * broadcastTo S256x2048 (shapeCast S256x1 CMv shapeCasts_S256x1_S256x1) broadcasts_S256x1_S256x2048 (ix2 b j)
        - Ideal.sqrt (max (Ideal.ofBits .f32 0x3F800000#32 - k0_pay7 (F := Ideal) W X (ix2 b j) * k0_pay7 (F := Ideal) W X (ix2 b j))
            (Ideal.ofBits .f32 0x00000000#32))
          * broadcastTo S256x2048 (shapeCast S256x1 SMv shapeCasts_S256x1_S256x1) broadcasts_S256x1_S256x2048 (ix2 b j))
      (k0_pay7 (F := Ideal) W X (ix2 b j)) = _
  rw [select_ofBool, broadcastTo_a1_ab_apply, broadcastTo_a1_ab_apply, shapeCast_self, shapeCast_self, pay7_apply,
    Ideal.ofBits_zero_f32, Ideal.ofBits_one_f32]

/-- Past the array's end the block holds the fill value. -/
theorem logits_pad (b : Fin 256) (j : Fin 2048) (hj : ¬ (i 0).val * 2048 + j.val < 100000) :
    L X CMv SMv TG i W (ix2 b j) = ⊥ := by
  show Scalar.select (IntOp.cmpi .slt (k0_pay10 IOTA (k0_pay9 i) (ix2 b j)) 100000#32) _
      (Named.named (F := Ideal) Cert.KernelIdeal.κ "neg_big" (φ := .f32) 0xF149F2CA#32) = ⊥
  rw [eq_zero_of_ne_one (mt (valid_iff i b j).1 hj), select_zero, neg_big]

/-- Inside the array the block holds the scaled, margin-adjusted cosine. -/
theorem logits_val (b : Fin 256) (j : Fin 2048) (hj : (i 0).val * 2048 + j.val < 100000) :
    L X CMv SMv TG i W (ix2 b j)
      = logitK (cosK X (fun k => W (ix2 k j)) b) (CMv (ix2 b 0)) (SMv (ix2 b 0))
          (decide (BitVec.ofNat 32 ((i 0).val * 2048 + j.val) = TG (ix1 b))) := by
  show Scalar.select (IntOp.cmpi .slt (k0_pay10 IOTA (k0_pay9 i) (ix2 b j)) 100000#32)
      (Ideal.ofBits .f32 0x42800000#32
        * Scalar.select (k0_pay11 (F := Ideal) IOTA (k0_pay9 i) TG (ix2 b j))
            (k0_pay8 (F := Ideal) W X CMv SMv (ix2 b j)) (k0_pay7 (F := Ideal) W X (ix2 b j))) _ = _
  rw [(valid_iff i b j).2 hj, select_one, ofBits_64_f32, pay8_apply, pay7_apply]
  unfold logitK Scalar.select
  simp only [decide_eq_true_eq]
  exact congrArg (64 * ·) (if_congr (hit_eq TG i b j) rfl rfl)

/-- The block depends on the staged weight tile only through the columns inside the array. -/
theorem logits_indep (h : ∀ (k : Fin 512) (j : Fin 2048), (i 0).val * 2048 + j.val < 100000 → W (ix2 k j) = W' (ix2 k j)) :
    L X CMv SMv TG i W = L X CMv SMv TG i W' := by
  funext idx
  obtain ⟨b, j, rfl⟩ : ∃ (b : Fin 256) (j : Fin 2048), idx = ix2 b j := ⟨idx 0, idx 1, eq_ix2 idx⟩
  by_cases hj : (i 0).val * 2048 + j.val < 100000
  · rw [logits_val X W CMv SMv TG i b j hj, logits_val X W' CMv SMv TG i b j hj,
      show (fun k => W (ix2 k j)) = (fun k => W' (ix2 k j)) from funext fun k => h k j hj]
  · rw [logits_pad X W CMv SMv TG i b j hj, logits_pad X W' CMv SMv TG i b j hj]

end Cert.TileLogits
-- ==== Proof.Track.lean ====
/-
  The running contents of the three scratch columns — the running maximum, the running sum of exponentials and the
  running target logit — as functions of the number of tiles folded in, over the canonical weight tiles; and their
  independence of whatever a staged tile holds past the array's end.
-/
import proofs.«418458_j50414326120960_1_alg».proof.Proof.TileLogits
import proofs.«418458_j50414326120960_1_alg».proof.Proof.Gen.KernelIdeal.Skeleton

noncomputable section

open scoped BigOperators

namespace Cert.Track

open Cert.KernelIdeal Cert.KernelIdeal.Gen Idealize.ShloMosaic Idealize.ShloMosaic.ValueIdx Idealize.SL.Sem Cert.TileLogits

/-- On the one-axis grid the coordinate of point `t` is `t`. -/
theorem coords_val : ∀ t : Fin grid0.N, (grid0.coords t 0).val = t.val := by decide +kernel

variable (X : Vec Ideal S256x512 .f32) (CMv SMv : Vec Ideal S256x1 .f32) (TG : Vec Ideal S256 .i32)
  (Wt : Fin grid0.N → Vec Ideal S512x2048 .f32)

/-- The block of logits point `t` stores, from its canonical weight tile. -/
def outB (t : Fin grid0.N) : FVec Ideal S256x2048 .f32 := L X CMv SMv TG (grid0.coords t) (Wt t)

/-- The running row maximum after `n` tiles. -/
def mx : ℕ → FVec Ideal S256x1 .f32
  | 0 => k0_pay4 (F := Ideal)
  | n + 1 =>
    if h : n < grid0.N then
      k0_pay2 (k0_pay13 (F := Ideal) (k0_pay7 (F := Ideal) (Wt ⟨n, h⟩) X) (k0_pay8 (F := Ideal) (Wt ⟨n, h⟩) X CMv SMv) IOTA
        (k0_pay9 (grid0.coords ⟨n, h⟩)) TG (mx n))
    else mx n

/-- The running row sum of exponentials, relative to the running maximum, after `n` tiles. -/
def sx : ℕ → FVec Ideal S256x1 .f32
  | 0 => k0_pay5 (F := Ideal)
  | n + 1 =>
    if h : n < grid0.N then
      k0_pay14 (F := Ideal) (k0_pay7 (F := Ideal) (Wt ⟨n, h⟩) X) (k0_pay8 (F := Ideal) (Wt ⟨n, h⟩) X CMv SMv) IOTA
        (k0_pay9 (grid0.coords ⟨n, h⟩)) TG (mx X CMv SMv TG Wt n) (mx X CMv SMv TG Wt n) (sx n)
    else sx n

/-- The running target logit after `n` tiles. -/
def tx : ℕ → FVec Ideal S256x1 .f32
  | 0 => k0_pay6 (F := Ideal)
  | n + 1 =>
    if h : n < grid0.N then
      k0_pay1 (k0_pay15 (F := Ideal) (k0_pay7 (F := Ideal) (Wt ⟨n, h⟩) X) (k0_pay8 (F := Ideal) (Wt ⟨n, h⟩) X CMv SMv) IOTA
        (k0_pay9 (grid0.coords ⟨n, h⟩)) TG (tx n))
    else tx n

/-- The per-row negative log-likelihood the last point stores. -/
def nll : FVec Ideal S256x1 .f32 :=
  k0_pay3 (F := Ideal) (mx X CMv SMv TG Wt 49) (sx X CMv SMv TG Wt 49) (tx X CMv SMv TG Wt 49)

/-! ## One more tile -/

theorem mx_succ (t : Fin grid0.N) :
    mx X CMv SMv TG Wt (t.val + 1)
      = k0_pay2 (k0_pay13 (F := Ideal) (k0_pay7 (F := Ideal) (Wt t) X) (k0_pay8 (F := Ideal) (Wt t) X CMv SMv) IOTA
          (k0_pay9 (grid0.coords t)) TG (mx X CMv SMv TG Wt t.val)) := by
  rw [mx]; exact dif_pos t.isLt

theorem sx_succ (t : Fin grid0.N) :
    sx X CMv SMv TG Wt (t.val + 1)
      = k0_pay14 (F := Ideal) (k0_pay7 (F := Ideal) (Wt t) X) (k0_pay8 (F := Ideal) (Wt t) X CMv SMv) IOTA
          (k0_pay9 (grid0.coords t)) TG (mx X CMv SMv TG Wt t.val) (mx X CMv SMv TG Wt t.val) (sx X CMv SMv TG Wt t.val) := by
  rw [sx]; exact dif_pos t.isLt

theorem tx_succ (t : Fin grid0.N) :
    tx X CMv SMv TG Wt (t.val + 1)
      = k0_pay1 (k0_pay15 (F := Ideal) (k0_pay7 (F := Ideal) (Wt t) X) (k0_pay8 (F := Ideal) (Wt t) X CMv SMv) IOTA
          (k0_pay9 (grid0.coords t)) TG (tx X CMv SMv TG Wt t.val)) := by
  rw [tx]; exact dif_pos t.isLt

/-! ## The three updates read the tile only through the block of logits -/

theorem pay13_congr {v18 v36 v18' v36' : FVec Ideal S256x2048 .f32} (v37 v39 : IVec S256x2048 32) (v41 : Vec Ideal S256 .i32)
    (v55 : Vec Ideal S256x1 .f32)
    (h : k0_pay12 (F := Ideal) v18 v36 v37 v39 v41 = k0_pay12 (F := Ideal) v18' v36' v37 v39 v41) :
    k0_pay13 (F := Ideal) v18 v36 v37 v39 v41 v55 = k0_pay13 (F := Ideal) v18' v36' v37 v39 v41 v55 := by
  unfold k0_pay13; rw [h]

theorem pay14_congr {v18 v36 v18' v36' : FVec Ideal S256x2048 .f32} (v37 v39 : IVec S256x2048 32) (v41 : Vec Ideal S256 .i32)
    (v55 v57 v63 : Vec Ideal S256x1 .f32)
    (h : k0_pay12 (F := Ideal) v18 v36 v37 v39 v41 = k0_pay12 (F := Ideal) v18' v36' v37 v39 v41) :
    k0_pay14 (F := Ideal) v18 v36 v37 v39 v41 v55 v57 v63 = k0_pay14 (F := Ideal) v18' v36' v37 v39 v41 v55 v57 v63 := by
  unfold k0_pay14; rw [pay13_congr v37 v39 v41 v55 h, h]

theorem pay15_congr {v18 v36 v18' v36' : FVec Ideal S256x2048 .f32} (v37 v39 : IVec S256x2048 32) (v41 : Vec Ideal S256 .i32)
    (v71 : Vec Ideal S256x1 .f32)
    (h : k0_pay12 (F := Ideal) v18 v36 v37 v39 v41 = k0_pay12 (F := Ideal) v18' v36' v37 v39 v41) :
    k0_pay15 (F := Ideal) v18 v36 v37 v39 v41 v71 = k0_pay15 (F := Ideal) v18' v36' v37 v39 v41 v71 := by
  unfold k0_pay15; rw [h]

/-! ## A staged tile that agrees with the canonical one inside the array gives the same updates -/

section Step
variable (t : Fin grid0.N) (W' : Vec Ideal S512x2048 .f32)
  (hW : ∀ (k : Fin 512) (j : Fin 2048), t.val * 2048 + j.val < 100000 → W' (ix2 k j) = Wt t (ix2 k j))
include hW

theorem out_step : L X CMv SMv TG (grid0.coords t) W' = outB X CMv SMv TG Wt t :=
  logits_indep X W' (Wt t) CMv SMv TG (grid0.coords t) fun k j hj => hW k j (by rwa [coords_val t] at hj)

theorem mx_step :
    k0_pay2 (k0_pay13 (F := Ideal) (k0_pay7 (F := Ideal) W' X) (k0_pay8 (F := Ideal) W' X CMv SMv) IOTA
        (k0_pay9 (grid0.coords t)) TG (mx X CMv SMv TG Wt t.val))
      = mx X CMv SMv TG Wt (t.val + 1) :=
  (congrArg (k0_pay2 (F := Ideal)) (pay13_congr IOTA (k0_pay9 (grid0.coords t)) TG (mx X CMv SMv TG Wt t.val)
    (out_step X CMv SMv TG Wt t W' hW))).trans (mx_succ X CMv SMv TG Wt t).symm

theorem sx_step :
    k0_pay14 (F := Ideal) (k0_pay7 (F := Ideal) W' X) (k0_pay8 (F := Ideal) W' X CMv SMv) IOTA
        (k0_pay9 (grid0.coords t)) TG (mx X CMv SMv TG Wt t.val) (mx X CMv SMv TG Wt t.val) (sx X CMv SMv TG Wt t.val)
      = sx X CMv SMv TG Wt (t.val + 1) :=
  (pay14_congr IOTA (k0_pay9 (grid0.coords t)) TG (mx X CMv SMv TG Wt t.val) (mx X CMv SMv TG Wt t.val) (sx X CMv SMv TG Wt t.val)
    (out_step X CMv SMv TG Wt t W' hW)).trans (sx_succ X CMv SMv TG Wt t).symm

theorem tx_step :
    k0_pay1 (k0_pay15 (F := Ideal) (k0_pay7 (F := Ideal) W' X) (k0_pay8 (F := Ideal) W' X CMv SMv) IOTA
        (k0_pay9 (grid0.coords t)) TG (tx X CMv SMv TG Wt t.val))
      = tx X CMv SMv TG Wt (t.val + 1) :=
  (congrArg (k0_pay1 (F := Ideal)) (pay15_congr IOTA (k0_pay9 (grid0.coords t)) TG (tx X CMv SMv TG Wt t.val)
    (out_step X CMv SMv TG Wt t W' hW))).trans (tx_succ X CMv SMv TG Wt t).symm

end Step

end Cert.Track
-- ==== Proof.ScratchRead.lean ====
import proofs.«418458_j50414326120960_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Mathlib.Data.Finset.Fold

/-! The three per-row running quantities of the tiled softmax cross-entropy — the running maximum, the running
    sum of exponentials and the running target logit, each a column `[256, 1]` — read index by index at the
    extended reals, over the tile's block of logits taken as an abstract `[256, 2048]` vector. -/

noncomputable section

namespace Cert.ScratchRead

open Cert.KernelIdeal Cert.KernelIdeal.Gen Idealize.ShloMosaic Idealize.ShloMosaic.ValueIdx Idealize.SL.Sem

/-! ## Layout: a column -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Every index of a column `[256, 1]` is `(b, 0)`: two columns that agree there are equal. -/
theorem ext_col (u v : Vec Ideal S256x1 .f32) (h : ∀ b : Fin 256, u (ix2 b 0) = v (ix2 b 0)) : u = v := by
  funext i
  have h1 : (i 1).val < 1 := idx2_lt1 i
  have hi : i = ix2 (i 0) (0 : Fin 1) := by
    funext a
    match a with
    | ⟨0, _⟩ => rfl
    | ⟨1, _⟩ => exact Fin.ext (by show (i 1).val = 0; omega)
  exact (congrArg u hi).trans ((h (i 0)).trans (congrArg v hi).symm)

end Column

/-! ## The lane reductions of a `[256, 2048]` block, read at a row -/

/-- The index a reduction over the lanes reads, at row `b` and lane `j`, is `(b, j)`. -/
theorem lift_col (b : Fin 256) (j : Fin 2048) : reduces_S256x2048_S256.lift (ix1 b) j = ix2 b j := by
  funext a; match a with | ⟨0, _⟩ => rfl | ⟨1, _⟩ => rfl

/-- The pattern `0xFF800000` denotes `-∞`. -/
theorem ofBits_neg_inf : Ideal.ofBits .f32 0xFF800000#32 = ⊥ := by simp [Ideal.ofBits, Ideal.ieee]

/-- The greatest entry of row `b` of a block, taken from `-∞`. -/
def rowMax (X : FVec Ideal S256x2048 .f32) (b : Fin 256) : EReal :=
  (Finset.univ : Finset (Fin 2048)).fold max ⊥ fun j => X (ix2 b j)

theorem rowMax_def (X : FVec Ideal S256x2048 .f32) (b : Fin 256) :
    rowMax X b = (Finset.univ : Finset (Fin 2048)).fold max ⊥ fun j => X (ix2 b j) := rfl

/-- It bounds every entry of the row. -/
theorem rowMax_ge (X : FVec Ideal S256x2048 .f32) (b : Fin 256) (j : Fin 2048) : X (ix2 b j) ≤ rowMax X b :=
  (Finset.le_fold_max _).2 (Or.inr ⟨j, Finset.mem_univ j, le_rfl⟩)

/-- A fold of `max` over a finite set is attained on the set, or is the starting value. -/
theorem fold_max_attained {ι : Type} [DecidableEq ι] (s : Finset ι) (f : ι → EReal) (c : EReal) :
    (∃ j ∈ s, s.fold max c f = f j) ∨ s.fold max c f = c := by
  refine Finset.induction_on s (Or.inr Finset.fold_empty) ?_
  intro a s ha ih
  rw [Finset.fold_insert ha]
  rcases le_total (f a) (s.fold max c f) with h | h
  · rw [max_eq_right h]
    rcases ih with ⟨j, hj, e⟩ | e
    · exact Or.inl ⟨j, Finset.mem_insert_of_mem hj, e⟩
    · exact Or.inr e
  · rw [max_eq_left h]
    exact Or.inl ⟨a, Finset.mem_insert_self a s, rfl⟩

/-- The row's greatest entry is one of the row's entries, or `-∞`. -/
theorem rowMax_attained (X : FVec Ideal S256x2048 .f32) (b : Fin 256) :
    (∃ j : Fin 2048, rowMax X b = X (ix2 b j)) ∨ rowMax X b = ⊥ := by
  rcases fold_max_attained (Finset.univ : Finset (Fin 2048)) (fun j => X (ix2 b j)) ⊥ with ⟨j, _, e⟩ | e
  · exact Or.inl ⟨j, e⟩
  · exact Or.inr e

/-- A maximum over the lanes, read at row `b`: the row's greatest entry. -/
theorem lane_max (X : FVec Ideal S256x2048 .f32) (hφ : FKind.Formats .f32)
    (hacc : (0xFF800000#32 : BitVec 32) = FKind.maximumf.neutral .f32 hφ) (b : Fin 256) :
    multiReduction (F := Ideal) .maximumf [1] S256 X 0xFF800000#32 reduces_S256x2048_S256 hφ hacc (ix1 b) = rowMax X b := by
  refine (Ideal.multiReduction_maximumf_single X _ reduces_S256x2048_S256 hφ hacc (ix1 b)).trans ?_
  show Finset.fold max (Ideal.ofBits .f32 0xFF800000#32) (fun j : Fin 2048 => X (reduces_S256x2048_S256.lift (ix1 b) j))
      (Finset.univ : Finset (Fin 2048)) = Finset.fold max ⊥ (fun j : Fin 2048 => X (ix2 b j)) Finset.univ
  rw [ofBits_neg_inf]
  exact congrArg (fun f => Finset.fold max (⊥ : EReal) f (Finset.univ : Finset (Fin 2048)))
    (funext fun j => congrArg X (lift_col b j))

/-- A sum over the lanes, read at row `b`: the sum of the row's entries. -/
theorem lane_sum (X : FVec Ideal S256x2048 .f32) (hφ : FKind.Formats .f32)
    (hacc : (0x00000000#32 : BitVec 32) = FKind.add.neutral .f32 hφ) (b : Fin 256) :
    multiReduction (F := Ideal) .add [1] S256 X 0x00000000#32 reduces_S256x2048_S256 hφ hacc (ix1 b)
      = ∑ j : Fin 2048, X (ix2 b j) := by
  refine (Ideal.multiReduction_add_single X _ reduces_S256x2048_S256 hφ hacc (ix1 b)).trans ?_
  exact Finset.sum_congr rfl fun j _ => congrArg X (lift_col b j)

/-! ## The payloads at `(b, 0)` -/

section Steps
variable (v18 v36 : FVec Ideal S256x2048 .f32) (v37 v39 : IVec S256x2048 32) (v41 : Vec Ideal S256 .i32)
  (mp sp tp : Vec Ideal S256x1 .f32) (b : Fin 256)

/-- The running maximum starts at `-∞`. -/
theorem reset_max : (k0_pay4 (F := Ideal)) (ix2 b 0) = ⊥ := by
  show shapeCast S256x1 (broadcast S256x1 (Scalar.ofBits (F := Ideal) .f32 0xFF800000#32)) shapeCasts_S256x1_S256x1 (ix2 b 0) = ⊥
  rw [shapeCast_self]
  exact ofBits_neg_inf

/-- The running sum starts at `0`. -/
theorem reset_sum : (k0_pay5 (F := Ideal)) (ix2 b 0) = 0 := by
  show shapeCast S256x1 (broadcast S256x1 (Scalar.ofBits (F := Ideal) .f32 0x00000000#32)) shapeCasts_S256x1_S256x1 (ix2 b 0) = 0
  rw [shapeCast_self]
  exact Ideal.ofBits_zero_f32

/-- The running target logit starts at `0`. -/
theorem reset_tgt : (k0_pay6 (F := Ideal)) (ix2 b 0) = 0 := by
  show shapeCast S256x1 (broadcast S256x1 (Scalar.ofBits (F := Ideal) .f32 0x00000000#32)) shapeCasts_S256x1_S256x1 (ix2 b 0) = 0
  rw [shapeCast_self]
  exact Ideal.ofBits_zero_f32

/-- The new running maximum of row `b`: the greater of the old one and the block's row maximum. -/
theorem max_new : k0_pay13 v18 v36 v37 v39 v41 mp (ix2 b 0)
    = max (mp (ix2 b 0)) (rowMax (k0_pay12 (F := Ideal) v18 v36 v37 v39 v41) b) := by
  show max (mp (ix2 b 0)) (shapeCast S256x1 (multiReduction (F := Ideal) .maximumf [1] S256 (k0_pay12 v18 v36 v37 v39 v41)
      0xFF800000#32 reduces_S256x2048_S256 (.inl rfl) rfl) shapeCasts_S256_S256x1 (ix2 b 0)) = _
  refine congrArg (max (mp (ix2 b 0))) ?_
  refine (shapeCast_a_a1_apply _ shapeCasts_S256_S256x1 b 0).trans ?_
  exact lane_max _ _ _ b

/-- What is stored back as the running maximum. -/
theorem max_step : k0_pay2 (k0_pay13 v18 v36 v37 v39 v41 mp) (ix2 b 0)
    = max (mp (ix2 b 0)) (rowMax (k0_pay12 (F := Ideal) v18 v36 v37 v39 v41) b) := by
  show shapeCast S256x1 (k0_pay13 v18 v36 v37 v39 v41 mp) shapeCasts_S256x1_S256x1 (ix2 b 0) = _
  rw [shapeCast_self]
  exact max_new v18 v36 v37 v39 v41 mp b

/-- The new running sum of row `b`, with the maximum the old sum was taken against (`m57`) kept apart from the one
    the new maximum is formed from (`m55`): the old sum rescaled, plus the block's row sum of exponentials. -/
theorem sum_step' (m55 m57 : Vec Ideal S256x1 .f32) : k0_pay14 v18 v36 v37 v39 v41 m55 m57 sp (ix2 b 0)
    = sp (ix2 b 0) * Ideal.exp (m57 (ix2 b 0) - k0_pay13 v18 v36 v37 v39 v41 m55 (ix2 b 0))
      + ∑ j : Fin 2048, Ideal.exp (k0_pay12 (F := Ideal) v18 v36 v37 v39 v41 (ix2 b j)
          - k0_pay13 v18 v36 v37 v39 v41 m55 (ix2 b 0)) := by
  show shapeCast S256x1 (addf (mulf sp (exp (subf m57 (k0_pay13 v18 v36 v37 v39 v41 m55))))
      (shapeCast S256x1 (multiReduction (F := Ideal) .add [1] S256
        (exp (subf (k0_pay12 v18 v36 v37 v39 v41)
          (broadcastTo S256x2048 (k0_pay13 v18 v36 v37 v39 v41 m55) broadcasts_S256x1_S256x2048)))
        0x00000000#32 reduces_S256x2048_S256 (.inl rfl) rfl) shapeCasts_S256_S256x1)) shapeCasts_S256x1_S256x1 (ix2 b 0) = _
  rw [shapeCast_self]
  refine (addf_apply _ _ _).trans ?_
  refine congrArg₂ (· + ·) rfl ?_
  refine (shapeCast_a_a1_apply _ shapeCasts_S256_S256x1 b 0).trans ?_
  refine (lane_sum _ _ _ b).trans ?_
  refine Finset.sum_congr rfl fun j _ => ?_
  show Ideal.exp (k0_pay12 (F := Ideal) v18 v36 v37 v39 v41 (ix2 b j)
      - broadcastTo S256x2048 (k0_pay13 v18 v36 v37 v39 v41 m55) broadcasts_S256x1_S256x2048 (ix2 b j)) = _
  rw [broadcastTo_a1_ab_apply]

theorem sum_step : k0_pay14 v18 v36 v37 v39 v41 mp mp sp (ix2 b 0)
    = sp (ix2 b 0) * Ideal.exp (mp (ix2 b 0) - k0_pay13 v18 v36 v37 v39 v41 mp (ix2 b 0))
      + ∑ j : Fin 2048, Ideal.exp (k0_pay12 (F := Ideal) v18 v36 v37 v39 v41 (ix2 b j)
          - k0_pay13 v18 v36 v37 v39 v41 mp (ix2 b 0)) :=
  sum_step' v18 v36 v37 v39 v41 sp b mp mp

/-- The new running target logit of row `b`: the old one plus the block's logit at the target's lane, if the
    target falls in the block. -/
theorem tgt_step : k0_pay1 (k0_pay15 v18 v36 v37 v39 v41 tp) (ix2 b 0)
    = tp (ix2 b 0) + ∑ j : Fin 2048, (if k0_pay11 (F := Ideal) v37 v39 v41 (ix2 b j) = 1#1
        then k0_pay12 (F := Ideal) v18 v36 v37 v39 v41 (ix2 b j) else 0) := by
  show shapeCast S256x1 (addf tp (shapeCast S256x1 (multiReduction (F := Ideal) .add [1] S256
      (select (k0_pay11 (F := Ideal) v37 v39 v41) (k0_pay12 v18 v36 v37 v39 v41)
        (broadcast S256x2048 (Scalar.ofBits (F := Ideal) .f32 0x00000000#32)))
      0x00000000#32 reduces_S256x2048_S256 (.inl rfl) rfl) shapeCasts_S256_S256x1)) shapeCasts_S256x1_S256x1 (ix2 b 0) = _
  rw [shapeCast_self]
  refine (addf_apply _ _ _).trans ?_
  refine congrArg (tp (ix2 b 0) + ·) ?_
  refine (shapeCast_a_a1_apply _ shapeCasts_S256_S256x1 b 0).trans ?_
  refine (lane_sum _ _ _ b).trans ?_
  refine Finset.sum_congr rfl fun j _ => ?_
  show (if k0_pay11 (F := Ideal) v37 v39 v41 (ix2 b j) = 1#1 then k0_pay12 (F := Ideal) v18 v36 v37 v39 v41 (ix2 b j)
      else Ideal.ofBits .f32 0x00000000#32) = _
  rw [Ideal.ofBits_zero_f32]

/-- The row's loss: the running maximum plus the logarithm of the running sum, less the target logit. -/
theorem nll_read (m s t : Vec Ideal S256x1 .f32) :
    k0_pay3 m s t (ix2 b 0) = (m (ix2 b 0) + Ideal.log (s (ix2 b 0))) - t (ix2 b 0) := rfl

end Steps

end Cert.ScratchRead
-- ==== Proof.RefIndex.lean ====
import proofs.«418458_j50414326120960_1_alg».proof.Proof.RefRead
import Idealize.ShloMosaic.Lib.Pipeline.Value
import Idealize.ShloMosaic.Lib.ValueIdx
import Idealize.ShloMosaic.PureOps.Ideal.Laws
import Idealize.ShloMosaic.PureOps.Reduce

noncomputable section

namespace Cert.RefIndex

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The gather of one element per row

The reference takes, in each row, the element at a column read from an integer array: a gather whose operand axis 0 is a
batching axis (paired with axis 0 of the start indices) and whose axis 1 is collapsed and indexed. Its element at
`(r, 0)` is the operand at row `r` and at the column the start index names, read signed and clamped into the row. -/

theorem gather_row_apply {α : Type} (x : S256x100000.Idx → α) (idx : IVec S256x1x1 32) (r : Fin 256) :
    Host.gather gather_S256x100000_S256x1x1_S256x1_n_1_0_0_1_2_11 x idx (ix2 r (0 : Fin 1))
      = x (ix2 r (⟨min (idx (ix3 r (0 : Fin 1) (0 : Fin 1))).toInt.toNat (100000 - 1), by omega⟩ : Fin 100000)) := by
  unfold Host.gather
  congr 1
  funext a
  refine Fin.ext ?_
  match a with
  | ⟨0, _⟩ =>
    -- the batching axis: no start, no offset, the result's row
    show GatherDims.start _ _ idx 0 + GatherDims.batchCoord _ _ 0 + GatherDims.offCoord _ _ 0 = _
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    -- the indexed axis: the clamped start, no batch coordinate, no offset
    show GatherDims.start _ _ idx 1 + GatherDims.batchCoord _ _ 1 + GatherDims.offCoord _ _ 1 = _
    rw [GatherDims.batchCoord_eq_zero _ _ _ (by decide), GatherDims.offCoord_eq_zero _ _ _ (by decide)]
    simp only [Nat.add_zero]
    unfold GatherDims.start
    rw [dif_pos (show (1 : Fin 2) ∈ gather_S256x100000_S256x1x1_S256x1_n_1_0_0_1_2_11.startIndexMap from List.mem_singleton.mpr rfl)]
    have hsi : gather_S256x100000_S256x1x1_S256x1_n_1_0_0_1_2_11.siIdx (ix2 r (0 : Fin 1))
        ⟨List.idxOf (1 : Fin 2) gather_S256x100000_S256x1x1_S256x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## Reductions over one axis -/

/-- Row `r` with column `k` put back on the reduced axis is `(r, k)`. -/
theorem lift_row (h : S256x100000.Reduces [1] S256) (r : Fin 256) (k : Fin (S256x100000.size 1)) :
    h.lift (ix1 r) k = ix2 r (⟨k.val, k.isLt⟩ : Fin 100000) := by
  funext c; refine Fin.ext ?_
  match c with
  | ⟨0, _⟩ => rfl
  | ⟨1, _⟩ => rfl

/-- A maximum-reduce along the columns, at row `r`: the running maximum of the row from the initial value. -/
theorem reduce_max_row (x : FVec Ideal S256x100000 .f32) (init : FVec Ideal S_ .f32) (r : Fin 256) :
    Host.reduce FloatOps.maximumf x init reducesTo_S256x100000_S256_d1 h_S_ (ix1 r)
      = (Finset.univ : Finset (Fin 100000)).fold max (init (Shape.Idx.first h_S_)) (fun c => x (ix2 r c)) := by
  have h : S256x100000.Reduces [1] S256 := by decide
  rw [Host.reduce_eq_fold_single FloatOps.maximumf x init reducesTo_S256x100000_S256_d1 h h_S_]
  have hf : (x ∘ h.lift (ix1 r)) = fun k : Fin 100000 => x (ix2 r k) := funext fun k => congrArg x (lift_row h r k)
  exact congrArg (fun f => Finset.fold max (init (Shape.Idx.first h_S_)) f (Finset.univ : Finset (Fin 100000))) hf

/-- A fold over the one-element range is one application. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

theorem lift_unit (h : S256x1x1.Reduces [2] S256x1) (j : S256x1.Idx) (k : Fin (S256x1x1.size 2)) :
    h.lift j k = ix3 (⟨(j 0).val, (j 0).isLt⟩ : Fin 256) (⟨(j 1).val, (j 1).isLt⟩ : Fin 1) (⟨k.val, k.isLt⟩ : Fin 1) := by
  funext c; refine Fin.ext ?_
  match c with
  | ⟨0, _⟩ => rfl
  | ⟨1, _⟩ => rfl
  | ⟨2, _⟩ => rfl

/-- An and-reduce over an axis of size one is one conjunction with the initial value. -/
theorem reduce_and_unit (x : IVec S256x1x1 1) (init : IVec S_ 1) (r : Fin 256) :
    Host.reduce IntOp.andi x init reducesTo_S256x1x1_S256x1_d2 h_S_ (ix2 r (0 : Fin 1))
      = IntOp.andi (x (ix3 r (0 : Fin 1) (0 : Fin 1))) (init (Shape.Idx.first h_S_)) := by
  have h : S256x1x1.Reduces [2] S256x1 := by decide
  rw [Host.reduce_eq_fold_single IntOp.andi x init reducesTo_S256x1x1_S256x1_d2 h h_S_]
  refine (fold_fin_one IntOp.andi (init (Shape.Idx.first h_S_)) (x ∘ h.lift (ix2 r (0 : Fin 1)))).trans ?_
  show IntOp.andi (x (h.lift (ix2 r (0 : Fin 1)) ⟨0, by decide⟩)) _ = _
  rw [lift_unit h]
  rfl

/-! ## A running maximum over a finite set -/

theorem le_fold_max_of_mem {ι : Type} (s : Finset ι) (f : ι → EReal) (b : EReal) (i : ι) (hi : i ∈ s) :
    f i ≤ s.fold max b f :=
  (Finset.le_fold_max _).2 (Or.inr ⟨i, hi, le_rfl⟩)

theorem fold_max_attained {ι : Type} [DecidableEq ι] (s : Finset ι) (f : ι → EReal) (b : EReal) :
    (∃ i ∈ s, s.fold max b f = f i) ∨ s.fold max b f = b := by
  induction s using Finset.induction_on with
  | empty => right; simp
  | insert a s ha ih =>
    rw [Finset.fold_insert ha]
    rcases le_total (f a) (s.fold max b f) with hle | hle
    · rw [max_eq_right hle]
      rcases ih with ⟨i, hi, e⟩ | e
      · exact Or.inl ⟨i, Finset.mem_insert_of_mem hi, e⟩
      · exact Or.inr e
    · rw [max_eq_left hle]
      exact Or.inl ⟨a, Finset.mem_insert_self a s, rfl⟩

/-! ## Words -/

/-- The word of `-∞` is the bottom of the extended reals. -/
theorem ofBits_neg_inf : Ideal.ofBits .f32 0xFF800000#32 = ⊥ := by
  simp [Ideal.ofBits, Ideal.ieee]

/-- The words of `1`, `-1`, `64` and `256`. -/
theorem ofBits_one : Ideal.ofBits .f32 0x3F800000#32 = 1 := by
  simp [Ideal.ofBits, Ideal.ieee]
  rw [← EReal.coe_mul]
  norm_num
theorem ofBits_neg_one : Ideal.ofBits .f32 0xBF800000#32 = -1 := by
  simp [Ideal.ofBits, Ideal.ieee]
  rw [← EReal.coe_mul]
  norm_num
theorem ofBits_64 : Ideal.ofBits .f32 0x42800000#32 = 64 := by
  simp [Ideal.ofBits, Ideal.ieee]
  rw [← EReal.coe_mul]
  norm_num
  norm_cast
theorem ofBits_256 : Ideal.ofBits .f32 0x43800000#32 = 256 := by
  simp [Ideal.ofBits, Ideal.ieee]
  rw [← EReal.coe_mul]
  norm_num
  norm_cast

/-- A select on "greater than zero" is the `if`. -/
theorem select_ogt_zero (c a b : EReal) : Scalar.select (Ideal.cmp .ogt c 0) a b = if 0 < c then a else b := by
  by_cases h : (0 : EReal) < c <;> simp [Scalar.select, Ideal.cmp, h]

/-- A bit converted to a float is one or zero. -/
theorem uitofp_bit (b : Bool) : FloatOps.uitofp (F := Ideal) .f32 (BitVec.ofBool b) = if b then 1 else 0 := by
  cases b <;> simp [FloatOps.uitofp]

/-- The one-hot entry: the equality compare of two words, converted. -/
theorem onehot_bit (a b : BitVec 32) :
    FloatOps.uitofp (F := Ideal) .f32 (IntOp.cmpi .eq a b) = if decide (a = b) then (1 : EReal) else 0 := by
  rw [show IntOp.cmpi .eq a b = BitVec.ofBool (a == b) from rfl, uitofp_bit]
  by_cases h : a = b <;> simp [h]

/-- A word that reads as a nonnegative integer is not below zero. -/
theorem slt_zero_of_nonneg (t : BitVec 32) (h0 : 0 ≤ t.toInt) : IntOp.cmpi .slt t 0#32 = 0#1 := by
  have hz : (0#32 : BitVec 32).toInt = 0 := by decide
  show BitVec.ofBool (decide (t.toInt < (0#32 : BitVec 32).toInt)) = 0#1
  rw [hz, decide_eq_false (by omega)]; rfl

theorem sge_zero_of_nonneg (t : BitVec 32) (h0 : 0 ≤ t.toInt) : IntOp.cmpi .sge t 0#32 = 1#1 := by
  have hz : (0#32 : BitVec 32).toInt = 0 := by decide
  show BitVec.ofBool (decide ((0#32 : BitVec 32).toInt ≤ t.toInt)) = 1#1
  rw [hz, decide_eq_true h0]; rfl

theorem sle_last_of_lt (t : BitVec 32) (h1 : t.toInt < 100000) : IntOp.cmpi .sle t 99999#32 = 1#1 := by
  have hz : (99999#32 : BitVec 32).toInt = 99999 := by decide
  show BitVec.ofBool (decide (t.toInt ≤ (99999#32 : BitVec 32).toInt)) = 1#1
  rw [hz, decide_eq_true (by omega)]; rfl

/-- In range, the signed and the unsigned reading of a word agree. -/
theorem toNat_of_range (t : BitVec 32) (h0 : 0 ≤ t.toInt) : t.toInt.toNat = t.toNat := by
  have h := BitVec.toInt_eq_toNat_cond t
  have hlt := t.isLt
  split_ifs at h <;> omega

theorem toNat_lt_of_range (t : BitVec 32) (h0 : 0 ≤ t.toInt) (h1 : t.toInt < 100000) : t.toNat < 100000 := by
  have := toNat_of_range t h0; omega

/-- A sum over a one-column index set is the sum over its rows. -/
theorem sum_col (f : S256x1.Idx → EReal) : ∑ j : S256x1.Idx, f j = ∑ r : Fin 256, f (ix2 r (0 : Fin 1)) := by
  rw [sum_idx2]
  refine Finset.sum_congr rfl fun r _ => ?_
  rw [Fin.sum_univ_one]

/-! ## The reference's logits, index by index -/

/-- The cosine of one normalised row against one weight column: each weight over its column's norm (the square root
    of the sum of squares from zero), the product summed over the 512 features, clipped into `[-1, 1]`. -/
def cosR (XNrow : Fin 512 → EReal) (col : Fin 512 → EReal) : EReal :=
  min (Ideal.ofBits .f32 0x3F800000#32)
    (max (Ideal.ofBits .f32 0xBF800000#32)
      (∑ k : Fin 512, XNrow k * Ideal.div (col k) (Ideal.sqrt (0 + ∑ k' : Fin 512, col k' * col k'))))

/-- The margin logit from a cosine `c`, the margin's cosine `cm` and sine `sn`, and whether the column is the row's
    target: `64 · (oh · (c > 0 ? c·cm − √(1 − c²)·sn : c) + (1 − oh) · c)` with `oh` one on the target and zero off it. -/
def logitR (c cm sn : EReal) (hit : Bool) : EReal :=
  Ideal.ofBits .f32 0x42800000#32 *
    ((if hit then (1 : EReal) else 0) *
        Scalar.select (Ideal.cmp .ogt c 0)
          (c * cm - Ideal.sqrt (Ideal.ofBits .f32 0x3F800000#32 - c * c) * sn) c
      + (Ideal.ofBits .f32 0x3F800000#32 - (if hit then (1 : EReal) else 0)) * c)

/-- `cosR` with its two clip bounds evaluated. -/
theorem cosR_eq (XNrow col : Fin 512 → EReal) :
    cosR XNrow col
      = min 1 (max (-1) (∑ k : Fin 512, XNrow k * Ideal.div (col k) (Ideal.sqrt (0 + ∑ k' : Fin 512, col k' * col k')))) := by
  unfold cosR; rw [ofBits_one, ofBits_neg_one]

/-- `logitR` with its constants evaluated and its select as an `if`. -/
theorem logitR_eq (c cm sn : EReal) (hit : Bool) :
    logitR c cm sn hit
      = 64 * ((if hit then (1 : EReal) else 0) * (if 0 < c then c * cm - Ideal.sqrt (1 - c * c) * sn else c)
          + (1 - (if hit then (1 : EReal) else 0)) * c) := by
  unfold logitR; rw [ofBits_one, ofBits_64, select_ogt_zero]

section Closed

variable (x : (⟨S256x512, .f32⟩ : BufTy).Contents (Elt Ideal)) (tg : (⟨S256, .i32⟩ : BufTy).Contents (Elt Ideal))
  (w : (⟨S512x100000, .f32⟩ : BufTy).Contents (Elt Ideal)) (g be : (⟨S512, .f32⟩ : BufTy).Contents (Elt Ideal))

/-- A weight over its column's norm. -/
theorem wn_apply (k : Fin 512) (c : Fin 100000) :
    val_main_v37 (F := Ideal) w (ix2 k c)
      = Ideal.div (w (ix2 k c)) (Ideal.sqrt (0 + ∑ k' : Fin 512, w (ix2 k' c) * w (ix2 k' c))) := by
  rw [val_main_v37_apply, val_main_v36_apply, val_main_v35_apply, val_main_call2_v2_apply, val_main_call2_v1_apply,
    val_main_call2_cst_apply]
  simp only [Ideal.hostDivf_def, Ideal.hostUnary_sqrt_def, Ideal.ofBits_def, Ideal.ofBits_zero_f32]
  refine congrArg (fun s => Ideal.div (w (ix2 k c)) (Ideal.sqrt (0 + s))) (Finset.sum_congr rfl fun k' _ => ?_)
  have e : idx_main_call2_v1 (idx_main_call2_v2 (idx_main_v36 (ix2 k c))) k' = ix2 k' c :=
    funext fun a => Fin.ext (by match a with | ⟨0, _⟩ => rfl | ⟨1, _⟩ => rfl)
  rw [val_main_call2_v0_apply, Ideal.mulf_def, e]

/-- The clipped cosine at `(r, c)`. -/
theorem cos_apply (r : Fin 256) (c : Fin 100000) :
    val_main_v42 (F := Ideal) x w g be (ix2 r c)
      = cosR (fun k => val_main_v40 (F := Ideal) x g be (ix2 r k)) (fun k => w (ix2 k c)) := by
  rw [val_main_v42_apply, val_main_call4_v4_apply, val_main_call4_v3_apply, val_main_cst_10_apply,
    val_main_call4_v2_apply, val_main_call4_v1_apply, val_main_call4_v0_apply, val_main_cst_9_apply,
    val_main_v41_apply]
  simp only [Ideal.minimumf_def, Ideal.maximumf_def, Ideal.ofBits_def]
  unfold cosR
  refine congrArg (fun s => min (Ideal.ofBits .f32 0x3F800000#32) (max (Ideal.ofBits .f32 0xBF800000#32) s))
    (Finset.sum_congr rfl fun k _ => ?_)
  have el : lidx_main_v41 (ix2 r c) k = ix2 r k :=
    funext fun a => Fin.ext (by match a with | ⟨0, _⟩ => rfl | ⟨1, _⟩ => rfl)
  have er : ridx_main_v41 (ix2 r c) k = ix2 k c :=
    funext fun a => Fin.ext (by match a with | ⟨0, _⟩ => rfl | ⟨1, _⟩ => rfl)
  rw [el, er, wn_apply]

/-- THE REFERENCE'S OUTPUT at `(r, c)`. -/
theorem out_apply (r : Fin 256) (c : Fin 100000) :
    val_main_v62 (F := Ideal) x tg w g be (ix2 r c)
      = logitR (cosR (fun k => val_main_v40 (F := Ideal) x g be (ix2 r k)) (fun k => w (ix2 k c)))
          (val_main_v33 (F := Ideal) x g be (ix2 r (0 : Fin 1))) (val_main_v34 (F := Ideal) x g be (ix2 r (0 : Fin 1)))
          (decide (tg (ix1 r) = BitVec.ofNat 32 c.val)) := by
  have e47 : idx_main_v47 (ix2 r c) = ix2 r (0 : Fin 1) :=
    funext fun a => Fin.ext (by match a with | ⟨0, _⟩ => rfl | ⟨1, _⟩ => rfl)
  have e49 : idx_main_v49 (ix2 r c) = ix2 r (0 : Fin 1) :=
    funext fun a => Fin.ext (by match a with | ⟨0, _⟩ => rfl | ⟨1, _⟩ => rfl)
  have etg : idx_main_call6_v0 (idx_main_call6_v2 (ix2 r c)) = ix1 r :=
    funext fun a => Fin.ext (by match a with | ⟨0, _⟩ => rfl)
  have ecol : ((idx_main_call6_v3 (ix2 r c)) 1).val = c.val := rfl
  rw [val_main_v62_apply, val_main_v61_apply, val_main_cst_14_apply, val_main_v60_apply, val_main_v56_apply,
    val_main_v59_apply, val_main_v58_apply, val_main_v57_apply, val_main_cst_13_apply, val_main_v55_apply,
    val_main_call6_v4_apply, val_main_call6_v2_apply, val_main_call6_v0_apply, val_main_call6_v3_apply,
    val_main_call6_v1_apply, val_main_v54_apply, val_main_v53_apply, val_main_v52_apply, val_main_cst_12_apply,
    val_main_v51_apply, val_main_v48_apply, val_main_v47_apply, val_main_v50_apply, val_main_v46_apply,
    val_main_v45_apply, val_main_v44_apply, val_main_cst_11_apply, val_main_v43_apply, val_main_v49_apply,
    cos_apply, e47, e49, etg, ecol, onehot_bit]
  simp only [Ideal.mulf_def, Ideal.addf_def, Ideal.subf_def, Ideal.ofBits_def, Ideal.hostUnary_sqrt_def,
    Ideal.cmpf_def, Ideal.ofBits_zero_f32]
  rfl

/-! ## The row maximum and the log-softmax -/

/-- The row maximum the reference's log-softmax subtracts: the maximum of `-∞` and the running maximum of the row from `-∞`. -/
def rowMax (r : Fin 256) : EReal :=
  max ⊥ ((Finset.univ : Finset (Fin 100000)).fold max ⊥ (fun c => val_main_v62 (F := Ideal) x tg w g be (ix2 r c)))

theorem le_rowMax (r : Fin 256) (c : Fin 100000) :
    val_main_v62 (F := Ideal) x tg w g be (ix2 r c) ≤ rowMax x tg w g be r :=
  le_trans (le_fold_max_of_mem Finset.univ (fun c => val_main_v62 (F := Ideal) x tg w g be (ix2 r c)) ⊥ c (Finset.mem_univ c))
    (le_max_right _ _)

theorem rowMax_attained (r : Fin 256) :
    (∃ c : Fin 100000, rowMax x tg w g be r = val_main_v62 (F := Ideal) x tg w g be (ix2 r c)) ∨ rowMax x tg w g be r = ⊥ := by
  unfold rowMax
  rw [max_eq_right bot_le]
  rcases fold_max_attained Finset.univ (fun c => val_main_v62 (F := Ideal) x tg w g be (ix2 r c)) ⊥ with ⟨c, _, e⟩ | e
  · exact Or.inl ⟨c, e⟩
  · exact Or.inr e

/-- The stage the log-softmax subtracts is `rowMax`. -/
theorem rowMax_stage (r : Fin 256) :
    val_main_call7_v2 (F := Ideal) x tg w g be (ix1 r) = rowMax x tg w g be r := by
  rw [val_main_call7_v2_apply, val_main_call7_v1_apply, val_main_call7_cst_0_apply]
  unfold val_main_call7_v0
  rw [reduce_max_row, val_main_call7_cst_apply]
  simp only [Ideal.maximumf_def, Ideal.ofBits_def, ofBits_neg_inf]
  rfl

/-- The shifted logit. -/
theorem shift_apply (r : Fin 256) (c : Fin 100000) :
    val_main_call7_v5 (F := Ideal) x tg w g be (ix2 r c)
      = val_main_v62 (F := Ideal) x tg w g be (ix2 r c) - rowMax x tg w g be r := by
  have e : idx_main_call7_v3 (idx_main_call7_v4 (ix2 r c)) = ix1 r :=
    funext fun a => Fin.ext (by match a with | ⟨0, _⟩ => rfl)
  rw [val_main_call7_v5_apply, val_main_call7_v4_apply, val_main_call7_v3_apply, e, rowMax_stage, Ideal.subf_def]

/-- The logarithm of the row's sum of exponentials. -/
theorem lse_apply (r : Fin 256) :
    val_main_call7_v9 (F := Ideal) x tg w g be (ix2 r (0 : Fin 1))
      = Ideal.log (0 + ∑ c : Fin 100000,
          Ideal.exp (val_main_v62 (F := Ideal) x tg w g be (ix2 r c) - rowMax x tg w g be r)) := by
  have e : idx_main_call7_v8 (ix2 r (0 : Fin 1)) = ix1 r :=
    funext fun a => Fin.ext (by match a with | ⟨0, _⟩ => rfl)
  rw [val_main_call7_v9_apply, val_main_call7_v8_apply, e, val_main_call7_v7_apply, val_main_call7_cst_1_apply]
  simp only [Ideal.hostUnary_log_def, Ideal.ofBits_def, Ideal.ofBits_zero_f32]
  refine congrArg (fun s => Ideal.log (0 + s)) (Finset.sum_congr rfl fun c _ => ?_)
  have e' : idx_main_call7_v7 (ix1 r) c = ix2 r c :=
    funext fun a => Fin.ext (by match a with | ⟨0, _⟩ => rfl | ⟨1, _⟩ => rfl)
  rw [e', val_main_call7_v6_apply, shift_apply, Ideal.hostUnary_exp_def]

/-- The log-softmax at `(r, j)`. -/
theorem logsm_apply (r : Fin 256) (j : Fin 100000) :
    val_main_v63 (F := Ideal) x tg w g be (ix2 r j)
      = (val_main_v62 (F := Ideal) x tg w g be (ix2 r j) - rowMax x tg w g be r)
        - Ideal.log (0 + ∑ c : Fin 100000,
            Ideal.exp (val_main_v62 (F := Ideal) x tg w g be (ix2 r c) - rowMax x tg w g be r)) := by
  have e : idx_main_call7_v10 (ix2 r j) = ix2 r (0 : Fin 1) :=
    funext fun a => Fin.ext (by match a with | ⟨0, _⟩ => rfl | ⟨1, _⟩ => rfl)
  rw [val_main_v63_apply, shift_apply, val_main_call7_v10_apply, e, lse_apply, Ideal.subf_def]

/-! ## The target's log-probability -/

/-- With the target nonnegative, the gather's start index at row `r` is the target itself. -/
theorem start_apply (r : Fin 256) (h0 : 0 ≤ (tg (ix1 r)).toInt) :
    val_main_call8_v5 (F := Ideal) tg (ix3 r (0 : Fin 1) (0 : Fin 1)) = tg (ix1 r) := by
  have e5 : idx_main_call8_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e64 : idx_main_v64 (ix2 r (0 : Fin 1)) = ix1 r :=
    funext fun a => Fin.ext (by match a with | ⟨0, _⟩ => rfl)
  rw [val_main_call8_v5_apply, e5, val_main_call8_v4_apply, val_main_call8_v1_apply, val_main_v64_apply, e64,
    val_main_call8_v0_apply, val_main_call8_c_apply, slt_zero_of_nonneg _ h0, select_zero]

/-- With the target in range, the in-range flag at row `r` is set. -/
theorem inrange_apply (r : Fin 256) (h0 : 0 ≤ (tg (ix1 r)).toInt) (h1 : (tg (ix1 r)).toInt < 100000) :
    val_main_call8_v12 (F := Ideal) tg (ix2 r (0 : Fin 1)) = 1#1 := by
  unfold val_main_call8_v12
  rw [reduce_and_unit, val_main_call8_c_3_apply, val_main_call8_v11_apply, val_main_call8_v7_apply,
    val_main_call8_v10_apply, start_apply tg r h0, val_main_call8_v6_apply, val_main_call8_c_2_apply,
    val_main_call8_v9_apply, val_main_call8_v8_apply, val_main_call8_c_1_apply, sge_zero_of_nonneg _ h0,
    sle_last_of_lt _ h1]
  rfl

/-- THE TARGET'S LOG-PROBABILITY at row `r`, for a target in range: the in-range select takes the gathered element,
    which is the log-softmax at the target's column. -/
theorem logp_apply (r : Fin 256) (h0 : 0 ≤ (tg (ix1 r)).toInt) (h1 : (tg (ix1 r)).toInt < 100000) :
    val_main_v65 (F := Ideal) x tg w g be (ix2 r (0 : Fin 1))
      = (val_main_v62 (F := Ideal) x tg w g be
            (ix2 r (⟨(tg (ix1 r)).toNat, toNat_lt_of_range _ h0 h1⟩ : Fin 100000)) - rowMax x tg w g be r)
        - Ideal.log (0 + ∑ c : Fin 100000,
            Ideal.exp (val_main_v62 (F := Ideal) x tg w g be (ix2 r c) - rowMax x tg w g be r)) := by
  rw [val_main_v65_apply, inrange_apply tg r h0 h1, select_one]
  unfold val_main_call8_v13
  rw [gather_row_apply]
  have key : ∀ j j' : Fin 100000, j.val = j'.val →
      val_main_v63 (F := Ideal) x tg w g be (ix2 r j) = val_main_v63 (F := Ideal) x tg w g be (ix2 r j') :=
    fun j j' h => by rw [Fin.ext h]
  refine (key _ _ ?_).trans
    (logsm_apply x tg w g be r (⟨(tg (ix1 r)).toNat, toNat_lt_of_range _ h0 h1⟩ : Fin 100000))
  show min (val_main_call8_v5 (F := Ideal) tg (ix3 r (0 : Fin 1) (0 : Fin 1))).toInt.toNat (100000 - 1) = (tg (ix1 r)).toNat
  rw [start_apply tg r h0, toNat_of_range _ h0]
  have := toNat_lt_of_range _ h0 h1
  omega

/-! ## The loss -/

/-- THE REFERENCE'S LOSS: minus the mean of the targets' log-probabilities, plus the regulariser's stage. -/
theorem loss_apply :
    val_main_v77 (F := Ideal) x tg w g be ix0
      = -(Ideal.div (0 + ∑ r : Fin 256, val_main_v65 (F := Ideal) x tg w g be (ix2 r (0 : Fin 1)))
            (Ideal.ofBits .f32 0x43800000#32))
        + val_main_v76 (F := Ideal) x g be ix0 := by
  rw [val_main_v77_apply, val_main_v68_apply, val_main_v67_apply, val_main_v66_apply, val_main_cst_15_apply,
    val_main_cst_16_apply, sum_col]
  simp only [Ideal.addf_def, Ideal.hostNegf_def, Ideal.negf_def, Ideal.hostDivf_def, Ideal.ofBits_def,
    Ideal.ofBits_zero_f32]

end Closed

end Cert.RefIndex

end
-- ==== Proof.SoftmaxMath.lean ====
import Idealize.ShloMosaic.PureOps.Ideal
import Mathlib.Data.EReal.Basic
import Mathlib.Data.EReal.Operations
import Mathlib.Data.EReal.Inv
import Mathlib.Analysis.SpecialFunctions.Log.Basic
import Mathlib.Analysis.SpecialFunctions.Exp
import Mathlib.Algebra.BigOperators.Fin
import Mathlib.Algebra.BigOperators.Intervals
import Mathlib.Data.Finset.Lattice.Fold
import Mathlib.Tactic.Ring
import Mathlib.Tactic.NormNum
import Mathlib.Tactic.Linarith

/-!
  The flash-softmax law and the small extended-real identities of a margin-cosine
  cross-entropy: a running maximum, a running sum of exponentials rescaled at every tile and a
  running target logit, taken tile by tile over 49 tiles of 2048 columns of which the last 352
  are padding at -∞, give the same negative log-likelihood as the textbook
  log-softmax of the 100000 real logits of the row.
-/

noncomputable section

namespace Cert.SoftmaxMath

open Idealize.ShloMosaic
open scoped BigOperators

/-! ### Finite sums of reals inside the extended reals -/

/-- The coercion of the reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A non-negative real factor distributes over any finite sum of extended reals, whatever the
    summands (infinite ones included): the factor is finite and has one sign. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ### (1) The cosine against a normalised column -/

/-- The norm of a column with a positive sum of squares is the positive real √(∑ w²). -/
theorem colNorm_eq {ι : Type*} [Fintype ι] (wc : ι → ℝ) :
    (∑ k, ((wc k : ℝ) : EReal) * ((wc k : ℝ) : EReal)) = ((∑ k, wc k * wc k : ℝ) : EReal) := by
  rw [coe_finset_sum]
  exact Finset.sum_congr rfl fun k _ => (EReal.coe_mul _ _).symm

theorem sqrt_colNorm {ι : Type*} [Fintype ι] (wc : ι → ℝ) (hpos : 0 < ∑ k, wc k * wc k) :
    Ideal.sqrt (∑ k, ((wc k : ℝ) : EReal) * ((wc k : ℝ) : EReal))
      = ((Real.sqrt (∑ k, wc k * wc k) : ℝ) : EReal) := by
  rw [colNorm_eq, Ideal.sqrt_coe, if_neg (not_lt.2 hpos.le)]

/-- Division by a positive real distributes over a dot product with arbitrary extended-real
    left factors: it is the product with the positive real reciprocal. -/
theorem dot_div_core {ι : Type*} (s : Finset ι) (a w : ι → EReal) {n : EReal} {r : ℝ} (hn : n = (r : EReal))
    (hr : 0 < r) :
    Ideal.div (∑ k ∈ s, a k * w k) n = ∑ k ∈ s, a k * Ideal.div (w k) n := by
  subst hn
  have h1 : (0 : ℝ) ≤ 1 / r := by positivity
  rw [Ideal.div_coe hr.ne', sum_mul_coe_of_nonneg s _ h1]
  refine Finset.sum_congr rfl fun k _ => ?_
  rw [Ideal.div_coe hr.ne', mul_assoc]

theorem dot_div (a : Fin 512 → EReal) (wc : Fin 512 → ℝ) (hpos : 0 < ∑ k, wc k * wc k) :
    Ideal.div (0 + ∑ k, a k * ((wc k : ℝ) : EReal))
        (Ideal.sqrt (0 + ∑ k, ((wc k : ℝ) : EReal) * ((wc k : ℝ) : EReal)))
      = ∑ k, a k * Ideal.div ((wc k : ℝ) : EReal)
          (Ideal.sqrt (0 + ∑ k, ((wc k : ℝ) : EReal) * ((wc k : ℝ) : EReal))) := by
  rw [zero_add, zero_add]
  exact dot_div_core Finset.univ a _ (sqrt_colNorm wc hpos) (Real.sqrt_pos.2 hpos)

/-- The same with no leading zero on the sums. -/
theorem dot_div_noZero (a : Fin 512 → EReal) (wc : Fin 512 → ℝ) (hpos : 0 < ∑ k, wc k * wc k) :
    Ideal.div (∑ k, a k * ((wc k : ℝ) : EReal))
        (Ideal.sqrt (∑ k, ((wc k : ℝ) : EReal) * ((wc k : ℝ) : EReal)))
      = ∑ k, a k * Ideal.div ((wc k : ℝ) : EReal)
          (Ideal.sqrt (∑ k, ((wc k : ℝ) : EReal) * ((wc k : ℝ) : EReal))) :=
  dot_div_core Finset.univ a _ (sqrt_colNorm wc hpos) (Real.sqrt_pos.2 hpos)

/-- The same with a leading zero on the right-hand sum as well. -/
theorem dot_div_zeroBoth (a : Fin 512 → EReal) (wc : Fin 512 → ℝ) (hpos : 0 < ∑ k, wc k * wc k) :
    Ideal.div (0 + ∑ k, a k * ((wc k : ℝ) : EReal))
        (Ideal.sqrt (0 + ∑ k, ((wc k : ℝ) : EReal) * ((wc k : ℝ) : EReal)))
      = 0 + ∑ k, a k * Ideal.div ((wc k : ℝ) : EReal)
          (Ideal.sqrt (0 + ∑ k, ((wc k : ℝ) : EReal) * ((wc k : ℝ) : EReal))) := by
  rw [zero_add (∑ k, a k * Ideal.div _ _)]
  exact dot_div a wc hpos

/-- The same with the products commuted. -/
theorem dot_div_comm (a : Fin 512 → EReal) (wc : Fin 512 → ℝ) (hpos : 0 < ∑ k, wc k * wc k) :
    Ideal.div (0 + ∑ k, ((wc k : ℝ) : EReal) * a k)
        (Ideal.sqrt (0 + ∑ k, ((wc k : ℝ) : EReal) * ((wc k : ℝ) : EReal)))
      = ∑ k, Ideal.div ((wc k : ℝ) : EReal)
          (Ideal.sqrt (0 + ∑ k, ((wc k : ℝ) : EReal) * ((wc k : ℝ) : EReal))) * a k := by
  have h := dot_div a wc hpos
  simp only [mul_comm (a _)] at h
  exact h

/-! ### (2) The clipped cosine and its sine -/

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

theorem coe_one' : ((1 : ℝ) : EReal) = 1 := rfl

theorem coe_neg_one : ((-1 : ℝ) : EReal) = -1 := rfl

/-- A value clipped to [-1, 1] is a real number of that interval, whatever it was (an infinity
    clips to an end point). -/
theorem clip_real (v : EReal) : ∃ r : ℝ, -1 ≤ r ∧ r ≤ 1 ∧ min 1 (max (-1) v) = (r : EReal) := by
  induction v using EReal.rec with
  | bot =>
    refine ⟨-1, le_rfl, by norm_num, ?_⟩
    rw [max_bot_right, ← coe_neg_one, ← coe_one', ← coe_min, min_eq_right (by norm_num : (-1 : ℝ) ≤ 1)]
  | coe x =>
    refine ⟨min 1 (max (-1) x), le_min (by norm_num) (le_max_left _ _), min_le_left _ _, ?_⟩
    rw [coe_min, coe_max, coe_one', coe_neg_one]
  | top =>
    refine ⟨1, by norm_num, le_rfl, ?_⟩
    rw [max_top_right, min_top_right, coe_one']

theorem clip_real_comm (v : EReal) : ∃ r : ℝ, -1 ≤ r ∧ r ≤ 1 ∧ min (max v (-1)) 1 = (r : EReal) := by
  rw [min_comm, max_comm]
  exact clip_real v

/-- Clipping below first or above first is the same, since -1 ≤ 1. -/
theorem clip_swap (v : EReal) : max (-1) (min 1 v) = min 1 (max (-1) v) := by
  have h : (-1 : EReal) ≤ 1 := by
    rw [← coe_neg_one, ← coe_one']
    exact EReal.coe_le_coe_iff.2 (by norm_num)
  rw [max_min_distrib_left, max_eq_right h]

theorem clip_real' (v : EReal) : ∃ r : ℝ, -1 ≤ r ∧ r ≤ 1 ∧ max (-1) (min 1 v) = (r : EReal) := by
  rw [clip_swap]
  exact clip_real v

theorem clip_real'_comm (v : EReal) : ∃ r : ℝ, -1 ≤ r ∧ r ≤ 1 ∧ max (min v 1) (-1) = (r : EReal) := by
  rw [max_comm, min_comm]
  exact clip_real' v

/-- For a real c of [-1, 1] the number 1 - c² is a non-negative real. -/
theorem one_sub_sq (r : ℝ) : (1 : EReal) - (r : EReal) * (r : EReal) = ((1 - r * r : ℝ) : EReal) := by
  rw [← coe_one', ← EReal.coe_mul, ← EReal.coe_sub]

theorem one_sub_sq_nonneg {r : ℝ} (h1 : -1 ≤ r) (h2 : r ≤ 1) :
    (0 : EReal) ≤ (1 : EReal) - (r : EReal) * (r : EReal) := by
  rw [one_sub_sq]
  exact EReal.coe_nonneg.2 (by nlinarith)

/-- The guard max(·, 0) under the square root of 1 - c² is idle once c is clipped to [-1, 1]. -/
theorem max_clip (v : EReal) :
    max (1 - min 1 (max (-1) v) * min 1 (max (-1) v)) 0
      = 1 - min 1 (max (-1) v) * min 1 (max (-1) v) := by
  obtain ⟨r, h1, h2, hr⟩ := clip_real v
  rw [hr]
  exact max_eq_left (one_sub_sq_nonneg h1 h2)

theorem sqrt_clip (v : EReal) :
    Ideal.sqrt (max (1 - min 1 (max (-1) v) * min 1 (max (-1) v)) 0)
      = Ideal.sqrt (1 - min 1 (max (-1) v) * min 1 (max (-1) v)) := by
  rw [max_clip]

theorem sqrt_clip_comm (v : EReal) :
    Ideal.sqrt (max 0 (1 - min 1 (max (-1) v) * min 1 (max (-1) v)))
      = Ideal.sqrt (1 - min 1 (max (-1) v) * min 1 (max (-1) v)) := by
  rw [max_comm, max_clip]

theorem sqrt_clip' (v : EReal) :
    Ideal.sqrt (max (1 - max (-1) (min 1 v) * max (-1) (min 1 v)) 0)
      = Ideal.sqrt (1 - max (-1) (min 1 v) * max (-1) (min 1 v)) := by
  rw [clip_swap, max_clip]

/-- The sine of the clipped cosine is a real number of [0, 1]. -/
theorem sqrt_clip_real (v : EReal) : ∃ r s : ℝ, -1 ≤ r ∧ r ≤ 1 ∧ min 1 (max (-1) v) = (r : EReal) ∧
    Ideal.sqrt (1 - min 1 (max (-1) v) * min 1 (max (-1) v)) = (s : EReal) ∧ s = Real.sqrt (1 - r * r) := by
  obtain ⟨r, h1, h2, hr⟩ := clip_real v
  refine ⟨r, Real.sqrt (1 - r * r), h1, h2, hr, ?_, rfl⟩
  rw [hr, one_sub_sq, Ideal.sqrt_coe, if_neg (not_lt.2 (by nlinarith))]

/-! ### (3) The one-hot mix of the margin logit and the plain cosine -/

theorem one_sub_one : (1 : EReal) - 1 = 0 := by
  rw [← coe_one', ← EReal.coe_sub, sub_self, EReal.coe_zero]

theorem one_sub_zero : (1 : EReal) - 0 = 1 := sub_zero 1

theorem onehot_mix_one (s : EReal) (p c : ℝ) :
    s * (1 * (p : EReal) + (1 - 1) * (c : EReal)) = s * (p : EReal) := by
  rw [one_sub_one, zero_mul, add_zero, one_mul]

theorem onehot_mix_zero (s : EReal) (p c : ℝ) :
    s * (0 * (p : EReal) + (1 - 0) * (c : EReal)) = s * (c : EReal) := by
  rw [one_sub_zero, zero_mul, zero_add, one_mul]

theorem onehot_mix (p c : ℝ) :
    (64 : EReal) * (1 * (p : EReal) + (1 - 1) * (c : EReal)) = 64 * (p : EReal) ∧
    (64 : EReal) * (0 * (p : EReal) + (1 - 0) * (c : EReal)) = 64 * (c : EReal) :=
  ⟨onehot_mix_one 64 p c, onehot_mix_zero 64 p c⟩

/-! ### (6) The mean of the negated losses -/

theorem coe_256 : ((256 : ℝ) : EReal) = 256 := rfl

theorem mean_neg (a : Fin 256 → ℝ) :
    Ideal.div (0 + ∑ r, ((-(a r) : ℝ) : EReal)) 256
      = -(Ideal.div (0 + ∑ r, ((a r : ℝ) : EReal)) 256) := by
  rw [zero_add, zero_add, ← coe_finset_sum, ← coe_finset_sum, ← coe_256,
    Ideal.div_coe (by norm_num), Ideal.div_coe (by norm_num), ← EReal.coe_mul, ← EReal.coe_mul,
    ← EReal.coe_neg, Finset.sum_neg_distrib, neg_mul]

/-- The f32 pattern 0x43800000 denotes 256. -/
theorem ofBits_256 : Ideal.ofBits .f32 0x43800000#32 = 256 := by
  simp [Ideal.ofBits, Ideal.ieee]
  rw [← EReal.coe_mul, ← coe_256]
  congr 1
  norm_num

/-- The mean with the divisor given by its f32 pattern. -/
theorem mean_neg_ofBits (a : Fin 256 → ℝ) :
    Ideal.div (0 + ∑ r, ((-(a r) : ℝ) : EReal)) (Ideal.ofBits .f32 0x43800000#32)
      = -(Ideal.div (0 + ∑ r, ((a r : ℝ) : EReal)) (Ideal.ofBits .f32 0x43800000#32)) := by
  rw [ofBits_256]
  exact mean_neg a

/-! ### (4) The flash-softmax law -/

/-- The logit of column c of one row: the real logit on the 100000 columns, -∞ on the padding. -/
def E (ℓ : ℕ → ℝ) (c : ℕ) : EReal := if c < 100000 then ((ℓ c : ℝ) : EReal) else ⊥

/-- The logits of tile t (2048 columns). -/
def L (ℓ : ℕ → ℝ) (t : ℕ) (j : Fin 2048) : EReal :=
  if t * 2048 + j.val < 100000 then ((ℓ (t * 2048 + j.val) : ℝ) : EReal) else ⊥

theorem L_eq_E (ℓ : ℕ → ℝ) (t : ℕ) (j : Fin 2048) : L ℓ t j = E ℓ (t * 2048 + j.val) := rfl

/-- The exponential of a column's logit less a real shift, as a real: 0 on the padding. -/
def g (ℓ : ℕ → ℝ) (m : ℝ) (c : ℕ) : ℝ := if c < 100000 then Real.exp (ℓ c - m) else 0

theorem exp_E_sub (ℓ : ℕ → ℝ) (m : ℝ) (c : ℕ) :
    Ideal.exp (E ℓ c - (m : EReal)) = ((g ℓ m c : ℝ) : EReal) := by
  unfold E g
  split_ifs with h
  · rw [← EReal.coe_sub, Ideal.exp_coe]
  · rw [EReal.bot_sub, Ideal.exp_bot, EReal.coe_zero]

/-- Rescaling from the shift m to the shift m': e^(x-m) · e^(m-m') = e^(x-m'). -/
theorem g_mul_exp (ℓ : ℕ → ℝ) (m m' : ℝ) (c : ℕ) : g ℓ m c * Real.exp (m - m') = g ℓ m' c := by
  unfold g
  split_ifs with h
  · rw [← Real.exp_add]; congr 1; ring
  · rw [zero_mul]

theorem E_lt_top (ℓ : ℕ → ℝ) (c : ℕ) : E ℓ c < ⊤ := by
  unfold E
  split_ifs with h
  · exact EReal.coe_lt_top _
  · exact bot_lt_top

/-- The maximum over a non-empty initial stretch of columns is a real number: column 0 is real
    and nothing is +∞. -/
theorem exists_real_sup (ℓ : ℕ → ℝ) {n : ℕ} (hn : 0 < n) :
    ∃ m : ℝ, (Finset.range n).sup (E ℓ) = (m : EReal) := by
  have hbot : (Finset.range n).sup (E ℓ) ≠ ⊥ := by
    have h0 : E ℓ 0 ≤ (Finset.range n).sup (E ℓ) := Finset.le_sup (Finset.mem_range.2 hn)
    have h1 : E ℓ 0 = ((ℓ 0 : ℝ) : EReal) := by
      unfold E; rw [if_pos (by norm_num)]
    rw [h1] at h0
    intro h
    rw [h] at h0
    exact (not_le.2 (EReal.bot_lt_coe _)) h0
  have htop : (Finset.range n).sup (E ℓ) ≠ ⊤ :=
    ne_of_lt ((Finset.sup_lt_iff bot_lt_top).2 fun c _ => E_lt_top ℓ c)
  exact ⟨_, (EReal.coe_toReal htop hbot).symm⟩

/-- The maximum over n + k columns is the larger of the maximum over the first n and the
    maximum over the next k. -/
theorem sup_range_add (f : ℕ → EReal) (n k : ℕ) :
    (Finset.range (n + k)).sup f
      = max ((Finset.range n).sup f) (Finset.univ.sup fun j : Fin k => f (n + j.val)) := by
  apply le_antisymm
  · refine Finset.sup_le fun c hc => ?_
    rw [Finset.mem_range] at hc
    by_cases h : c < n
    · exact le_max_of_le_left (Finset.le_sup (Finset.mem_range.2 h))
    · refine le_max_of_le_right ?_
      have hk : c - n < k := by omega
      have hc' : f c = (fun j : Fin k => f (n + j.val)) ⟨c - n, hk⟩ := by
        show f c = f (n + (c - n))
        congr 1; omega
      rw [hc']
      exact Finset.le_sup (f := fun j : Fin k => f (n + j.val)) (Finset.mem_univ _)
  · refine max_le (Finset.sup_mono (Finset.range_mono (Nat.le_add_right n k))) ?_
    refine Finset.sup_le fun j _ => ?_
    exact Finset.le_sup (f := f) (Finset.mem_range.2 (by omega))

/-- The invariant of the running maximum and the running rescaled sum after t tiles: the
    maximum of the logits of the columns seen so far, and the sum of their exponentials shifted
    by that maximum. A tile's maximum M_ t is any value that bounds the tile's logits and is one of
    them (or -∞). -/
theorem flash_inv (ℓ : ℕ → ℝ) (mx sx M_ : ℕ → EReal)
    (h0 : mx 0 = ⊥) (hs0 : sx 0 = 0)
    (hm : ∀ t < 49, mx (t + 1) = max (mx t) (M_ t))
    (hub : ∀ t < 49, ∀ j, L ℓ t j ≤ M_ t)
    (hat : ∀ t < 49, (∃ j, M_ t = L ℓ t j) ∨ M_ t = ⊥)
    (hs : ∀ t < 49, sx (t + 1) = sx t * Ideal.exp (mx t - mx (t + 1))
        + (0 + ∑ j, Ideal.exp (L ℓ t j - mx (t + 1)))) :
    ∀ t, t ≤ 49 → mx t = (Finset.range (t * 2048)).sup (E ℓ) ∧
      sx t = ∑ c ∈ Finset.range (t * 2048), Ideal.exp (E ℓ c - mx t) := by
  intro t
  induction t with
  | zero =>
    intro _
    rw [Nat.zero_mul, Finset.range_zero, Finset.sup_empty, Finset.sum_empty]
    exact ⟨h0, hs0⟩
  | succ t ih =>
    intro ht
    have ht' : t < 49 := by omega
    obtain ⟨ihm, ihs⟩ := ih (by omega)
    have hMt : M_ t = Finset.univ.sup fun j : Fin 2048 => E ℓ (t * 2048 + j.val) := by
      apply le_antisymm
      · rcases hat t ht' with ⟨j, hj⟩ | hb
        · rw [hj]
          exact Finset.le_sup (f := fun j : Fin 2048 => E ℓ (t * 2048 + j.val)) (Finset.mem_univ j)
        · rw [hb]; exact bot_le
      · exact Finset.sup_le fun j _ => hub t ht' j
    have hmx : mx (t + 1) = (Finset.range ((t + 1) * 2048)).sup (E ℓ) := by
      rw [hm t ht', ihm, hMt, Nat.succ_mul, sup_range_add]
    refine ⟨hmx, ?_⟩
    obtain ⟨m', hm'⟩ := exists_real_sup ℓ (n := (t + 1) * 2048) (by omega)
    have hmx' : mx (t + 1) = (m' : EReal) := hmx.trans hm'
    -- the new tile's sum of exponentials, a real
    have htile : (∑ j : Fin 2048, Ideal.exp (L ℓ t j - mx (t + 1)))
        = ((∑ j : Fin 2048, g ℓ m' (t * 2048 + j.val) : ℝ) : EReal) := by
      rw [coe_finset_sum]
      refine Finset.sum_congr rfl fun j _ => ?_
      rw [hmx', L_eq_E, exp_E_sub]
    -- the carried sum, rescaled to the new maximum
    have hcarry : sx t * Ideal.exp (mx t - mx (t + 1))
        = ((∑ c ∈ Finset.range (t * 2048), g ℓ m' c : ℝ) : EReal) := by
      rcases Nat.eq_zero_or_pos t with h | h
      · subst h
        rw [hs0, zero_mul, Nat.zero_mul, Finset.range_zero, Finset.sum_empty, EReal.coe_zero]
      · obtain ⟨m, hmr⟩ := exists_real_sup ℓ (n := t * 2048) (by omega)
        have hmt : mx t = (m : EReal) := ihm.trans hmr
        have hsum : (∑ c ∈ Finset.range (t * 2048), Ideal.exp (E ℓ c - (m : EReal)))
            = ((∑ c ∈ Finset.range (t * 2048), g ℓ m c : ℝ) : EReal) := by
          rw [coe_finset_sum]
          exact Finset.sum_congr rfl fun c _ => exp_E_sub ℓ m c
        rw [ihs, hmt, hmx', ← EReal.coe_sub, Ideal.exp_coe, hsum, ← EReal.coe_mul, Finset.sum_mul]
        exact congrArg _ (Finset.sum_congr rfl fun c _ => g_mul_exp ℓ m m' c)
    have hall : (∑ c ∈ Finset.range ((t + 1) * 2048), Ideal.exp (E ℓ c - mx (t + 1)))
        = ((∑ c ∈ Finset.range ((t + 1) * 2048), g ℓ m' c : ℝ) : EReal) := by
      rw [coe_finset_sum, hmx']
      exact Finset.sum_congr rfl fun c _ => exp_E_sub ℓ m' c
    rw [hall, hs t ht', hcarry, htile, zero_add, ← EReal.coe_add, Nat.succ_mul, Finset.sum_range_add,
      Fin.sum_univ_eq_sum_range (fun x => g ℓ m' (t * 2048 + x)) 2048]

theorem cols_nonempty : (Finset.range 100000).Nonempty := Finset.nonempty_range_iff.2 (by norm_num)

/-- The maximum of the row's 100000 logits, a real. -/
def rowMax (ℓ : ℕ → ℝ) : ℝ := (Finset.range 100000).sup' cols_nonempty ℓ

/-- The sum of the row's exponentials shifted by the row maximum, a positive real. -/
def rowSum (ℓ : ℕ → ℝ) : ℝ := ∑ c ∈ Finset.range 100000, Real.exp (ℓ c - rowMax ℓ)

theorem rowSum_pos (ℓ : ℕ → ℝ) : 0 < rowSum ℓ :=
  Finset.sum_pos (fun _ _ => Real.exp_pos _) cols_nonempty

/-- Over all 49 tiles the padded maximum is the row maximum. -/
theorem sup_E_all (ℓ : ℕ → ℝ) :
    (Finset.range (49 * 2048)).sup (E ℓ) = ((rowMax ℓ : ℝ) : EReal) := by
  apply le_antisymm
  · refine Finset.sup_le fun c _ => ?_
    unfold E
    split_ifs with h
    · exact EReal.coe_le_coe_iff.2 (Finset.le_sup' ℓ (Finset.mem_range.2 h))
    · exact bot_le
  · obtain ⟨c0, hc0, hM⟩ := Finset.exists_mem_eq_sup' cols_nonempty ℓ
    have hc0' : c0 < 100000 := Finset.mem_range.1 hc0
    have h1 : ((rowMax ℓ : ℝ) : EReal) = E ℓ c0 := by
      unfold E rowMax
      rw [if_pos hc0', hM]
    rw [h1]
    exact Finset.le_sup (Finset.mem_range.2 (by omega))

/-- Any value that bounds the row's logits and is one of them is the row maximum. -/
theorem rowMax_unique (ℓ : ℕ → ℝ) (Mref : EReal)
    (hub : ∀ c, c < 100000 → ((ℓ c : ℝ) : EReal) ≤ Mref)
    (hat : (∃ c, c < 100000 ∧ Mref = ((ℓ c : ℝ) : EReal)) ∨ Mref = ⊥) :
    Mref = ((rowMax ℓ : ℝ) : EReal) := by
  obtain ⟨c0, hc0, hM⟩ := Finset.exists_mem_eq_sup' cols_nonempty ℓ
  have hc0' : c0 < 100000 := Finset.mem_range.1 hc0
  apply le_antisymm
  · rcases hat with ⟨c, hc, hM'⟩ | hb
    · rw [hM']
      exact EReal.coe_le_coe_iff.2 (Finset.le_sup' ℓ (Finset.mem_range.2 hc))
    · rw [hb]; exact bot_le
  · unfold rowMax
    rw [hM]
    exact hub c0 hc0'

/-- Over all 49 tiles the padded sum of exponentials is the row's sum: the padding adds e^(-∞) = 0. -/
theorem sum_g_all (ℓ : ℕ → ℝ) (m : ℝ) :
    ∑ c ∈ Finset.range (49 * 2048), g ℓ m c = ∑ c ∈ Finset.range 100000, Real.exp (ℓ c - m) := by
  have h : 49 * 2048 = 100000 + 352 := by norm_num
  rw [h, Finset.sum_range_add]
  have h2 : ∑ x ∈ Finset.range 352, g ℓ m (100000 + x) = 0 :=
    Finset.sum_eq_zero fun x _ => by
      unfold g
      rw [if_neg (by omega)]
  rw [h2, add_zero]
  refine Finset.sum_congr rfl fun c hc => ?_
  unfold g
  rw [if_pos (Finset.mem_range.1 hc)]

/-- THE FLASH-SOFTMAX LAW: after the 49 tiles the running maximum is the row maximum and the
    running sum is the sum of the row's exponentials shifted by it. -/
theorem flash (ℓ : ℕ → ℝ) (mx sx M_ : ℕ → EReal)
    (h0 : mx 0 = ⊥) (hs0 : sx 0 = 0)
    (hm : ∀ t < 49, mx (t + 1) = max (mx t) (M_ t))
    (hub : ∀ t < 49, ∀ j, L ℓ t j ≤ M_ t)
    (hat : ∀ t < 49, (∃ j, M_ t = L ℓ t j) ∨ M_ t = ⊥)
    (hs : ∀ t < 49, sx (t + 1) = sx t * Ideal.exp (mx t - mx (t + 1))
        + (0 + ∑ j, Ideal.exp (L ℓ t j - mx (t + 1)))) :
    mx 49 = ((rowMax ℓ : ℝ) : EReal) ∧ sx 49 = ((rowSum ℓ : ℝ) : EReal) := by
  obtain ⟨h1, h2⟩ := flash_inv ℓ mx sx M_ h0 hs0 hm hub hat hs 49 le_rfl
  have hM : mx 49 = ((rowMax ℓ : ℝ) : EReal) := h1.trans (sup_E_all ℓ)
  refine ⟨hM, ?_⟩
  rw [h2, hM]
  have : (∑ c ∈ Finset.range (49 * 2048), Ideal.exp (E ℓ c - ((rowMax ℓ : ℝ) : EReal)))
      = ((∑ c ∈ Finset.range (49 * 2048), g ℓ (rowMax ℓ) c : ℝ) : EReal) := by
    rw [coe_finset_sum]
    exact Finset.sum_congr rfl fun c _ => exp_E_sub ℓ (rowMax ℓ) c
  rw [this, sum_g_all]
  rfl

/-- The textbook log-softmax side: the sum over the 100000 columns of the exponentials of the
    logits less the row maximum is the real row sum. -/
theorem ref_sum (ℓ : ℕ → ℝ) :
    (∑ c : Fin 100000, Ideal.exp (((ℓ c.val : ℝ) : EReal) - ((rowMax ℓ : ℝ) : EReal)))
      = ((rowSum ℓ : ℝ) : EReal) := by
  unfold rowSum
  rw [← Fin.sum_univ_eq_sum_range (fun c => Real.exp (ℓ c - rowMax ℓ)) 100000, coe_finset_sum]
  refine Finset.sum_congr rfl fun c _ => ?_
  rw [← EReal.coe_sub, Ideal.exp_coe]

/-- The negative log-likelihood of the target column τ: the flash form m + log s - ℓ_τ is the
    textbook -(ℓ_τ - M - log ∑ e^(ℓ_c - M)). -/
theorem nll_eq (ℓ : ℕ → ℝ) (mx sx M_ : ℕ → EReal)
    (h0 : mx 0 = ⊥) (hs0 : sx 0 = 0)
    (hm : ∀ t < 49, mx (t + 1) = max (mx t) (M_ t))
    (hub : ∀ t < 49, ∀ j, L ℓ t j ≤ M_ t)
    (hat : ∀ t < 49, (∃ j, M_ t = L ℓ t j) ∨ M_ t = ⊥)
    (hs : ∀ t < 49, sx (t + 1) = sx t * Ideal.exp (mx t - mx (t + 1))
        + (0 + ∑ j, Ideal.exp (L ℓ t j - mx (t + 1))))
    (τ : ℕ) :
    mx 49 + Ideal.log (sx 49) - ((ℓ τ : ℝ) : EReal)
      = -((((ℓ τ : ℝ) : EReal) - ((rowMax ℓ : ℝ) : EReal))
          - Ideal.log (0 + ∑ c : Fin 100000,
              Ideal.exp (((ℓ c.val : ℝ) : EReal) - ((rowMax ℓ : ℝ) : EReal)))) := by
  obtain ⟨h1, h2⟩ := flash ℓ mx sx M_ h0 hs0 hm hub hat hs
  rw [h1, h2, ref_sum, zero_add, Ideal.log_coe, if_neg (not_le.2 (rowSum_pos ℓ)),
    ← EReal.coe_add, ← EReal.coe_sub, ← EReal.coe_sub, ← EReal.coe_sub, ← EReal.coe_neg]
  congr 1
  ring

/-- The same against any reference maximum Mref that bounds the row's logits and is one of them. -/
theorem nll_eq_of_max (ℓ : ℕ → ℝ) (mx sx M_ : ℕ → EReal)
    (h0 : mx 0 = ⊥) (hs0 : sx 0 = 0)
    (hm : ∀ t < 49, mx (t + 1) = max (mx t) (M_ t))
    (hub : ∀ t < 49, ∀ j, L ℓ t j ≤ M_ t)
    (hat : ∀ t < 49, (∃ j, M_ t = L ℓ t j) ∨ M_ t = ⊥)
    (hs : ∀ t < 49, sx (t + 1) = sx t * Ideal.exp (mx t - mx (t + 1))
        + (0 + ∑ j, Ideal.exp (L ℓ t j - mx (t + 1))))
    (Mref : EReal)
    (hrub : ∀ c, c < 100000 → ((ℓ c : ℝ) : EReal) ≤ Mref)
    (hrat : (∃ c, c < 100000 ∧ Mref = ((ℓ c : ℝ) : EReal)) ∨ Mref = ⊥)
    (τ : ℕ) :
    mx 49 + Ideal.log (sx 49) - ((ℓ τ : ℝ) : EReal)
      = -((((ℓ τ : ℝ) : EReal) - Mref)
          - Ideal.log (0 + ∑ c : Fin 100000, Ideal.exp (((ℓ c.val : ℝ) : EReal) - Mref))) := by
  rw [rowMax_unique ℓ Mref hrub hrat]
  exact nll_eq ℓ mx sx M_ h0 hs0 hm hub hat hs τ

/-! ### (5) The running target logit -/

/-- One tile's contribution to the target logit: the logit of column τ if the tile holds it. -/
theorem tile_target (ℓ : ℕ → ℝ) (t τ : ℕ) (hτ : τ < 100000) :
    (∑ j : Fin 2048, if t * 2048 + j.val = τ then L ℓ t j else 0)
      = if t * 2048 ≤ τ ∧ τ < (t + 1) * 2048 then ((ℓ τ : ℝ) : EReal) else 0 := by
  split_ifs with h
  · have hj : τ - t * 2048 < 2048 := by omega
    rw [Finset.sum_eq_single (⟨τ - t * 2048, hj⟩ : Fin 2048)]
    · have e : t * 2048 + (τ - t * 2048) = τ := by omega
      show (if t * 2048 + (τ - t * 2048) = τ then L ℓ t ⟨τ - t * 2048, hj⟩ else 0) = _
      rw [if_pos e]
      unfold L
      show (if t * 2048 + (τ - t * 2048) < 100000 then ((ℓ (t * 2048 + (τ - t * 2048)) : ℝ) : EReal) else ⊥) = _
      rw [e, if_pos hτ]
    · intro j _ hne
      rw [if_neg]
      intro hjτ
      apply hne
      apply Fin.ext
      show j.val = τ - t * 2048
      omega
    · intro hnot
      exact absurd (Finset.mem_univ _) hnot
  · refine Finset.sum_eq_zero fun j _ => ?_
    rw [if_neg]
    intro hjτ
    apply h
    have := j.isLt
    omega

/-- After t tiles the running target logit is the logit of column τ once its tile has passed. -/
theorem target_inv (ℓ : ℕ → ℝ) (tx : ℕ → EReal) (τ : ℕ) (hτ : τ < 100000)
    (h0 : tx 0 = 0)
    (ht : ∀ t < 49, tx (t + 1)
        = tx t + (0 + ∑ j : Fin 2048, if t * 2048 + j.val = τ then L ℓ t j else 0)) :
    ∀ t, t ≤ 49 → tx t = if τ < t * 2048 then ((ℓ τ : ℝ) : EReal) else 0 := by
  intro t
  induction t with
  | zero =>
    intro _
    rw [h0, if_neg (by omega)]
  | succ t ih =>
    intro h
    rw [ht t (by omega), ih (by omega), tile_target ℓ t τ hτ, zero_add]
    by_cases h1 : τ < t * 2048
    · rw [if_pos h1, if_neg (by omega), if_pos (by omega), add_zero]
    · by_cases h2 : τ < (t + 1) * 2048
      · rw [if_neg h1, if_pos ⟨by omega, h2⟩, if_pos h2, zero_add]
      · rw [if_neg h1, if_neg (by omega), if_neg h2, add_zero]

theorem target_final (ℓ : ℕ → ℝ) (tx : ℕ → EReal) (τ : ℕ) (hτ : τ < 100000)
    (h0 : tx 0 = 0)
    (ht : ∀ t < 49, tx (t + 1)
        = tx t + (0 + ∑ j : Fin 2048, if t * 2048 + j.val = τ then L ℓ t j else 0)) :
    tx 49 = ((ℓ τ : ℝ) : EReal) := by
  rw [target_inv ℓ tx τ hτ h0 ht 49 le_rfl, if_pos (by omega)]

end Cert.SoftmaxMath
-- ==== Proof.RefIndex.Reals.lean ====
import proofs.«418458_j50414326120960_1_alg».proof.Proof.RefIndex
import proofs.«418458_j50414326120960_1_alg».proof.Proof.SoftmaxMath

noncomputable section

namespace Cert.RefIndex

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## Finite values -/

/-- An f32 word whose exponent field is not all ones denotes a real. -/
theorem ofBits_real (b : BitVec 32) (h : (b.extractLsb' 23 8).toNat ≠ 2 ^ 8 - 1) :
    ∃ q : ℝ, Ideal.ofBits .f32 b = (q : EReal) := by
  show ∃ q : ℝ, Ideal.ieee 8 23 b = (q : EReal)
  unfold Ideal.ieee
  simp only []
  rw [if_neg h]
  split_ifs <;> exact ⟨_, rfl⟩

/-- An extended real clipped between two reals is a real. -/
theorem clip_real (a b : ℝ) (y : EReal) : ∃ q : ℝ, min (a : EReal) (max (b : EReal) y) = (q : EReal) := by
  refine ⟨(min (a : EReal) (max (b : EReal) y)).toReal, (EReal.coe_toReal ?_ ?_).symm⟩
  · exact ne_top_of_le_ne_top (EReal.coe_ne_top a) (min_le_left _ _)
  · have h : ((min a b : ℝ) : EReal) ≤ min (a : EReal) (max (b : EReal) y) :=
      le_min (EReal.coe_le_coe_iff.2 (min_le_left a b))
        (le_trans (EReal.coe_le_coe_iff.2 (min_le_right a b)) (le_max_left _ _))
    exact ((EReal.bot_lt_coe _).trans_le h).ne'

/-- An affine expression in reals is a real. -/
theorem affine_real (a p c d : ℝ) :
    ∃ q : ℝ, (a : EReal) * ((p : EReal) - (c : EReal)) + (d : EReal) = (q : EReal) :=
  ⟨a * (p - c) + d, by rw [← EReal.coe_sub, ← EReal.coe_mul, ← EReal.coe_add]⟩

section Closed

variable (x : (⟨S256x512, .f32⟩ : BufTy).Contents (Elt Ideal)) (tg : (⟨S256, .i32⟩ : BufTy).Contents (Elt Ideal))
  (w : (⟨S512x100000, .f32⟩ : BufTy).Contents (Elt Ideal)) (g be : (⟨S512, .f32⟩ : BufTy).Contents (Elt Ideal))

/-- The margin angle of a row is a real: the row norm is clipped between two reals, whatever it is, and the angle is an
    affine function of the clipped norm. -/
theorem margin_real (r : Fin 256) :
    ∃ q : ℝ, val_main_v32 (F := Ideal) x g be (ix2 r (0 : Fin 1)) = (q : EReal) := by
  rw [val_main_v32_apply, val_main_v30_apply, val_main_v29_apply, val_main_cst_7_apply, val_main_v28_apply,
    val_main_v26_apply, val_main_call1_v4_apply, val_main_call1_v3_apply, val_main_cst_5_apply,
    val_main_call1_v2_apply, val_main_call1_v1_apply, val_main_call1_v0_apply, val_main_cst_4_apply,
    val_main_v27_apply, val_main_cst_6_apply, val_main_v31_apply, val_main_cst_8_apply]
  simp only [Ideal.addf_def, Ideal.mulf_def, Ideal.subf_def, Ideal.minimumf_def, Ideal.maximumf_def, Ideal.ofBits_def]
  obtain ⟨a, ha⟩ := ofBits_real 0x3B656042#32 (by decide)
  obtain ⟨hi, hhi⟩ := ofBits_real 0x42DC0000#32 (by decide)
  obtain ⟨lo, hlo⟩ := ofBits_real 0x41200000#32 (by decide)
  obtain ⟨d, hd⟩ := ofBits_real 0x3EE66666#32 (by decide)
  rw [ha, hhi, hlo, hd]
  obtain ⟨p, hp⟩ := clip_real hi lo (val_main_v25 (F := Ideal) x g be (ix2 r (0 : Fin 1)))
  rw [hp]
  exact affine_real a p lo d

/-- The margin's cosine at a row is a real. -/
theorem cm_real (r : Fin 256) :
    ∃ q : ℝ, val_main_v33 (F := Ideal) x g be (ix2 r (0 : Fin 1)) = (q : EReal) := by
  obtain ⟨q, hq⟩ := margin_real x g be r
  rw [val_main_v33_apply, Ideal.hostUnary_cos_def, hq]
  exact ⟨Real.cos q, rfl⟩

/-- The margin's sine at a row is a real. -/
theorem sn_real (r : Fin 256) :
    ∃ q : ℝ, val_main_v34 (F := Ideal) x g be (ix2 r (0 : Fin 1)) = (q : EReal) := by
  obtain ⟨q, hq⟩ := margin_real x g be r
  rw [val_main_v34_apply, Ideal.hostUnary_sin_def, hq]
  exact ⟨Real.sin q, rfl⟩

/-- The loss from per-row negative log-likelihoods that are the negated (real) log-probabilities of the targets. -/
theorem loss_of_nll (nll : Fin 256 → EReal)
    (hn : ∀ r, ∃ a : ℝ, val_main_v65 (F := Ideal) x tg w g be (ix2 r (0 : Fin 1)) = (a : EReal)
      ∧ nll r = ((-a : ℝ) : EReal)) :
    Ideal.div (0 + ∑ r : Fin 256, nll r) (Ideal.ofBits .f32 0x43800000#32) + val_main_v76 (F := Ideal) x g be ix0
      = val_main_v77 (F := Ideal) x tg w g be ix0 := by
  choose a ha using hn
  have e1 : (∑ r : Fin 256, nll r) = ∑ r : Fin 256, ((-(a r) : ℝ) : EReal) :=
    Finset.sum_congr rfl fun r _ => (ha r).2
  have e2 : (∑ r : Fin 256, val_main_v65 (F := Ideal) x tg w g be (ix2 r (0 : Fin 1)))
      = ∑ r : Fin 256, ((a r : ℝ) : EReal) :=
    Finset.sum_congr rfl fun r _ => (ha r).1
  rw [loss_apply, e1, e2, Cert.SoftmaxMath.mean_neg_ofBits]

end Closed

end Cert.RefIndex

end
-- ==== Proof.PreFacts.lean ====
import proofs.«418458_j50414326120960_1_alg».proof.Pre_finite_inputs
import proofs.«418458_j50414326120960_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

/-!
# The precondition, decoded

The precondition is a conjunction of seven "for all entries" statements, each a reduction by `and` of an
array of one-bit comparison words. Read at the ideal values (where a float is an extended real) it says:
every entry of the four float inputs is a real number (its absolute value is below `+∞`), every target
index lies in `[0, 100000)`, and every column of the weight matrix has a positive sum of squares.
-/

noncomputable section

namespace Cert.PreFacts

open Idealize.ShloMosaic Idealize.ShloMosaic.ValueIdx Cert.Pre_finite_inputs

/-- The rank-zero shape has one index. -/
instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max a (-a)` compares below `+∞` is a real number: at `⊥` and at `⊤` the
    absolute value is `⊤`. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

variable {x : FVec Ideal S256x512 .f32} {tgt : IVec S256 32} {w : FVec Ideal S512x100000 .f32}
  {gamma beta : FVec Ideal S512 .f32}

/-- The seven conjuncts, each read at every entry: a reduction by `and` over all axes that came out `1` met only `1`s. -/
theorem parts (h : Cert.Pre_finite_inputs.fn (F := Ideal) x tgt w gamma beta = (fun _ => 1#1)) :
    (∀ i : S256x512.Idx, Ideal.cmp .olt (max (x i) (-(x i))) (Ideal.ofBits .f32 0x7F800000#32) = 1#1)
    ∧ (∀ i : S512x100000.Idx, Ideal.cmp .olt (max (w i) (-(w i))) (Ideal.ofBits .f32 0x7F800000#32) = 1#1)
    ∧ (∀ i : S512.Idx, Ideal.cmp .olt (max (gamma i) (-(gamma i))) (Ideal.ofBits .f32 0x7F800000#32) = 1#1)
    ∧ (∀ i : S512.Idx, Ideal.cmp .olt (max (beta i) (-(beta i))) (Ideal.ofBits .f32 0x7F800000#32) = 1#1)
    ∧ (∀ i : S256.Idx, IntOp.cmpi .sge (tgt i) 0#32 = 1#1)
    ∧ (∀ i : S256.Idx, IntOp.cmpi .slt (tgt i) 100000#32 = 1#1)
    ∧ (∀ j : S100000.Idx, cmpf .ogt
        (Host.reduceAdd (mulf w w) (constant (F := Ideal) S_ .f32 0x00000000#32) Facts.reducesTo_S512x100000_S100000_d0 Facts.h_S_)
        (broadcastInDim S100000 ![] Facts.bcast_S_S100000 (constant (F := Ideal) S_ .f32 0x00000000#32)) j = 1#1) := by
  have h0 := congrFun h ix0
  dsimp only [Cert.Pre_finite_inputs.fn, Cert.Pre_finite_inputs.fn_part1] at h0
  simp only [andi, IntOp.andi_eq_one] at h0
  obtain ⟨⟨⟨⟨⟨⟨h1, h2⟩, h3⟩, h4⟩, h5⟩, h6⟩, h7⟩ := h0
  refine ⟨?_, ?_, ?_, ?_, ?_, ?_, ?_⟩
  · intro i; exact Host.reduce_andi_all _ _ _ _ _ h1 i
  · intro i; exact Host.reduce_andi_all _ _ _ _ _ h2 i
  · intro i; exact Host.reduce_andi_all _ _ _ _ _ h3 i
  · intro i; exact Host.reduce_andi_all _ _ _ _ _ h4 i
  · intro i; exact Host.reduce_andi_all _ _ _ _ _ h5 i
  · intro i; exact Host.reduce_andi_all _ _ _ _ _ h6 i
  · intro j; exact Host.reduce_andi_all _ _ _ _ _ h7 j

/-- The source index over column `c` with row coordinate `k` is `(k, c)`. -/
theorem lift_col (hr : S512x100000.Reduces [0] S100000) (c : Fin 100000) (k : Fin 512) :
    hr.lift (ix1 c) k = ix2 k c := by
  funext d
  match d with
  | ⟨0, _⟩ => exact Fin.ext rfl
  | ⟨1, _⟩ => exact Fin.ext rfl

section
variable (h : Cert.Pre_finite_inputs.fn (F := Ideal) x tgt w gamma beta = (fun _ => 1#1))
include h

/-- Every entry of `x` is a real number. -/
theorem x_real : ∀ i : S256x512.Idx, ∃ r : ℝ, x i = (r : EReal) :=
  fun i => real_of_abs_lt_inf _ ((parts h).1 i)

/-- Every entry of `w` is a real number. -/
theorem w_real : ∀ i : S512x100000.Idx, ∃ r : ℝ, w i = (r : EReal) :=
  fun i => real_of_abs_lt_inf _ ((parts h).2.1 i)

/-- Every entry of `gamma` is a real number. -/
theorem gamma_real : ∀ i : S512.Idx, ∃ r : ℝ, gamma i = (r : EReal) :=
  fun i => real_of_abs_lt_inf _ ((parts h).2.2.1 i)

/-- Every entry of `beta` is a real number. -/
theorem beta_real : ∀ i : S512.Idx, ∃ r : ℝ, beta i = (r : EReal) :=
  fun i => real_of_abs_lt_inf _ ((parts h).2.2.2.1 i)

/-- Every target index, read signed, is nonnegative. -/
theorem tgt_nonneg : ∀ i : S256.Idx, 0 ≤ (tgt i).toInt := fun i => by
  have e := IntOp.cmpi_sge.1 ((parts h).2.2.2.2.1 i)
  rwa [show (0#32 : BitVec 32).toInt = 0 from by decide] at e

/-- Every target index, read signed, is below the number of classes. -/
theorem tgt_lt : ∀ i : S256.Idx, (tgt i).toInt < 100000 := fun i => by
  have e := IntOp.cmpi_slt.1 ((parts h).2.2.2.2.2.1 i)
  rw [show (100000#32 : BitVec 32).toInt = ((100000 : ℕ) : ℤ) from StableHlo.Predicate.toInt_ofNat_small 100000 (by norm_num)] at e
  exact_mod_cast e

/-- Every column of `w` has a positive sum of squares. -/
theorem colsq_pos : ∀ c : Fin 100000, (0 : EReal) < ∑ k : Fin 512, w (ix2 k c) * w (ix2 k c) := fun c => by
  have e := (parts h).2.2.2.2.2.2 (ix1 c)
  have hr : S512x100000.Reduces [0] S100000 := by decide
  simp only [cmpf_apply, Ideal.cmpf_def, Host.reduceAdd, Ideal.hostReduceAdd_def, broadcastInDim, constant, Ideal.ofBits_def,
    Ideal.ofBits_zero_f32] at e
  rw [Ideal.hostReduceAdd_single _ hr, zero_add] at e
  simp only [Ideal.cmp, StableHlo.Predicate.ofBool_eq_one_iff, decide_eq_true_eq] at e
  refine lt_of_lt_of_eq e ?_
  exact Finset.sum_congr rfl fun k _ => by rw [lift_col hr c k]; rfl

end

end Cert.PreFacts

end
-- ==== Proof.LogitBridge.lean ====
import proofs.«418458_j50414326120960_1_alg».proof.Proof.SoftmaxMath
import proofs.«418458_j50414326120960_1_alg».proof.Proof.TileLogits
import proofs.«418458_j50414326120960_1_alg».proof.Proof.RefIndex

/-!
  One logit, two ways. The kernel divides the inner product of an activation row and a weight
  column by the column's norm; the reference normalises the column first. With the column real and
  of positive norm the two cosines are the same extended real (whatever the activations are), the
  clip makes it a real number of [-1, 1], the guard under the square root is then idle, and the
  one-hot blend of the margin value and the plain cosine is the kernel's choice between them.
-/

noncomputable section

open scoped BigOperators

namespace Cert.LogitBridge

open Cert.KernelIdeal Cert.KernelIdeal.Gen Idealize.ShloMosaic Idealize.ShloMosaic.ValueIdx Cert.SoftmaxMath

/-- The f32 pattern 0x3F800000 is one. -/
theorem ofBits_one_f32 : Ideal.ofBits .f32 0x3F800000#32 = 1 := by
  simp [Ideal.ofBits, Ideal.ieee]
  rw [← EReal.coe_mul, ← coe_one']
  congr 1
  norm_num

/-- The kernel's cosine and the reference's are one value: dividing the inner product by the
    positive real norm is multiplying every term by its reciprocal. -/
theorem cos_bridge (X : Vec Ideal S256x512 .f32) (b : Fin 256) (col : Fin 512 → EReal)
    (hreal : ∀ k, ∃ r : ℝ, col k = (r : EReal)) (hpos : (0 : EReal) < ∑ k : Fin 512, col k * col k) :
    Cert.TileLogits.cosK X col b = Cert.RefIndex.cosR (fun k => X (ix2 b k)) col := by
  choose wc hwc using hreal
  obtain rfl : col = fun k => ((wc k : ℝ) : EReal) := funext hwc
  have hpos' : 0 < ∑ k, wc k * wc k := by
    rw [colNorm_eq] at hpos
    exact EReal.coe_pos.1 hpos
  unfold Cert.TileLogits.cosK Cert.RefIndex.cosR
  rw [ofBits_one_f32, Cert.TileLogits.ofBits_neg_one_f32, zero_add]
  exact congrArg (fun s => min 1 (max (-1) s)) (dot_div_noZero (fun k => X (ix2 b k)) wc hpos')

/-- The value both programs scale by 64: on the target column a positive cosine gives way to the
    cosine of the angle plus the margin, elsewhere the plain cosine stays. -/
def pick (c cm sn : EReal) (hit : Bool) : EReal :=
  if hit then (if 0 < c then c * cm - Ideal.sqrt (1 - c * c) * sn else c) else c

/-- The reference's one-hot blend is the choice: the weights are 1 and 1 - 1 on the target column,
    0 and 1 - 0 off it. -/
theorem logitR_eq (c cm sn : EReal) (hit : Bool) :
    Cert.RefIndex.logitR c cm sn hit = 64 * pick c cm sn hit := by
  unfold Cert.RefIndex.logitR pick
  rw [Cert.TileLogits.ofBits_64_f32, ofBits_one_f32]
  have hsel : Scalar.select (Ideal.cmp .ogt c 0) (c * cm - Ideal.sqrt (1 - c * c) * sn) c
      = if 0 < c then c * cm - Ideal.sqrt (1 - c * c) * sn else c :=
    Cert.TileLogits.select_ofBool (0 < c) _ _
  cases hit
  · rw [if_neg Bool.false_ne_true, if_neg Bool.false_ne_true, zero_mul, zero_add, sub_zero, one_mul]
  · rw [if_pos rfl, if_pos rfl, one_mul, one_sub_one, zero_mul, add_zero, hsel]

/-- The kernel's form is the same choice once the cosine is a real of [-1, 1]: the guard under the
    square root is idle. -/
theorem logitK_eq (c cm sn : EReal) (hit : Bool) (hc : ∃ r : ℝ, -1 ≤ r ∧ r ≤ 1 ∧ c = (r : EReal)) :
    Cert.TileLogits.logitK c cm sn hit = 64 * pick c cm sn hit := by
  obtain ⟨r, h1, h2, rfl⟩ := hc
  unfold Cert.TileLogits.logitK pick
  rw [max_eq_left (one_sub_sq_nonneg h1 h2)]

/-- The chosen value is a real number when the cosine is a real of [-1, 1] and the margin's cosine
    and sine are real. -/
theorem pick_real (r : ℝ) (h1 : -1 ≤ r) (h2 : r ≤ 1) (q1 q2 : ℝ) (hit : Bool) :
    ∃ p : ℝ, pick (r : EReal) (q1 : EReal) (q2 : EReal) hit = (p : EReal) := by
  unfold pick
  cases hit
  · exact ⟨r, by rw [if_neg Bool.false_ne_true]⟩
  · by_cases h : (0 : EReal) < (r : EReal)
    · refine ⟨r * q1 - Real.sqrt (1 - r * r) * q2, ?_⟩
      rw [if_pos rfl, if_pos h, one_sub_sq, Ideal.sqrt_coe, if_neg (not_lt.2 (by nlinarith)),
        ← EReal.coe_mul, ← EReal.coe_mul, ← EReal.coe_sub]
    · exact ⟨r, by rw [if_pos rfl, if_neg h]⟩

/-- THE BRIDGE: the kernel's logit and the reference's are the same extended real. -/
theorem logit_bridge (X : Vec Ideal S256x512 .f32) (b : Fin 256) (col : Fin 512 → EReal)
    (hreal : ∀ k, ∃ r : ℝ, col k = (r : EReal)) (hpos : (0 : EReal) < ∑ k : Fin 512, col k * col k)
    (cm sn : EReal) (hcm : ∃ q : ℝ, cm = (q : EReal)) (hsn : ∃ q : ℝ, sn = (q : EReal)) (hit : Bool) :
    Cert.TileLogits.logitK (Cert.TileLogits.cosK X col b) cm sn hit
      = Cert.RefIndex.logitR (Cert.RefIndex.cosR (fun k => X (ix2 b k)) col) cm sn hit := by
  rw [← cos_bridge X b col hreal hpos, logitR_eq]
  exact logitK_eq _ cm sn hit (clip_real _)

/-- The logit is a real number. -/
theorem logit_real (X : Vec Ideal S256x512 .f32) (b : Fin 256) (col : Fin 512 → EReal)
    (hreal : ∀ k, ∃ r : ℝ, col k = (r : EReal)) (hpos : (0 : EReal) < ∑ k : Fin 512, col k * col k)
    (cm sn : EReal) (hcm : ∃ q : ℝ, cm = (q : EReal)) (hsn : ∃ q : ℝ, sn = (q : EReal)) (hit : Bool) :
    ∃ q : ℝ, Cert.RefIndex.logitR (Cert.RefIndex.cosR (fun k => X (ix2 b k)) col) cm sn hit = (q : EReal) := by
  rw [← cos_bridge X b col hreal hpos, logitR_eq]
  obtain ⟨q1, rfl⟩ := hcm
  obtain ⟨q2, rfl⟩ := hsn
  obtain ⟨r, h1, h2, hr⟩ := clip_real (Ideal.div (∑ k : Fin 512, X (ix2 b k) * col k)
    (Ideal.sqrt (∑ k : Fin 512, col k * col k)))
  unfold Cert.TileLogits.cosK
  rw [hr]
  obtain ⟨p, hp⟩ := pick_real r h1 h2 q1 q2 hit
  refine ⟨64 * p, ?_⟩
  rw [hp, EReal.coe_mul]
  rfl

end Cert.LogitBridge
-- ==== Proof.OutEntry.lean ====
/-
  One entry of the logits, kernel against reference.

  On a column inside the array, the logit a grid point stores is the reference's output entry: the kernel
  divides the dot product by the column's norm where the reference normalises the column first (equal, the
  norm being a positive real under the precondition), guards its square root with a maximum that never
  binds on a clipped cosine, and selects the margin branch where the reference mixes with a 0/1 weight.
-/
import proofs.«418458_j50414326120960_1_alg».proof.Proof.TileLogits
import proofs.«418458_j50414326120960_1_alg».proof.Proof.RefIndex
import proofs.«418458_j50414326120960_1_alg».proof.Proof.RefIndex.Reals
import proofs.«418458_j50414326120960_1_alg».proof.Proof.LogitBridge
import proofs.«418458_j50414326120960_1_alg».proof.Proof.PreFacts

noncomputable section

namespace Cert.OutEntry

open Idealize.ShloMosaic Idealize.ShloMosaic.ValueIdx
open Cert.ReferenceIdeal.Read

variable (x : FVec Ideal Cert.Pre_finite_inputs.S256x512 .f32) (tg : IVec Cert.Pre_finite_inputs.S256 32)
  (w : FVec Ideal Cert.Pre_finite_inputs.S512x100000 .f32) (g be : FVec Ideal Cert.Pre_finite_inputs.S512 .f32)

/-- The logit of row b, column j of the tile at grid point i, from a staged weight tile W that holds the
    array's column i*2048 + j in its column j, is the reference's output at (b, i*2048 + j). -/
theorem entry (h : Cert.Pre_finite_inputs.fn (F := Ideal) x tg w g be = (fun _ => 1#1))
    (i : Cert.KernelIdeal.grid0.Coords) (W : Vec Ideal Cert.KernelIdeal.S512x2048 .f32) (b : Fin 256) (j : Fin 2048)
    (hj : (i 0).val * 2048 + j.val < 100000)
    (hW : ∀ k : Fin 512, W (ix2 k j) = w (ix2 k ⟨(i 0).val * 2048 + j.val, hj⟩)) :
    Cert.TileLogits.L (val_main_v40 (F := Ideal) x g be) (val_main_v33 (F := Ideal) x g be) (val_main_v34 (F := Ideal) x g be) tg i W (ix2 b j)
      = val_main_v62 (F := Ideal) x tg w g be (ix2 b ⟨(i 0).val * 2048 + j.val, hj⟩) := by
  rw [Cert.TileLogits.logits_val _ _ _ _ _ _ b j hj, Cert.RefIndex.out_apply]
  have hcol : (fun k : Fin 512 => W (ix2 k j)) = fun k => w (ix2 k ⟨(i 0).val * 2048 + j.val, hj⟩) := funext hW
  rw [hcol]
  rw [Cert.LogitBridge.logit_bridge _ b _ (fun k => Cert.PreFacts.w_real h _) (Cert.PreFacts.colsq_pos h _)
    _ _ (Cert.RefIndex.cm_real x g be b) (Cert.RefIndex.sn_real x g be b)]
  congr 1
  exact decide_eq_decide.mpr eq_comm

end Cert.OutEntry

end
-- ==== Proof.RowValue.lean ====
import proofs.«418458_j50414326120960_1_alg».proof.Proof.SoftmaxMath
import proofs.«418458_j50414326120960_1_alg».proof.Proof.ScratchRead

/-!
  One row of the tiled softmax cross-entropy against the same row of the textbook log-softmax.
  The three running columns (maximum, rescaled sum of exponentials, target logit) follow their
  recursions over 49 tiles whose logits are the reference's real outputs on the 100000 columns and
  -∞ on the padding; the reference's row maximum is any bound of the row that is attained. Then the
  log-probability of the target column is a real number a and the kernel's row loss is -a.
-/

noncomputable section

open scoped BigOperators

namespace Cert.RowValue

open Cert.KernelIdeal Cert.KernelIdeal.Gen Idealize.ShloMosaic Idealize.ShloMosaic.ValueIdx Cert.SoftmaxMath

theorem row_nll (b : Fin 256)
    (OUTr : Fin 100000 → EReal) (hreal : ∀ c, ∃ q : ℝ, OUTr c = (q : EReal))
    (Lg : ℕ → FVec Ideal S256x2048 .f32)
    (hval : ∀ t < 49, ∀ (j : Fin 2048) (hj : t * 2048 + j.val < 100000),
      Lg t (ix2 b j) = OUTr ⟨t * 2048 + j.val, hj⟩)
    (hpad : ∀ t < 49, ∀ j : Fin 2048, ¬ t * 2048 + j.val < 100000 → Lg t (ix2 b j) = ⊥)
    (hitv : ℕ → IVec S256x2048 1) (τ : ℕ) (hτ : τ < 100000)
    (hhit : ∀ t < 49, ∀ j : Fin 2048, (hitv t (ix2 b j) = 1#1) ↔ t * 2048 + j.val = τ)
    (mxv sxv txv : ℕ → FVec Ideal S256x1 .f32)
    (m0 : mxv 0 (ix2 b 0) = ⊥) (s0 : sxv 0 (ix2 b 0) = 0) (t0 : txv 0 (ix2 b 0) = 0)
    (hm : ∀ t < 49, mxv (t + 1) (ix2 b 0) = max (mxv t (ix2 b 0)) (Cert.ScratchRead.rowMax (Lg t) b))
    (hs : ∀ t < 49, sxv (t + 1) (ix2 b 0)
      = sxv t (ix2 b 0) * Ideal.exp (mxv t (ix2 b 0) - mxv (t + 1) (ix2 b 0))
        + ∑ j : Fin 2048, Ideal.exp (Lg t (ix2 b j) - mxv (t + 1) (ix2 b 0)))
    (ht : ∀ t < 49, txv (t + 1) (ix2 b 0)
      = txv t (ix2 b 0) + ∑ j : Fin 2048, (if hitv t (ix2 b j) = 1#1 then Lg t (ix2 b j) else 0))
    (Mref : EReal) (hub : ∀ c, OUTr c ≤ Mref) (hat : (∃ c, Mref = OUTr c) ∨ Mref = ⊥) :
    ∃ a : ℝ,
      (OUTr ⟨τ, hτ⟩ - Mref) - Ideal.log (0 + ∑ c : Fin 100000, Ideal.exp (OUTr c - Mref)) = (a : EReal) ∧
      (mxv 49 (ix2 b 0) + Ideal.log (sxv 49 (ix2 b 0))) - txv 49 (ix2 b 0) = ((-a : ℝ) : EReal) := by
  -- the row's real logits, by column number
  choose q hq using hreal
  obtain ⟨ℓ, hℓ⟩ : ∃ ℓ : ℕ → ℝ, ∀ c : Fin 100000, OUTr c = ((ℓ c.val : ℝ) : EReal) :=
    ⟨fun c => if h : c < 100000 then q ⟨c, h⟩ else 0, fun c => by simp only [hq c, dif_pos c.isLt]⟩
  -- a tile's logits are the padded row's
  have hLg : ∀ t < 49, ∀ j : Fin 2048, Lg t (ix2 b j) = L ℓ t j := by
    intro t h49 j
    unfold L
    split_ifs with h
    · rw [hval t h49 j h]
      exact hℓ ⟨t * 2048 + j.val, h⟩
    · exact hpad t h49 j h
  have hub' : ∀ t < 49, ∀ j, L ℓ t j ≤ Cert.ScratchRead.rowMax (Lg t) b := by
    intro t h49 j
    rw [← hLg t h49 j]
    exact Cert.ScratchRead.rowMax_ge (Lg t) b j
  have hat' : ∀ t < 49, (∃ j, Cert.ScratchRead.rowMax (Lg t) b = L ℓ t j)
      ∨ Cert.ScratchRead.rowMax (Lg t) b = ⊥ := by
    intro t h49
    rcases Cert.ScratchRead.rowMax_attained (Lg t) b with ⟨j, hj⟩ | hb
    · exact Or.inl ⟨j, hj.trans (hLg t h49 j)⟩
    · exact Or.inr hb
  have hs' : ∀ t < 49, sxv (t + 1) (ix2 b 0)
      = sxv t (ix2 b 0) * Ideal.exp (mxv t (ix2 b 0) - mxv (t + 1) (ix2 b 0))
        + (0 + ∑ j : Fin 2048, Ideal.exp (L ℓ t j - mxv (t + 1) (ix2 b 0))) := by
    intro t h49
    rw [hs t h49, zero_add]
    exact congrArg _ (Finset.sum_congr rfl fun j _ => by rw [hLg t h49 j])
  have ht' : ∀ t < 49, txv (t + 1) (ix2 b 0)
      = txv t (ix2 b 0) + (0 + ∑ j : Fin 2048, if t * 2048 + j.val = τ then L ℓ t j else 0) := by
    intro t h49
    rw [ht t h49, zero_add]
    exact congrArg _ (Finset.sum_congr rfl fun j _ => if_congr (hhit t h49 j) (hLg t h49 j) rfl)
  -- the reference's maximum bounds the real logits and is one of them
  have hrub : ∀ c, c < 100000 → ((ℓ c : ℝ) : EReal) ≤ Mref := by
    intro c hc
    have := hub ⟨c, hc⟩
    rwa [hℓ ⟨c, hc⟩] at this
  have hrat : (∃ c, c < 100000 ∧ Mref = ((ℓ c : ℝ) : EReal)) ∨ Mref = ⊥ := by
    rcases hat with ⟨c, hc⟩ | hb
    · exact Or.inl ⟨c.val, c.isLt, hc.trans (hℓ c)⟩
    · exact Or.inr hb
  have hM : Mref = ((rowMax ℓ : ℝ) : EReal) := rowMax_unique ℓ Mref hrub hrat
  -- the target's log-probability, a real
  have hfirst : ((ℓ τ : ℝ) : EReal) - Mref
      - Ideal.log (0 + ∑ c : Fin 100000, Ideal.exp (((ℓ c.val : ℝ) : EReal) - Mref))
      = ((ℓ τ - rowMax ℓ - Real.log (rowSum ℓ) : ℝ) : EReal) := by
    rw [hM, ref_sum, zero_add, Ideal.log_coe, if_neg (not_le.2 (rowSum_pos ℓ)), ← EReal.coe_sub,
      ← EReal.coe_sub]
  have htx : txv 49 (ix2 b 0) = ((ℓ τ : ℝ) : EReal) :=
    target_final ℓ (fun t => txv t (ix2 b 0)) τ hτ t0 ht'
  have hn : mxv 49 (ix2 b 0) + Ideal.log (sxv 49 (ix2 b 0)) - ((ℓ τ : ℝ) : EReal)
      = -((((ℓ τ : ℝ) : EReal) - Mref)
          - Ideal.log (0 + ∑ c : Fin 100000, Ideal.exp (((ℓ c.val : ℝ) : EReal) - Mref))) :=
    nll_eq_of_max ℓ (fun t => mxv t (ix2 b 0)) (fun t => sxv t (ix2 b 0))
      (fun t => Cert.ScratchRead.rowMax (Lg t) b) m0 s0 hm hub' hat' hs' Mref hrub hrat τ
  refine ⟨ℓ τ - rowMax ℓ - Real.log (rowSum ℓ), ?_, ?_⟩
  · have e1 : OUTr ⟨τ, hτ⟩ = ((ℓ τ : ℝ) : EReal) := hℓ ⟨τ, hτ⟩
    have e2 : (∑ c : Fin 100000, Ideal.exp (OUTr c - Mref))
        = ∑ c : Fin 100000, Ideal.exp (((ℓ c.val : ℝ) : EReal) - Mref) :=
      Finset.sum_congr rfl fun c _ => by rw [hℓ c]
    rw [e1, e2]
    exact hfirst
  · rw [htx, hn, hfirst, EReal.coe_neg]

end Cert.RowValue
-- ==== Proof.NllRow.lean ====
/-
  One row of the kernel's loss against the same row of the reference's: over the canonical weight tiles, the three
  running columns of row b follow the tiled softmax recursions on the reference's own logits, so the stored row loss
  is minus the reference's log-probability of the row's target, a real number.
-/
import proofs.«418458_j50414326120960_1_alg».proof.Proof.Track
import proofs.«418458_j50414326120960_1_alg».proof.Proof.TileLogits
import proofs.«418458_j50414326120960_1_alg».proof.Proof.ScratchRead
import proofs.«418458_j50414326120960_1_alg».proof.Proof.RefIndex
import proofs.«418458_j50414326120960_1_alg».proof.Proof.RefIndex.Reals
import proofs.«418458_j50414326120960_1_alg».proof.Proof.PreFacts
import proofs.«418458_j50414326120960_1_alg».proof.Proof.OutEntry
import proofs.«418458_j50414326120960_1_alg».proof.Proof.RowValue

noncomputable section

open scoped BigOperators

namespace Cert.NllRow

open Idealize.ShloMosaic Idealize.ShloMosaic.ValueIdx Cert.ReferenceIdeal.Read
open Cert.KernelIdeal (grid0)
open Cert.KernelIdeal.Gen (k0_pay1 k0_pay2 k0_pay3 k0_pay7 k0_pay8 k0_pay9 k0_pay11 k0_pay12 k0_pay13 k0_pay14 k0_pay15)
open Cert.TileLogits (IOTA)

/-- The grid has 49 points. -/
theorem N49 : grid0.N = 49 := by decide

/-- A small number's word is a given word exactly when the number is the word's value. -/
theorem ofNat_eq_iff (n : ℕ) (hn : n < 2 ^ 32) (v : BitVec 32) : BitVec.ofNat 32 n = v ↔ n = v.toNat := by
  constructor
  · intro e
    rw [← e, BitVec.toNat_ofNat]
    exact (Nat.mod_eq_of_lt hn).symm
  · intro e
    apply BitVec.eq_of_toNat_eq
    rw [BitVec.toNat_ofNat, e]
    exact Nat.mod_eq_of_lt v.isLt

/-! ## The tiles' logits and one-hot masks, by tile number -/

section Generic
variable (X : Vec Ideal Cert.KernelIdeal.S256x512 .f32) (CMv SMv : Vec Ideal Cert.KernelIdeal.S256x1 .f32)
  (TG : Vec Ideal Cert.KernelIdeal.S256 .i32) (Wt : Fin grid0.N → Vec Ideal Cert.KernelIdeal.S512x2048 .f32)

/-- The block of logits of tile `t` (any value past the grid). -/
def Lg (t : ℕ) : FVec Ideal Cert.KernelIdeal.S256x2048 .f32 :=
  if ht : t < grid0.N then Cert.Track.outB X CMv SMv TG Wt ⟨t, ht⟩ else fun _ => ⊥

/-- The one-hot mask of tile `t` (any value past the grid). -/
def hitv (t : ℕ) : IVec Cert.KernelIdeal.S256x2048 1 :=
  if ht : t < grid0.N then k0_pay11 (F := Ideal) IOTA (k0_pay9 (grid0.coords ⟨t, ht⟩)) TG else fun _ => 0#1

theorem lg_eq (t : ℕ) (ht : t < grid0.N) : Lg X CMv SMv TG Wt t = Cert.Track.outB X CMv SMv TG Wt ⟨t, ht⟩ := dif_pos ht

theorem hitv_eq (t : ℕ) (ht : t < grid0.N) :
    hitv TG t = k0_pay11 (F := Ideal) IOTA (k0_pay9 (grid0.coords ⟨t, ht⟩)) TG := dif_pos ht

variable (b : Fin 256)

/-- Past the array's end a tile's logits are the fill value. -/
theorem lg_pad (t : ℕ) (ht : t < grid0.N) (j : Fin 2048) (hj : ¬ t * 2048 + j.val < 100000) :
    Lg X CMv SMv TG Wt t (ix2 b j) = ⊥ := by
  rw [lg_eq X CMv SMv TG Wt t ht]
  exact Cert.TileLogits.logits_pad X (Wt ⟨t, ht⟩) CMv SMv TG (grid0.coords ⟨t, ht⟩) b j
    (by rw [Cert.Track.coords_val ⟨t, ht⟩]; exact hj)

/-- The mask of tile `t` is set at lane `j` exactly when the lane's column number is the row's target. -/
theorem hit_iff (t : ℕ) (ht : t < grid0.N) (j : Fin 2048) :
    (hitv TG t (ix2 b j) = 1#1) ↔ t * 2048 + j.val = (TG (ix1 b)).toNat := by
  rw [hitv_eq TG t ht]
  refine (Cert.TileLogits.hit_eq TG (grid0.coords ⟨t, ht⟩) b j).trans ?_
  rw [Cert.Track.coords_val ⟨t, ht⟩]
  have h49 : t < 49 := N49 ▸ ht
  have hj := j.isLt
  exact ofNat_eq_iff _ (by show t * 2048 + j.val < 2 ^ 32; omega) _

/-! ## The three running columns at row `b` -/

theorem mx_zero : Cert.Track.mx X CMv SMv TG Wt 0 (ix2 b 0) = ⊥ := by
  rw [Cert.Track.mx]; exact Cert.ScratchRead.reset_max b

theorem sx_zero : Cert.Track.sx X CMv SMv TG Wt 0 (ix2 b 0) = 0 := by
  rw [Cert.Track.sx]; exact Cert.ScratchRead.reset_sum b

theorem tx_zero : Cert.Track.tx X CMv SMv TG Wt 0 (ix2 b 0) = 0 := by
  rw [Cert.Track.tx]; exact Cert.ScratchRead.reset_tgt b

/-- The running maximum after one more tile, as the update forms it. -/
theorem mx_new (t : ℕ) (ht : t < grid0.N) :
    Cert.Track.mx X CMv SMv TG Wt (t + 1) (ix2 b 0)
      = k0_pay13 (F := Ideal) (k0_pay7 (F := Ideal) (Wt ⟨t, ht⟩) X) (k0_pay8 (F := Ideal) (Wt ⟨t, ht⟩) X CMv SMv) IOTA
          (k0_pay9 (grid0.coords ⟨t, ht⟩)) TG (Cert.Track.mx X CMv SMv TG Wt t) (ix2 b 0) := by
  refine (congrFun (Cert.Track.mx_succ X CMv SMv TG Wt ⟨t, ht⟩) (ix2 b 0)).trans ?_
  exact (Cert.ScratchRead.max_step _ _ _ _ _ _ b).trans (Cert.ScratchRead.max_new _ _ _ _ _ _ b).symm

theorem mx_rec (t : ℕ) (ht : t < grid0.N) :
    Cert.Track.mx X CMv SMv TG Wt (t + 1) (ix2 b 0)
      = max (Cert.Track.mx X CMv SMv TG Wt t (ix2 b 0)) (Cert.ScratchRead.rowMax (Lg X CMv SMv TG Wt t) b) := by
  rw [mx_new X CMv SMv TG Wt b t ht, lg_eq X CMv SMv TG Wt t ht]
  exact Cert.ScratchRead.max_new _ _ _ _ _ _ b

theorem sx_rec (t : ℕ) (ht : t < grid0.N) :
    Cert.Track.sx X CMv SMv TG Wt (t + 1) (ix2 b 0)
      = Cert.Track.sx X CMv SMv TG Wt t (ix2 b 0)
          * Ideal.exp (Cert.Track.mx X CMv SMv TG Wt t (ix2 b 0) - Cert.Track.mx X CMv SMv TG Wt (t + 1) (ix2 b 0))
        + ∑ j : Fin 2048, Ideal.exp (Lg X CMv SMv TG Wt t (ix2 b j) - Cert.Track.mx X CMv SMv TG Wt (t + 1) (ix2 b 0)) := by
  rw [mx_new X CMv SMv TG Wt b t ht, lg_eq X CMv SMv TG Wt t ht]
  refine (congrFun (Cert.Track.sx_succ X CMv SMv TG Wt ⟨t, ht⟩) (ix2 b 0)).trans ?_
  exact Cert.ScratchRead.sum_step _ _ _ _ _ _ _ b

theorem tx_rec (t : ℕ) (ht : t < grid0.N) :
    Cert.Track.tx X CMv SMv TG Wt (t + 1) (ix2 b 0)
      = Cert.Track.tx X CMv SMv TG Wt t (ix2 b 0)
        + ∑ j : Fin 2048, (if hitv TG t (ix2 b j) = 1#1 then Lg X CMv SMv TG Wt t (ix2 b j) else 0) := by
  rw [lg_eq X CMv SMv TG Wt t ht, hitv_eq TG t ht]
  refine (congrFun (Cert.Track.tx_succ X CMv SMv TG Wt ⟨t, ht⟩) (ix2 b 0)).trans ?_
  exact Cert.ScratchRead.tgt_step _ _ _ _ _ _ b

end Generic

/-! ## Against the reference -/

section Closed
variable (x : FVec Ideal Cert.Pre_finite_inputs.S256x512 .f32) (tg : IVec Cert.Pre_finite_inputs.S256 32)
  (w : FVec Ideal Cert.Pre_finite_inputs.S512x100000 .f32) (g be : FVec Ideal Cert.Pre_finite_inputs.S512 .f32)
  (Wt : Fin grid0.N → Vec Ideal Cert.KernelIdeal.S512x2048 .f32)

/-- The logit point `t` stores at `(b, j)`, over the canonical tiles, is the reference's output at
    `(b, t · 2048 + j)`. -/
theorem out_entry (h : Cert.Pre_finite_inputs.fn (F := Ideal) x tg w g be = (fun _ => 1#1))
    (hWt : ∀ (t : Fin grid0.N) (k : Fin 512) (j : Fin 2048) (hj : t.val * 2048 + j.val < 100000),
      Wt t (ix2 k j) = w (ix2 k ⟨t.val * 2048 + j.val, hj⟩))
    (t : Fin grid0.N) (b : Fin 256) (j : Fin 2048) (hj : t.val * 2048 + j.val < 100000) :
    Cert.Track.outB (val_main_v40 (F := Ideal) x g be) (val_main_v33 (F := Ideal) x g be) (val_main_v34 (F := Ideal) x g be) tg Wt t (ix2 b j)
      = val_main_v62 (F := Ideal) x tg w g be (ix2 b ⟨t.val * 2048 + j.val, hj⟩) := by
  have hc : (grid0.coords t 0).val = t.val := Cert.Track.coords_val t
  have hj' : (grid0.coords t 0).val * 2048 + j.val < 100000 := by rw [hc]; exact hj
  have hidx : (⟨(grid0.coords t 0).val * 2048 + j.val, hj'⟩ : Fin 100000) = ⟨t.val * 2048 + j.val, hj⟩ :=
    Fin.ext (by show (grid0.coords t 0).val * 2048 + j.val = t.val * 2048 + j.val; rw [hc])
  have e := Cert.OutEntry.entry x tg w g be h (grid0.coords t) (Wt t) b j hj'
    (fun k => (hWt t k j hj).trans (by rw [hidx]))
  exact e.trans (by rw [hidx])

/-- Every entry of the reference's logits is a real number. -/
theorem out_real (h : Cert.Pre_finite_inputs.fn (F := Ideal) x tg w g be = (fun _ => 1#1)) (b : Fin 256) (c : Fin 100000) :
    ∃ q : ℝ, val_main_v62 (F := Ideal) x tg w g be (ix2 b c) = (q : EReal) := by
  rw [Cert.RefIndex.out_apply]
  exact Cert.LogitBridge.logit_real (val_main_v40 (F := Ideal) x g be) b (fun k => w (ix2 k c))
    (fun k => Cert.PreFacts.w_real h _) (Cert.PreFacts.colsq_pos h c) _ _
    (Cert.RefIndex.cm_real x g be b) (Cert.RefIndex.sn_real x g be b) _

/-- ROW `b`: the reference's log-probability of the row's target is a real number `a`, and the row loss the kernel
    stores, over the canonical tiles, is `-a`. -/
theorem nll_row (h : Cert.Pre_finite_inputs.fn (F := Ideal) x tg w g be = (fun _ => 1#1))
    (hWt : ∀ (t : Fin grid0.N) (k : Fin 512) (j : Fin 2048) (hj : t.val * 2048 + j.val < 100000),
      Wt t (ix2 k j) = w (ix2 k ⟨t.val * 2048 + j.val, hj⟩))
    (b : Fin 256) :
    ∃ a : ℝ, val_main_v65 (F := Ideal) x tg w g be (ix2 b 0) = (a : EReal)
      ∧ Cert.Track.nll (val_main_v40 (F := Ideal) x g be) (val_main_v33 (F := Ideal) x g be) (val_main_v34 (F := Ideal) x g be) tg Wt (ix2 b 0)
          = ((-a : ℝ) : EReal) := by
  have h0 : 0 ≤ (tg (ix1 b)).toInt := Cert.PreFacts.tgt_nonneg h (ix1 b)
  have h1 : (tg (ix1 b)).toInt < 100000 := Cert.PreFacts.tgt_lt h (ix1 b)
  have lt49 : ∀ t, t < 49 → t < grid0.N := fun t ht => N49 ▸ ht
  obtain ⟨a, ha1, ha2⟩ := Cert.RowValue.row_nll b
    (fun c => val_main_v62 (F := Ideal) x tg w g be (ix2 b c)) (fun c => out_real x tg w g be h b c)
    (Lg (val_main_v40 (F := Ideal) x g be) (val_main_v33 (F := Ideal) x g be) (val_main_v34 (F := Ideal) x g be) tg Wt)
    (fun t ht j hj => by
      rw [lg_eq _ _ _ _ _ t (lt49 t ht)]
      exact out_entry x tg w g be Wt h hWt ⟨t, lt49 t ht⟩ b j hj)
    (fun t ht j hj => lg_pad _ _ _ _ _ b t (lt49 t ht) j hj)
    (hitv tg) (tg (ix1 b)).toNat (Cert.RefIndex.toNat_lt_of_range _ h0 h1)
    (fun t ht j => hit_iff tg b t (lt49 t ht) j)
    (Cert.Track.mx (val_main_v40 (F := Ideal) x g be) (val_main_v33 (F := Ideal) x g be) (val_main_v34 (F := Ideal) x g be) tg Wt)
    (Cert.Track.sx (val_main_v40 (F := Ideal) x g be) (val_main_v33 (F := Ideal) x g be) (val_main_v34 (F := Ideal) x g be) tg Wt)
    (Cert.Track.tx (val_main_v40 (F := Ideal) x g be) (val_main_v33 (F := Ideal) x g be) (val_main_v34 (F := Ideal) x g be) tg Wt)
    (mx_zero _ _ _ _ _ b) (sx_zero _ _ _ _ _ b) (tx_zero _ _ _ _ _ b)
    (fun t ht => mx_rec _ _ _ _ _ b t (lt49 t ht))
    (fun t ht => sx_rec _ _ _ _ _ b t (lt49 t ht))
    (fun t ht => tx_rec _ _ _ _ _ b t (lt49 t ht))
    (Cert.RefIndex.rowMax x tg w g be b) (fun c => Cert.RefIndex.le_rowMax x tg w g be b c)
    (Cert.RefIndex.rowMax_attained x tg w g be b)
  refine ⟨a, ?_, ha2⟩
  rw [Cert.RefIndex.logp_apply x tg w g be b h0 h1]
  exact ha1

end Closed

end Cert.NllRow
-- ==== Proof.HostSide.lean ====
/- The host side of the idealized kernel program before its region: the lines that prepare the region's small inputs
   (the normalised activations, the margin's cosine and sine, the clipped norms) are, operation by operation, the
   reference's first stages on the same arguments; and the four windows fetched once hold their whole arrays. -/
import proofs.«418458_j50414326120960_1_alg».proof.Proof.Gen.KernelIdeal.Frame
import proofs.«418458_j50414326120960_1_alg».proof.Proof.RefRead
import Idealize.ShloMosaic.Lib.StableHlo.Run

noncomputable section

namespace Cert.HostSide

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F] [Named F]
variable (m : (ℓ : Loc nD τ sig) → Buf (Elt F) ℓ)

/-- The three argument arrays the host lines before the region read. -/
abbrev ax (c : Dev nD) := m ((c : Thread nD τ).loc main_arg0)
abbrev ag (c : Dev nD) := m ((c : Thread nD τ).loc main_arg3)
abbrev ab (c : Dev nD) := m ((c : Thread nD τ).loc main_arg4)

/-! ## The host lines before the region, stretch by stretch

The lines come in five stretches (the layer normalisation; the row norms, a called function; two constants; the
clipping of the norms, a called function; the margin's cosine and sine and the division by the norms). The contents
after each stretch are named, so that a later stretch is computed from what the earlier ones left and never from their
operations again. -/

/-- The contents after the first stretch (the layer normalisation of the activations). -/
def W0 (c : Dev nD) : Valuation τ sig (Elt F) := StableHlo.after hostOps0 (fun b => m (c, b))
/-- After the second stretch (the row norms). -/
def W1 (c : Dev nD) : Valuation τ sig (Elt F) := StableHlo.after hostOps0_1 (W0 m c)
/-- After the third stretch (the clipping bounds). -/
def W2 (c : Dev nD) : Valuation τ sig (Elt F) := StableHlo.after hostOps0_2 (W1 m c)
/-- After the fourth stretch (the clipped norms). -/
def W3 (c : Dev nD) : Valuation τ sig (Elt F) := StableHlo.after hostOps0_3 (W2 m c)
/-- After the fifth stretch: what the region finds. -/
def W4 (c : Dev nD) : Valuation τ sig (Elt F) := StableHlo.after hostOps0_4 (W3 m c)

/-- What the region finds is the contents after the five stretches in turn. -/
theorem V0_eq (c : Dev nD) : V0 m c = W4 m c := by
  unfold W4 W3 W2 W1 W0
  simp only [V0, List.flatten_cons, List.flatten_nil, List.append_nil, StableHlo.after_append]

/-! ### The first stretch: the layer normalisation -/

set_option maxHeartbeats 4000000 in
/-- After the first stretch the normalised, scaled and shifted activations are the reference's: the same thirty
    operations on the same arguments, result by result. -/
theorem W0_v24 (c : Dev nD) : W0 m c (Proc.devRef .tc main_v24) = Cert.ReferenceIdeal.Read.val_main_v24 (F := F) (ax m c) (ag m c) (ab m c) := by
  unfold W0; simp only [hostOps0]
  after_results_simp
  rfl

/-! ### The second stretch: the row norms -/

/-- The stretch writes only its own results: the activations pass through. -/
theorem W1_v24 (c : Dev nD) : W1 m c (Proc.devRef .tc main_v24) = W0 m c (Proc.devRef .tc main_v24) := by
  unfold W1; simp only [hostOps0_1]
  after_results

/-- The row norms are the reference's: the square root of each row's sum of squares. -/
theorem W1_v25 (c : Dev nD) : W1 m c (Proc.devRef .tc main_v25) = Cert.ReferenceIdeal.Read.val_main_v25 (F := F) (ax m c) (ag m c) (ab m c) := by
  unfold W1; simp only [hostOps0_1]
  after_results
  rw [W0_v24]
  rfl

/-! ### The third stretch: the two clipping bounds -/

theorem W2_v24 (c : Dev nD) : W2 m c (Proc.devRef .tc main_v24) = W1 m c (Proc.devRef .tc main_v24) := by
  unfold W2; simp only [hostOps0_2]
  after_results

theorem W2_v25 (c : Dev nD) : W2 m c (Proc.devRef .tc main_v25) = W1 m c (Proc.devRef .tc main_v25) := by
  unfold W2; simp only [hostOps0_2]
  after_results

theorem W2_cst_4 (c : Dev nD) : W2 m c (Proc.devRef .tc main_cst_4) = Cert.ReferenceIdeal.Read.val_main_cst_4 (F := F) := by
  unfold W2; simp only [hostOps0_2]
  after_results
  rfl

theorem W2_cst_5 (c : Dev nD) : W2 m c (Proc.devRef .tc main_cst_5) = Cert.ReferenceIdeal.Read.val_main_cst_5 (F := F) := by
  unfold W2; simp only [hostOps0_2]
  after_results
  rfl

/-! ### The fourth stretch: the norms clipped between the bounds -/

theorem W3_v24 (c : Dev nD) : W3 m c (Proc.devRef .tc main_v24) = W2 m c (Proc.devRef .tc main_v24) := by
  unfold W3; simp only [hostOps0_3]
  after_results

theorem W3_v25 (c : Dev nD) : W3 m c (Proc.devRef .tc main_v25) = W2 m c (Proc.devRef .tc main_v25) := by
  unfold W3; simp only [hostOps0_3]
  after_results

/-- The clipped norms are the reference's: the minimum of the upper bound and the maximum of the lower bound and the norm. -/
theorem W3_v26 (c : Dev nD) : W3 m c (Proc.devRef .tc main_v26) = Cert.ReferenceIdeal.Read.val_main_v26 (F := F) (ax m c) (ag m c) (ab m c) := by
  unfold W3; simp only [hostOps0_3]
  after_results
  rw [W2_cst_4, W2_cst_5, W2_v25, W1_v25]
  rfl

/-! ### The fifth stretch: the margin's cosine and sine, and the activations divided by their norms -/

theorem W4_v26 (c : Dev nD) : W4 m c (Proc.devRef .tc main_v26) = W3 m c (Proc.devRef .tc main_v26) := by
  unfold W4; simp only [hostOps0_4]
  after_results

/-- The margin's cosine is the reference's: the cosine of the margin, an affine function of the clipped norm. -/
theorem W4_v33 (c : Dev nD) : W4 m c (Proc.devRef .tc main_v33) = Cert.ReferenceIdeal.Read.val_main_v33 (F := F) (ax m c) (ag m c) (ab m c) := by
  unfold W4; simp only [hostOps0_4]
  after_results
  rw [W3_v26]
  rfl

/-- The margin's sine is the reference's. -/
theorem W4_v34 (c : Dev nD) : W4 m c (Proc.devRef .tc main_v34) = Cert.ReferenceIdeal.Read.val_main_v34 (F := F) (ax m c) (ag m c) (ab m c) := by
  unfold W4; simp only [hostOps0_4]
  after_results
  rw [W3_v26]
  rfl

/-- The activations divided by their row norms are the reference's (which computes the norms a second time, by
    the same operations: the two terms unfold to one). -/
theorem W4_v36 (c : Dev nD) : W4 m c (Proc.devRef .tc main_v36) = Cert.ReferenceIdeal.Read.val_main_v40 (F := F) (ax m c) (ag m c) (ab m c) := by
  unfold W4; simp only [hostOps0_4]
  after_results
  rw [W3_v24, W2_v24, W1_v24, W0_v24, W3_v25, W2_v25, W1_v25]
  rfl

/-! ## What the region finds in the arrays the host lines wrote -/

/-- The normalised activations (window 0's array) are the reference's. -/
theorem V_xn (c : Dev nD) : V m c main_v36 = Cert.ReferenceIdeal.Read.val_main_v40 (F := F) (ax m c) (ag m c) (ab m c) := by
  show V0 m c (Proc.devRef .tc main_v36) = _
  rw [V0_eq]; exact W4_v36 m c

/-- The margin's cosine (window 3's array) is the reference's. -/
theorem V_cm (c : Dev nD) : V m c main_v33 = Cert.ReferenceIdeal.Read.val_main_v33 (F := F) (ax m c) (ag m c) (ab m c) := by
  show V0 m c (Proc.devRef .tc main_v33) = _
  rw [V0_eq]; exact W4_v33 m c

/-- The margin's sine (window 4's array) is the reference's. -/
theorem V_sn (c : Dev nD) : V m c main_v34 = Cert.ReferenceIdeal.Read.val_main_v34 (F := F) (ax m c) (ag m c) (ab m c) := by
  show V0 m c (Proc.devRef .tc main_v34) = _
  rw [V0_eq]; exact W4_v34 m c

/-- The clipped norms (read by the host lines after the region) are the reference's. -/
theorem V_xnorm (c : Dev nD) : V m c main_v26 = Cert.ReferenceIdeal.Read.val_main_v26 (F := F) (ax m c) (ag m c) (ab m c) := by
  show V0 m c (Proc.devRef .tc main_v26) = _
  rw [V0_eq, W4_v26]; exact W3_v26 m c

/-! ## The windows whose one block is the whole array -/

/-- The index maps of the four windows fetched once: constant zero on every axis, over the grid. -/
theorem w0_facts : ∀ t : Fin grid0.N, win0_0.index t 0 = 0 ∧ win0_0.index t 1 = 0 := by decide +kernel
theorem w2_facts : ∀ t : Fin grid0.N, win0_2.index t 0 = 0 := by decide +kernel
theorem w3_facts : ∀ t : Fin grid0.N, win0_3.index t 0 = 0 ∧ win0_3.index t 1 = 0 := by decide +kernel
theorem w4_facts : ∀ t : Fin grid0.N, win0_4.index t 0 = 0 ∧ win0_4.index t 1 = 0 := by decide +kernel

/-- Window 0's block at any point is the whole array of normalised activations. -/
theorem iblk_0 (c : Dev nD) (t : Fin cfg0.N) : iblk m c 0 t = V m c main_v36 := by
  obtain ⟨h0, h1⟩ := w0_facts t
  funext y
  show V m c main_v36 (((cfg0.win 0).blk t).view.emb y) = V m c main_v36 y
  refine congrArg (V m c main_v36) (funext fun a => Fin.ext ?_)
  match a with
  | ⟨0, _⟩ => show win0_0.index t 0 * 256 + 1 * (y 0).val = (y 0).val; rw [h0]; omega
  | ⟨1, _⟩ => show win0_0.index t 1 * 512 + 1 * (y 1).val = (y 1).val; rw [h1]; omega

/-- Window 2's block at any point is the whole array of targets. -/
theorem iblk_2 (c : Dev nD) (t : Fin cfg0.N) : iblk m c 2 t = V m c main_arg1 := by
  have h0 := w2_facts t
  funext y
  show V m c main_arg1 (((cfg0.win 2).blk t).view.emb y) = V m c main_arg1 y
  refine congrArg (V m c main_arg1) (funext fun a => Fin.ext ?_)
  match a with
  | ⟨0, _⟩ => show win0_2.index t 0 * 256 + 1 * (y 0).val = (y 0).val; rw [h0]; omega

/-- Window 3's block at any point is the whole array of margin cosines. -/
theorem iblk_3 (c : Dev nD) (t : Fin cfg0.N) : iblk m c 3 t = V m c main_v33 := by
  obtain ⟨h0, h1⟩ := w3_facts t
  funext y
  show V m c main_v33 (((cfg0.win 3).blk t).view.emb y) = V m c main_v33 y
  refine congrArg (V m c main_v33) (funext fun a => Fin.ext ?_)
  match a with
  | ⟨0, _⟩ => show win0_3.index t 0 * 256 + 1 * (y 0).val = (y 0).val; rw [h0]; omega
  | ⟨1, _⟩ => show win0_3.index t 1 * 1 + 1 * (y 1).val = (y 1).val; rw [h1]; omega

/-- Window 4's block at any point is the whole array of margin sines. -/
theorem iblk_4 (c : Dev nD) (t : Fin cfg0.N) : iblk m c 4 t = V m c main_v34 := by
  obtain ⟨h0, h1⟩ := w4_facts t
  funext y
  show V m c main_v34 (((cfg0.win 4).blk t).view.emb y) = V m c main_v34 y
  refine congrArg (V m c main_v34) (funext fun a => Fin.ext ?_)
  match a with
  | ⟨0, _⟩ => show win0_4.index t 0 * 256 + 1 * (y 0).val = (y 0).val; rw [h0]; omega
  | ⟨1, _⟩ => show win0_4.index t 1 * 1 + 1 * (y 1).val = (y 1).val; rw [h1]; omega

end Cert.HostSide

end
-- ==== Proof.Geometry.lean ====
/-
  Block geometry of the two windows whose blocks overhang their arrays.

  The weight array has 100000 columns, fetched in 49 blocks of 2048 columns: block t holds columns
  t*2048 .. t*2048 + 2047, and the last block (t = 48) overhangs the array by 352 columns.  On the
  columns inside the array the staging buffer holds the array's entries, whatever words fill the
  rest; this module states that entry by entry, and the same for the output block's write-back.
-/
import proofs.«418458_j50414326120960_1_alg».proof.Proof.Gen.KernelIdeal.Frame
import Idealize.ShloMosaic.Lib.ValueIdx
import Idealize.ShloMosaic.Lib.Pipeline.Value

noncomputable section

namespace Cert.Geometry

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F] [Named F]
variable (m : (ℓ : Loc nD τ sig) → Buf (Elt F) ℓ)

/-- The index map and the cut sizes of the weight window, over the grid: block t starts at column
    t*2048 and keeps min 2048 (100000 - t*2048) columns. -/
theorem w1_facts : ∀ t : Fin grid0.N,
    win0_1.index t 0 = 0 ∧ win0_1.index t 1 = t.val
      ∧ win0_1.xsize (grid0.coords t) 0 = 512
      ∧ win0_1.xsize (grid0.coords t) 1 = min 2048 (100000 - t.val * 2048) := by
  decide +kernel

/-- The same for the output window. -/
theorem w5_facts : ∀ t : Fin grid0.N,
    win0_5.index t 0 = 0 ∧ win0_5.index t 1 = t.val
      ∧ win0_5.xsize (grid0.coords t) 0 = 256
      ∧ win0_5.xsize (grid0.coords t) 1 = min 2048 (100000 - t.val * 2048) := by
  decide +kernel

/-- On the columns inside the array a weight staging buffer just fetched holds the array's entries: block t's
    column j is the array's column t*2048 + j, whatever words d fill the buffer past the array's end. -/
theorem fill_w1 (c : Dev nD) (t : Fin cfg0.N) (d : (cfg0.win 1).block.Idx → Elt F (cfg0.win 1).elt)
    (k : Fin 512) (j : Fin 2048) (h : t.val * 2048 + j.val < 100000) :
    (cfg0.win 1).fill (cfg0.grid.coords t) d (iblk m c 1 t) (ix2 k j)
      = V m c main_arg2 (ix2 k ⟨t.val * 2048 + j.val, h⟩) := by
  obtain ⟨h0, h1, hx0, hx1⟩ := w1_facts t
  have hm : (cfg0.win 1).moved (cfg0.grid.coords t) (ix2 k j) = true := by
    rw [Window.moved_iff]; intro a
    match a with
    | ⟨0, _⟩ => show k.val < win0_1.xsize (grid0.coords t) 0; rw [hx0]; exact k.isLt
    | ⟨1, _⟩ => show j.val < win0_1.xsize (grid0.coords t) 1; rw [hx1]; have := j.isLt; omega
  unfold Window.fill; rw [dif_pos hm]
  show V m c main_arg2 (((cfg0.win 1).blk t).view.emb _) = _
  refine congrArg (V m c main_arg2) (funext fun a => Fin.ext ?_)
  match a with
  | ⟨0, _⟩ => show win0_1.index t 0 * 512 + 1 * k.val = k.val; rw [h0]; omega
  | ⟨1, _⟩ => show win0_1.index t 1 * 2048 + 1 * j.val = t.val * 2048 + j.val; rw [h1]; omega

/-- Two contents of the output block that agree on the columns inside the array are written back alike. -/
theorem cut_w5_congr (t : Fin cfg0.N) (X Y : (cfg0.win 5).block.Idx → Elt F (cfg0.win 5).elt)
    (h : ∀ (b : Fin 256) (j : Fin 2048), t.val * 2048 + j.val < 100000 → X (ix2 b j) = Y (ix2 b j)) :
    (cfg0.win 5).cut (cfg0.grid.coords t) X = (cfg0.win 5).cut (cfg0.grid.coords t) Y := by
  obtain ⟨h0, h1, hx0, hx1⟩ := w5_facts t
  funext y
  have hy0 : (y 0).val < 256 := by have := (y 0).isLt; show (y 0).val < 256; exact lt_of_lt_of_eq this hx0
  have hy1 : (y 1).val < min 2048 (100000 - t.val * 2048) := lt_of_lt_of_eq (y 1).isLt hx1
  have e : (cfg0.win 5).xinj (cfg0.grid.coords t) y = ix2 ⟨(y 0).val, hy0⟩ ⟨(y 1).val, by omega⟩ :=
    funext fun a => Fin.ext (by match a with | ⟨0, _⟩ => rfl | ⟨1, _⟩ => rfl)
  show X ((cfg0.win 5).xinj (cfg0.grid.coords t) y) = Y ((cfg0.win 5).xinj (cfg0.grid.coords t) y)
  rw [e]
  exact h _ _ (by show t.val * 2048 + (y 1).val < 100000; omega)

/-- What point t's write-back of the output block carries, entry by entry: the block's entry (b, j) goes to the
    array's entry (b, t*2048 + j), for the columns inside the array. -/
theorem cut_w5_read (t : Fin cfg0.N) (X : (cfg0.win 5).block.Idx → Elt F (cfg0.win 5).elt)
    (G : S256x100000.Idx → Elt F .f32)
    (h : ∀ (b : Fin 256) (j : Fin 2048) (hj : t.val * 2048 + j.val < 100000), X (ix2 b j) = G (ix2 b ⟨t.val * 2048 + j.val, hj⟩)) :
    (cfg0.win 5).cut (cfg0.grid.coords t) X = ((cfg0.win 5).blk t).view.read (Elt F) G := by
  obtain ⟨h0, h1, hx0, hx1⟩ := w5_facts t
  funext y
  have hy0 : (y 0).val < 256 := lt_of_lt_of_eq (y 0).isLt hx0
  have hy1 : (y 1).val < min 2048 (100000 - t.val * 2048) := lt_of_lt_of_eq (y 1).isLt hx1
  have hj : t.val * 2048 + (y 1).val < 100000 := by omega
  have e : (cfg0.win 5).xinj (cfg0.grid.coords t) y = ix2 ⟨(y 0).val, hy0⟩ ⟨(y 1).val, by omega⟩ :=
    funext fun a => Fin.ext (by match a with | ⟨0, _⟩ => rfl | ⟨1, _⟩ => rfl)
  show X ((cfg0.win 5).xinj (cfg0.grid.coords t) y) = G (((cfg0.win 5).blk t).view.emb y)
  rw [e, h _ _ hj]
  refine congrArg G (funext fun a => Fin.ext ?_)
  match a with
  | ⟨0, _⟩ => show (y 0).val = win0_5.index t 0 * 256 + 1 * (y 0).val; rw [h0]; omega
  | ⟨1, _⟩ => show t.val * 2048 + (y 1).val = win0_5.index t 1 * 2048 + 1 * (y 1).val; rw [h1]; omega

/-- THE LOGITS ARRAY after the run.  If at every point t the output block holds, on the columns inside the array,
    G's entries of columns t*2048 + j, then the array ends holding G: the 49 written-back blocks cover all
    100000 columns (column n lies in block n / 2048). -/
theorem arr5_of (c : Dev nD) (dat : Dat τ (Elt F) Unit ℕ (UR sig nD τ) ℕ cfg0 c) (G : S256x100000.Idx → Elt F .f32)
    (h : ∀ (t : Fin cfg0.N) (b : Fin 256) (j : Fin 2048) (hj : t.val * 2048 + j.val < 100000),
      dat.after 5 t (ix2 b j) = G (ix2 b ⟨t.val * 2048 + j.val, hj⟩)) :
    dat.arrAt 5 cfg0.N = G := by
  refine dat.arrAt_eq_of_cover 5 G (fun t _ => ?_) (fun i => ?_)
  · show (cfg0.win 5).cut (cfg0.grid.coords t) (dat.after 5 t) = _
    exact cut_w5_read t _ G (h t)
  · have hi0 : (i 0).val < 256 := (i 0).isLt
    have hi1 : (i 1).val < 100000 := (i 1).isLt
    have hN : cfg0.N = 49 := N_0
    let tt : Fin cfg0.N := ⟨(i 1).val / 2048, by omega⟩
    refine ⟨tt, flush0_5 tt, ?_⟩
    show i ∈ ((View.whole main_v37_0).slice (win0_5.rect tt)).set
    rw [View.set_slice_whole, Rect.mem_set_unit]
    obtain ⟨h0, h1, hx0, hx1⟩ := w5_facts tt
    have htt : tt.val = (i 1).val / 2048 := rfl
    intro a
    match a with
    | ⟨0, _⟩ =>
      show win0_5.index tt 0 * 256 ≤ (i 0).val ∧ (i 0).val < win0_5.index tt 0 * 256 + win0_5.xsize (grid0.coords tt) 0
      rw [h0, hx0]; omega
    | ⟨1, _⟩ =>
      show win0_5.index tt 1 * 2048 ≤ (i 1).val ∧ (i 1).val < win0_5.index tt 1 * 2048 + win0_5.xsize (grid0.coords tt) 1
      rw [h1, hx1, htt]; omega

/-- The index map of the second output window (one block, the whole [256,1] array) over the grid. -/
theorem w6_facts : ∀ t : Fin grid0.N, win0_6.index t 0 = 0 ∧ win0_6.index t 1 = 0 := by
  decide +kernel

/-- THE SECOND OUTPUT ARRAY after the run: written back once, at the last point, whole. -/
theorem arr6_of (c : Dev nD) (dat : Dat τ (Elt F) Unit ℕ (UR sig nD τ) ℕ cfg0 c) (G : S256x1.Idx → Elt F .f32)
    (h : ∀ (t : Fin cfg0.N), (cfg0.win 6).flush t = true → dat.after 6 t = G) :
    dat.arrAt 6 cfg0.N = G := by
  refine dat.arrAt_eq_of_cover 6 G (fun t ht => ?_) (fun i => ?_)
  · show (cfg0.win 6).cut (cfg0.grid.coords t) (dat.after 6 t) = _
    rw [h t ht]
    obtain ⟨h0, h1⟩ := w6_facts t
    funext y
    show G ((cfg0.win 6).xinj (cfg0.grid.coords t) y) = G (((cfg0.win 6).blk t).view.emb y)
    refine congrArg G (funext fun a => Fin.ext ?_)
    match a with
    | ⟨0, _⟩ => show (y 0).val = win0_6.index t 0 * 256 + 1 * (y 0).val; rw [h0]; omega
    | ⟨1, _⟩ => show (y 1).val = win0_6.index t 1 * 1 + 1 * (y 1).val; rw [h1]; omega
  · have hN : cfg0.N = 49 := N_0
    let tt : Fin cfg0.N := ⟨48, by omega⟩
    have hf : (cfg0.win 6).flush tt = true := (flush0_6 tt).mpr (by show 48 % 49 = 48; rfl)
    refine ⟨tt, hf, ?_⟩
    show i ∈ ((View.whole main_v37_1).slice (win0_6.rect tt)).set
    rw [View.set_slice_whole, Rect.mem_set_unit]
    obtain ⟨h0, h1⟩ := w6_facts tt
    have hi0 : (i 0).val < 256 := (i 0).isLt
    have hi1 : (i 1).val < 1 := (i 1).isLt
    intro a
    match a with
    | ⟨0, _⟩ =>
      show win0_6.index tt 0 * 256 ≤ (i 0).val ∧ (i 0).val < win0_6.index tt 0 * 256 + 256
      rw [h0]; omega
    | ⟨1, _⟩ =>
      show win0_6.index tt 1 * 1 ≤ (i 1).val ∧ (i 1).val < win0_6.index tt 1 * 1 + 1
      rw [h1]; omega

end Cert.Geometry

end
-- ==== Proof.KernelTail.lean ====
import proofs.«418458_j50414326120960_1_alg».proof.Proof.Gen.KernelIdeal.Frame
import proofs.«418458_j50414326120960_1_alg».proof.Proof.RefRead
import Idealize.ShloMosaic.Lib.StableHlo.Run
import Idealize.ShloMosaic.Lib.Pipeline.Value
import Idealize.ShloMosaic.Lib.ValueIdx
import Idealize.ShloMosaic.Lib.ValueIdxRank1
import Idealize.ShloMosaic.PureOps.Ideal.Laws

/-! The host lines after the region: the mean of the per-row losses plus the regulariser computed from the clipped
    norm. What the result buffer holds after them, as a function of the two buffers they read; that function read
    at its one index at the extended reals; and the step from the contents the region leaves. -/

noncomputable section

namespace Cert.KernelTail

open Cert.KernelIdeal Cert.KernelIdeal.Gen Idealize.ShloMosaic Idealize.ShloMosaic.TcCoe Idealize.ShloMosaic.ValueIdx
open Idealize.SL.Sem
open Idealize.ShloMosaic.Rounds
open Idealize.ShloMosaic.Pipeline (Dat Cfg)

section General
variable {F : FTy → Type} [FloatOps F] [Named F]

/-- The regulariser: twenty times the mean over the rows of `x / 12100.0 + 1 / x`, `x` the row's clipped norm. -/
def tailReg (xnorm : (⟨S256x1, .f32⟩ : BufTy).Contents (Elt F)) : (⟨S_, .f32⟩ : BufTy).Contents (Elt F) :=
  mulf (constant S_ .f32 0x41A00000#32)
    (Host.divf
      (Host.reduceAdd
        (addf (Host.divf xnorm (broadcastInDim S256x1 ![] bcast_S_S256x1 (constant S_ .f32 0x463D1000#32)))
          (Host.divf (broadcastInDim S256x1 ![] bcast_S_S256x1 (constant S_ .f32 0x3F800000#32)) xnorm))
        (constant S_ .f32 0x00000000#32) reducesTo_S256x1_S_d0_1 h_S_)
      (constant S_ .f32 0x43800000#32))

/-- The mean over the rows of the per-row losses, a column `[256, 1]` flattened to `[256]`. -/
def tailMean (nll : (⟨S256x1, .f32⟩ : BufTy).Contents (Elt F)) : (⟨S_, .f32⟩ : BufTy).Contents (Elt F) :=
  Host.divf
    (Host.reduceAdd (shapeCast S256 nll shapeCasts_S256x1_S256) (constant S_ .f32 0x00000000#32) reducesTo_S256_S_d0 h_S_)
    (constant S_ .f32 0x43800000#32)

/-- What the lines after the region leave in the result buffer: the mean loss plus the regulariser. -/
def tailOf (nll xnorm : (⟨S256x1, .f32⟩ : BufTy).Contents (Elt F)) : (⟨S_, .f32⟩ : BufTy).Contents (Elt F) :=
  addf (tailMean nll) (tailReg xnorm)

set_option maxHeartbeats 4000000 in
/-- The result buffer after the lines, from any contents: the lines' operations applied to the two buffers they read. -/
theorem tail_gen (Wv : Valuation τ sig (Elt F)) :
    StableHlo.after (hostOps1 (F := F)) Wv (Proc.devRef .tc main_v49)
      = tailOf (Wv (Proc.devRef .tc main_v37_1)) (Wv (Proc.devRef .tc main_v26)) := by
  open Idealize.ShloMosaic.StableHlo in after_results_simp
  rfl

/-- The regulariser of the clipped norm the reference computes is the reference's regulariser term: the same operations. -/
theorem tailReg_ref (x : (⟨Cert.ReferenceIdeal.S256x512, .f32⟩ : BufTy).Contents (Elt F))
    (g be : (⟨Cert.ReferenceIdeal.S512, .f32⟩ : BufTy).Contents (Elt F)) :
    tailReg (Cert.ReferenceIdeal.Read.val_main_v26 (F := F) x g be) = Cert.ReferenceIdeal.Read.val_main_v76 (F := F) x g be := rfl

/-- The step from the contents the region leaves: the losses' array as the region's data leave it, the clipped norm
    as the region found it. -/
theorem afterTail_eq (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) [hostOps1] c main_v49 = tailOf ((dats 0 c).arrAt 6 cfg0.N) (V m c main_v26) := by
  have h6 := Pipeline.withArrays_arr (τ := τ) (Val := Elt F) spec0 launch0.win.arr_inj c (V0 m c)
    (fun w => (dats 0 c).arrAt w cfg0.N) 6
  have h26 := Pipeline.withArrays_of_ne (τ := τ) (Val := Elt F) spec0 c (V0 m c) (fun w => (dats 0 c).arrAt w cfg0.N) main_v26
    (by exact (by decide : ∀ w, Pipeline.arrRef spec0 w ≠ main_v26))
  unfold Pipeline.afterTail₀
  simp only [List.flatten_cons, List.flatten_nil, List.append_nil]
  rw [tail_gen]
  exact congrArg₂ tailOf h6 h26

end General

/-! ## At the extended reals, at the one index -/

section Column
variable {α : Type}

/-- A column `[a, 1]` flattened to `[a]` reads, at `i`, the column's row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Column

/-- The mean loss at the extended reals: the sum over the rows, from `0`, divided by `256.0`. -/
theorem tailMean_apply (nll : (⟨S256x1, .f32⟩ : BufTy).Contents (Elt Ideal)) :
    tailMean (F := Ideal) nll ix0 = Ideal.div (0 + ∑ r : Fin 256, nll (ix2 r 0)) (Ideal.ofBits .f32 0x43800000#32) := by
  show Ideal.div (Ideal.hostReduceAdd reducesTo_S256_S_d0 (shapeCast S256 nll shapeCasts_S256x1_S256)
      (Ideal.ofBits .f32 0x00000000#32) ix0) (Ideal.ofBits .f32 0x43800000#32) = _
  rw [Ideal.hostReduceAdd_total reducesTo_S256_S_d0 (fun b => b.elim0), Ideal.ofBits_zero_f32]
  refine congrArg (fun z => Ideal.div (0 + z) (Ideal.ofBits .f32 0x43800000#32)) ?_
  refine (Equiv.sum_comp (idxEquiv1 (n := 256)).symm _).symm.trans (Finset.sum_congr rfl fun r _ => ?_)
  exact shapeCast_a1_a_apply nll shapeCasts_S256x1_S256 r

/-- The tail at the extended reals: the mean loss plus the reference's regulariser term, when the clipped norm is
    the reference's. -/
theorem tail_apply (x : (⟨Cert.ReferenceIdeal.S256x512, .f32⟩ : BufTy).Contents (Elt Ideal))
    (g be : (⟨Cert.ReferenceIdeal.S512, .f32⟩ : BufTy).Contents (Elt Ideal))
    (nll xnorm : (⟨S256x1, .f32⟩ : BufTy).Contents (Elt Ideal))
    (hx : xnorm = Cert.ReferenceIdeal.Read.val_main_v26 (F := Ideal) x g be) :
    tailOf (F := Ideal) nll xnorm ix0
      = Ideal.div (0 + ∑ r : Fin 256, nll (ix2 r 0)) (Ideal.ofBits .f32 0x43800000#32)
        + Cert.ReferenceIdeal.Read.val_main_v76 (F := Ideal) x g be ix0 := by
  subst hx
  show tailMean (F := Ideal) nll ix0 + tailReg (F := Ideal) (Cert.ReferenceIdeal.Read.val_main_v26 (F := Ideal) x g be) ix0 = _
  rw [tailMean_apply, tailReg_ref]

end Cert.KernelTail
-- ==== Proof.KernelValue.lean ====
/-
  The idealized kernel's run, read as values.

  The tracked contents are instantiated by the payload recursion over canonical weight tiles (the block of
  the array filled out with the zero word past the array's end); the step hypotheses of the run hold because
  a logit on a padded column is the fill and a logit on a column inside the array reads only that column.
  Under the precondition the logits array then ends holding the reference's output, the second output the
  negated log-probabilities of the targets, and the host lines after the region the reference's loss.
-/
import proofs.«418458_j50414326120960_1_alg».proof.Defs
import proofs.«418458_j50414326120960_1_alg».proof.Proof.IdealRun.Data
import proofs.«418458_j50414326120960_1_alg».proof.Proof.Track
import proofs.«418458_j50414326120960_1_alg».proof.Proof.NllRow
import proofs.«418458_j50414326120960_1_alg».proof.Proof.HostSide
import proofs.«418458_j50414326120960_1_alg».proof.Proof.Geometry
import proofs.«418458_j50414326120960_1_alg».proof.Proof.KernelTail
import proofs.«418458_j50414326120960_1_alg».proof.Proof.RefIndex.Reals
import proofs.«418458_j50414326120960_1_alg».proof.Proof.PreFacts

noncomputable section

namespace Cert.KernelValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read

variable (m : (ℓ : Loc nD τ sig) → Buf (Elt Ideal) ℓ) (ρ : Dev nD → PrngReg)

/-- The canonical weight tile of point t: the block of the array, the zero word past the array's end. -/
abbrev Wz (c : Dev nD) (t : Fin cfg0.N) : Vec Ideal S512x2048 .f32 :=
  Cert.IdealRun.wAt m c t (fun _ => Scalar.ofBits (F := Ideal) .f32 0#32)

/-- The tracked contents: the payload recursion over the canonical tiles, on the arrays as the region finds them. -/
def T (c : Dev nD) : Cert.IdealRun.Track Ideal where
  outB := Cert.Track.outB (V m c main_v36) (V m c main_v33) (V m c main_v34) (V m c main_arg1) (Wz m c)
  mx := Cert.Track.mx (V m c main_v36) (V m c main_v33) (V m c main_v34) (V m c main_arg1) (Wz m c)
  sx := Cert.Track.sx (V m c main_v36) (V m c main_v33) (V m c main_v34) (V m c main_arg1) (Wz m c)
  tx := Cert.Track.tx (V m c main_v36) (V m c main_v33) (V m c main_v34) (V m c main_arg1) (Wz m c)
  nll := Cert.Track.nll (V m c main_v36) (V m c main_v33) (V m c main_v34) (V m c main_arg1) (Wz m c)

/-- Any staged weight tile agrees with the canonical one on the columns inside the array. -/
theorem wAt_agrees (c : Dev nD) (t : Fin cfg0.N) (d : Vec Ideal S512x2048 .f32) (k : Fin 512) (j : Fin 2048)
    (h : t.val * 2048 + j.val < 100000) :
    Cert.IdealRun.wAt m c t d (ix2 k j) = Wz m c t (ix2 k j) :=
  (Cert.Geometry.fill_w1 m c t d k j h).trans (Cert.Geometry.fill_w1 m c t _ k j h).symm

/-- The run's step hypotheses. -/
theorem steps (c : Dev nD) : Cert.IdealRun.Steps m (T m c) c where
  mx0 := rfl
  sx0 := rfl
  tx0 := rfl
  out := fun t d => by
    dsimp only [Cert.IdealRun.xAt, Cert.IdealRun.tgAt, Cert.IdealRun.cmAt, Cert.IdealRun.snAt, T]
    rw [Cert.HostSide.iblk_0, Cert.HostSide.iblk_2, Cert.HostSide.iblk_3, Cert.HostSide.iblk_4]
    exact congrArg ((cfg0.win 5).cut (cfg0.grid.coords t)) (Cert.Track.out_step _ _ _ _ (Wz m c) t _ (wAt_agrees m c t d))
  mx := fun t d => by
    dsimp only [Cert.IdealRun.xAt, Cert.IdealRun.tgAt, Cert.IdealRun.cmAt, Cert.IdealRun.snAt, T]
    rw [Cert.HostSide.iblk_0, Cert.HostSide.iblk_2, Cert.HostSide.iblk_3, Cert.HostSide.iblk_4]
    exact Cert.Track.mx_step _ _ _ _ (Wz m c) t _ (wAt_agrees m c t d)
  sx := fun t d => by
    dsimp only [Cert.IdealRun.xAt, Cert.IdealRun.tgAt, Cert.IdealRun.cmAt, Cert.IdealRun.snAt, T]
    rw [Cert.HostSide.iblk_0, Cert.HostSide.iblk_2, Cert.HostSide.iblk_3, Cert.HostSide.iblk_4]
    exact Cert.Track.sx_step _ _ _ _ (Wz m c) t _ (wAt_agrees m c t d)
  tx := fun t d => by
    dsimp only [Cert.IdealRun.xAt, Cert.IdealRun.tgAt, Cert.IdealRun.cmAt, Cert.IdealRun.snAt, T]
    rw [Cert.HostSide.iblk_0, Cert.HostSide.iblk_2, Cert.HostSide.iblk_3, Cert.HostSide.iblk_4]
    exact Cert.Track.tx_step _ _ _ _ (Wz m c) t _ (wAt_agrees m c t d)
  nll := rfl

/-! ## Under the precondition -/

section Values

/-- The canonical tiles hold the weight array's columns. -/
theorem Wz_cols (c : Dev nD) (t : Fin grid0.N) (k : Fin 512) (j : Fin 2048) (hj : t.val * 2048 + j.val < 100000) :
    Wz m c t (ix2 k j) = m ((c : Thread nD τ).loc main_arg2) (ix2 k ⟨t.val * 2048 + j.val, hj⟩) :=
  (Cert.Geometry.fill_w1 m c t _ k j hj).trans (congrFun (V_main_arg2 m c) _)

/-- THE LOGITS ARRAY ends holding the reference's output. -/
theorem out_final (hpre : Cert.Pre_KernelIdeal m) (c : Dev nD) :
    (Cert.IdealRun.dats m (T m) 0 c).arrAt 5 cfg0.N
      = val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine Cert.Geometry.arr5_of c _ _ (fun t b j hj => ?_)
  rw [Cert.IdealRun.after5]
  dsimp only [T]
  rw [Cert.HostSide.V_xn, Cert.HostSide.V_cm, Cert.HostSide.V_sn, V_main_arg1]
  exact Cert.NllRow.out_entry _ _ _ _ _ (Wz m c) (hpre c) (Wz_cols m c) t b j hj

/-- THE SECOND OUTPUT ends holding the payload recursion's final column. -/
theorem nll_final (c : Dev nD) :
    (Cert.IdealRun.dats m (T m) 0 c).arrAt 6 cfg0.N = (T m c).nll :=
  Cert.Geometry.arr6_of c _ _ (fun t _ => Cert.IdealRun.after6 m (T m) c t)

/-- THE LOSS: the host lines after the region end at the reference's loss. -/
theorem loss_final (hpre : Cert.Pre_KernelIdeal m) (c : Dev nD) :
    Pipeline.afterTail₀ cfgs (Cert.IdealRun.dats m (T m)) 0 (V0 m) [hostOps1] c main_v49
      = val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.KernelTail.afterTail_eq, nll_final]
  funext i
  obtain rfl : i = ValueIdx.ix0 := funext fun a => a.elim0
  rw [Cert.KernelTail.tail_apply _ _ _ _ _ (Cert.HostSide.V_xnorm m c)]
  refine Cert.RefIndex.loss_of_nll _ _ _ _ _ (fun r => (T m c).nll (ix2 r 0)) (fun r => ?_)
  dsimp only [T]
  rw [Cert.HostSide.V_xn, Cert.HostSide.V_cm, Cert.HostSide.V_sn, V_main_arg1]
  exact Cert.NllRow.nll_row _ _ _ _ _ (Wz m c) (hpre c) (Wz_cols m c) r

end Values

end Cert.KernelValue

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«418458_j50414326120960_1_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«418458_j50414326120960_1_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.LibSsaTL.lean ====
/-
  One-step equations of a single-assignment line of host operations, over typed references that carry the buffer's
  own type.

  A typed reference to a literal buffer, typed at that buffer's own type, moves contents along an equation that is
  reflexivity: reading and storing through it are the identity. For such references the one-step equations hold
  between the buffers' final contents themselves, with no transport on either side; an operation printed at a literal
  type that the buffer's type computes to is such an operation.
-/
import proofs.«418458_j50414326120960_1_alg».proof.Proof.LibSsaT

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step over typed references at the buffers' own types, no operand. -/
theorem at_lnullary (h : WritesAre ops ys) (k : Nat) (W : Valuation τ sig Val) {y : Ref sig .tc} (hyd hys)
    (v : y.ty.Contents Val) (hop : ops[k]? = some (TRef.nullary (TRef.of (T := y.ty) y rfl hyd hys) v))
    (hy : y ∉ ys.drop (k + 1)) :
    after ops W (Proc.devRef .tc y) = v :=
  at_tnullary h k W (TRef.of (T := y.ty) y rfl hyd hys) v hop hy

/-- One step over typed references at the buffers' own types, one operand. -/
theorem at_lunary (h : WritesAre ops ys) (k : Nat) (W : Valuation τ sig Val) {x y : Ref sig .tc} (hxd hxs hyd hys)
    (f : x.ty.Contents Val → y.ty.Contents Val)
    (hop : ops[k]? = some (TRef.unary (TRef.of (T := x.ty) x rfl hxd hxs) (TRef.of (T := y.ty) y rfl hyd hys) f))
    (hy : y ∉ ys.drop (k + 1)) (hx : x ∉ ys.drop k) :
    after ops W (Proc.devRef .tc y) = f (after ops W (Proc.devRef .tc x)) :=
  at_tunary h k W (TRef.of (T := x.ty) x rfl hxd hxs) (TRef.of (T := y.ty) y rfl hyd hys) f hop hy hx

/-- One step over typed references at the buffers' own types, two operands. -/
theorem at_lbinary (h : WritesAre ops ys) (k : Nat) (W : Valuation τ sig Val) {a b y : Ref sig .tc}
    (had has hbd hbs hyd hys) (f : a.ty.Contents Val → b.ty.Contents Val → y.ty.Contents Val)
    (hop : ops[k]? = some (TRef.binary (TRef.of (T := a.ty) a rfl had has) (TRef.of (T := b.ty) b rfl hbd hbs)
      (TRef.of (T := y.ty) y rfl hyd hys) f))
    (hy : y ∉ ys.drop (k + 1)) (ha : a ∉ ys.drop k) (hb : b ∉ ys.drop k) :
    after ops W (Proc.devRef .tc y) = f (after ops W (Proc.devRef .tc a)) (after ops W (Proc.devRef .tc b)) :=
  at_tbinary h k W (TRef.of (T := a.ty) a rfl had has) (TRef.of (T := b.ty) b rfl hbd hbs)
    (TRef.of (T := y.ty) y rfl hyd hys) f hop hy ha hb

/-- One step over typed references at the buffers' own types, three operands. -/
theorem at_lternary (h : WritesAre ops ys) (k : Nat) (W : Valuation τ sig Val) {c a b y : Ref sig .tc}
    (hcd hcs had has hbd hbs hyd hys)
    (f : c.ty.Contents Val → a.ty.Contents Val → b.ty.Contents Val → y.ty.Contents Val)
    (hop : ops[k]? = some (TRef.ternary (TRef.of (T := c.ty) c rfl hcd hcs) (TRef.of (T := a.ty) a rfl had has)
      (TRef.of (T := b.ty) b rfl hbd hbs) (TRef.of (T := y.ty) y rfl hyd hys) f))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) :=
  at_tternary h k W (TRef.of (T := c.ty) c rfl hcd hcs) (TRef.of (T := a.ty) a rfl had has)
    (TRef.of (T := b.ty) b rfl hbd hbs) (TRef.of (T := y.ty) y rfl hyd hys) f hop hy hc ha hb

end Cert.LibSsa
-- ==== Proof.LibSsaIdx.lean ====
/-
  Side conditions of the one-step equations of a single-assignment line, by arithmetic on the references' indices.

  The one-step equations ask that a reference does not occur in a tail of the list of the written references. When the
  written references' indices, in the order of the line, are consecutive numbers a, a+1, a+2, …, the tail from
  position k on holds exactly the indices from a+k on, so a reference whose index is below a+k is not in that tail:
  each side condition becomes one comparison of two numbers. A line given as a concatenation of shorter lines writes
  the concatenation of what the shorter lines write.
-/
import proofs.«418458_j50414326120960_1_alg».proof.Proof.LibSsaTL

namespace Cert.LibSsa

open Idealize.ShloMosaic Idealize.ShloMosaic.StableHlo Cert.LibStretch

variable {τ : Topo} {sig : RefSig} {Val : EltTy → Type}

/-- In a list of references whose indices are the consecutive numbers from a on, a reference with an index below
    a + k does not occur from position k on. -/
theorem not_mem_drop_of_idx_lt {ys : List (Ref sig .tc)} {a : Nat}
    (h : ys.map (fun r => r.idx.val) = List.range' a ys.length) (k : Nat) (r : Ref sig .tc)
    (hr : r.idx.val < a + k) : r ∉ ys.drop k := by
  intro hm
  have hv : r.idx.val ∈ (ys.drop k).map (fun r => r.idx.val) := List.mem_map_of_mem hm
  rw [List.map_drop, h, List.drop_range', List.mem_range'_1] at hv
  omega

/-- A reference with an index below all the written ones is not written. -/
theorem not_mem_of_idx_lt {ys : List (Ref sig .tc)} {a : Nat}
    (h : ys.map (fun r => r.idx.val) = List.range' a ys.length) (r : Ref sig .tc)
    (hr : r.idx.val < a) : r ∉ ys :=
  not_mem_drop_of_idx_lt h 0 r (by omega)

/-- Two lines one after the other write what the first writes, then what the second writes. -/
theorem writesAre_append {l₁ l₂ : List (HloOp τ sig Val)} {ys₁ ys₂ : List (Ref sig .tc)}
    (h₁ : WritesAre l₁ ys₁) (h₂ : WritesAre l₂ ys₂) : WritesAre (l₁ ++ l₂) (ys₁ ++ ys₂) := by
  unfold WritesAre at h₁ h₂ ⊢
  induction h₁ with
  | nil => exact h₂
  | cons h _ ih => exact List.Forall₂.cons h ih

/-- The comparison of a literal reference's index with a literal number, by computation. -/
macro "idx_lt" : tactic => `(tactic| decide)

end Cert.LibSsa
-- ==== Proof.RefStagesBase.lean ====
import proofs.«418458_j50414326120960_1_alg».proof.Proof.RefOps
import proofs.«418458_j50414326120960_1_alg».proof.Proof.RefRead
import proofs.«418458_j50414326120960_1_alg».proof.Proof.LibSsaIdx

/-!
# The reference program, stage by stage: what every stage uses

The reference program is a straight line of 163 operations in single-assignment form: each writes one buffer, no
buffer is written twice, and an operation reads only the arguments and buffers written before it. The buffers'
indices are consecutive: the five arguments are 0 … 4, and the operation at position `k` writes the buffer of
index `5 + k`. So after the whole line the buffer of the operation at position `k` holds that operation's function
of what its operand buffers hold after the whole line (the one-step equations below, one per kind of operation:
their side conditions are comparisons of indices), and an argument holds what it held at the launch.
-/

noncomputable section

namespace Cert.ReferenceIdeal.Stages

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibStretch Cert.LibSsa

variable {F : FTy → Type} [FloatOps F]

/-- The buffers the operations write, in program order. -/
def ys : List (Ref sig .tc) :=
  [main_cst, main_v0, main_cst_0, main_v1, main_v2, main_v3, main_v4, main_v5, main_v6, main_cst_1, main_v7, main_cst_2,
   main_v8, main_v9, main_v10, main_v11, main_v12, main_cst_3, main_v13, main_v14, main_v15, main_v16, main_v17, main_v18,
   main_v19, main_v20, main_v21, main_v22, main_v23, main_v24, main_call0_v0, main_call0_cst, main_call0_v1, main_call0_v2,
   main_v25, main_cst_4, main_cst_5, main_call1_v0, main_call1_v1, main_call1_v2, main_call1_v3, main_call1_v4, main_v26,
   main_cst_6, main_v27, main_v28, main_cst_7, main_v29, main_v30, main_cst_8, main_v31, main_v32, main_v33, main_v34,
   main_call2_v0, main_call2_cst, main_call2_v1, main_call2_v2, main_v35, main_v36, main_v37, main_call3_v0, main_call3_cst,
   main_call3_v1, main_call3_v2, main_v38, main_v39, main_v40, main_v41, main_cst_9, main_cst_10, main_call4_v0,
   main_call4_v1, main_call4_v2, main_call4_v3, main_call4_v4, main_v42, main_v43, main_cst_11, main_v44, main_v45, main_v46,
   main_v47, main_v48, main_v49, main_v50, main_v51, main_cst_12, main_v52, main_v53, main_v54, main_call6_v0, main_call6_v1,
   main_call6_v2, main_call6_v3, main_call6_v4, main_v55, main_v56, main_cst_13, main_v57, main_v58, main_v59, main_v60,
   main_cst_14, main_v61, main_v62, main_call7_cst, main_call7_v0, main_call7_cst_0, main_call7_v1, main_call7_v2,
   main_call7_v3, main_call7_v4, main_call7_v5, main_call7_v6, main_call7_cst_1, main_call7_v7, main_call7_v8, main_call7_v9,
   main_call7_v10, main_v63, main_v64, main_call8_c, main_call8_v0, main_call8_v1, main_call8_c_0, main_call8_v2,
   main_call8_v3, main_call8_v4, main_call8_v5, main_call8_c_1, main_call8_c_2, main_call8_v6, main_call8_v7, main_call8_v8,
   main_call8_v9, main_call8_v10, main_call8_v11, main_call8_c_3, main_call8_v12, main_call8_v13, main_call8_cst,
   main_call8_v14, main_v65, main_cst_15, main_v66, main_cst_16, main_v67, main_v68, main_cst_17, main_v69, main_v70,
   main_cst_18, main_v71, main_v72, main_v73, main_cst_19, main_v74, main_cst_20, main_v75, main_cst_21, main_v76, main_v77]

/-- Operation by operation, the line writes exactly these buffers. -/
theorem writes : WritesAre (ops (F := F)) ys := by writes_are

/-- Their indices are the consecutive numbers from 5 on. -/
theorem ys_idx : ys.map (fun r => r.idx.val) = List.range' 5 ys.length := by decide

/-- A buffer whose index is below `5 + k` is not written from position `k` on. -/
theorem nd (k : Nat) {r : Ref sig .tc} (hr : r.idx.val < 5 + k) : r ∉ ys.drop k :=
  not_mem_drop_of_idx_lt ys_idx k r hr

section
variable (m : (ℓ : Loc nD τ sig) → Buf (Elt F) ℓ) (c : Dev nD)

/-! ## The one-step equations, at this line, from the contents at the launch

In each, `hop` says which operation stands at position `k` (by computation on the literal list), the result buffer's
index is at most `5 + k` and every operand's is below `5 + k`. -/

/-- A constant. -/
theorem one_nullary (k : Nat) {y : Ref sig .tc} (v : y.ty.Contents (Elt F)) (hy0)
    (hop : (ops (F := F))[k]? = some (nullary y v hy0)) (hy : y.idx.val < 5 + (k + 1)) :
    after (ops (F := F)) (fun b => m (c, b)) (Proc.devRef .tc y) = v :=
  at_nullary writes k _ v hy0 hop (nd (k + 1) hy)

/-- One operand. -/
theorem one_unary (k : Nat) {x y : Ref sig .tc} (f : x.ty.Contents (Elt F) → y.ty.Contents (Elt F)) (hx0 hy0)
    (hop : (ops (F := F))[k]? = some (unary x y f hx0 hy0)) (hy : y.idx.val < 5 + (k + 1)) (hx : x.idx.val < 5 + k) :
    after (ops (F := F)) (fun b => m (c, b)) (Proc.devRef .tc y)
      = f (after (ops (F := F)) (fun b => m (c, b)) (Proc.devRef .tc x)) :=
  at_unary writes k _ f hx0 hy0 hop (nd (k + 1) hy) (nd k hx)

/-- Two operands. -/
theorem one_binary (k : Nat) {a b y : Ref sig .tc}
    (f : a.ty.Contents (Elt F) → b.ty.Contents (Elt F) → y.ty.Contents (Elt F)) (ha0 hb0 hy0)
    (hop : (ops (F := F))[k]? = some (binary a b y f ha0 hb0 hy0)) (hy : y.idx.val < 5 + (k + 1))
    (ha : a.idx.val < 5 + k) (hb : b.idx.val < 5 + k) :
    after (ops (F := F)) (fun b => m (c, b)) (Proc.devRef .tc y)
      = f (after (ops (F := F)) (fun b => m (c, b)) (Proc.devRef .tc a))
          (after (ops (F := F)) (fun b => m (c, b)) (Proc.devRef .tc b)) :=
  at_binary writes k _ f ha0 hb0 hy0 hop (nd (k + 1) hy) (nd k ha) (nd k hb)

/-- A constant, over typed references. -/
theorem one_lnullary (k : Nat) {y : Ref sig .tc} (hyd hys) (v : y.ty.Contents (Elt F))
    (hop : (ops (F := F))[k]? = some (TRef.nullary (TRef.of (T := y.ty) y rfl hyd hys) v))
    (hy : y.idx.val < 5 + (k + 1)) :
    after (ops (F := F)) (fun b => m (c, b)) (Proc.devRef .tc y) = v :=
  at_lnullary writes k _ hyd hys v hop (nd (k + 1) hy)

/-- One operand, over typed references. -/
theorem one_lunary (k : Nat) {x y : Ref sig .tc} (hxd hxs hyd hys)
    (f : x.ty.Contents (Elt F) → y.ty.Contents (Elt F))
    (hop : (ops (F := F))[k]? = some (TRef.unary (TRef.of (T := x.ty) x rfl hxd hxs) (TRef.of (T := y.ty) y rfl hyd hys) f))
    (hy : y.idx.val < 5 + (k + 1)) (hx : x.idx.val < 5 + k) :
    after (ops (F := F)) (fun b => m (c, b)) (Proc.devRef .tc y)
      = f (after (ops (F := F)) (fun b => m (c, b)) (Proc.devRef .tc x)) :=
  at_lunary writes k _ hxd hxs hyd hys f hop (nd (k + 1) hy) (nd k hx)

/-- Two operands, over typed references. -/
theorem one_lbinary (k : Nat) {a b y : Ref sig .tc} (had has hbd hbs hyd hys)
    (f : a.ty.Contents (Elt F) → b.ty.Contents (Elt F) → y.ty.Contents (Elt F))
    (hop : (ops (F := F))[k]? = some (TRef.binary (TRef.of (T := a.ty) a rfl had has) (TRef.of (T := b.ty) b rfl hbd hbs)
      (TRef.of (T := y.ty) y rfl hyd hys) f))
    (hy : y.idx.val < 5 + (k + 1)) (ha : a.idx.val < 5 + k) (hb : b.idx.val < 5 + k) :
    after (ops (F := F)) (fun b => m (c, b)) (Proc.devRef .tc y)
      = f (after (ops (F := F)) (fun b => m (c, b)) (Proc.devRef .tc a))
          (after (ops (F := F)) (fun b => m (c, b)) (Proc.devRef .tc b)) :=
  at_lbinary writes k _ had has hbd hbs hyd hys f hop (nd (k + 1) hy) (nd k ha) (nd k hb)

/-- Three operands, over typed references. -/
theorem one_lternary (k : Nat) {p a b y : Ref sig .tc} (hpd hps had has hbd hbs hyd hys)
    (f : p.ty.Contents (Elt F) → a.ty.Contents (Elt F) → b.ty.Contents (Elt F) → y.ty.Contents (Elt F))
    (hop : (ops (F := F))[k]? = some (TRef.ternary (TRef.of (T := p.ty) p rfl hpd hps) (TRef.of (T := a.ty) a rfl had has)
      (TRef.of (T := b.ty) b rfl hbd hbs) (TRef.of (T := y.ty) y rfl hyd hys) f))
    (hy : y.idx.val < 5 + (k + 1)) (hp : p.idx.val < 5 + k) (ha : a.idx.val < 5 + k) (hb : b.idx.val < 5 + k) :
    after (ops (F := F)) (fun b => m (c, b)) (Proc.devRef .tc y)
      = f (after (ops (F := F)) (fun b => m (c, b)) (Proc.devRef .tc p))
          (after (ops (F := F)) (fun b => m (c, b)) (Proc.devRef .tc a))
          (after (ops (F := F)) (fun b => m (c, b)) (Proc.devRef .tc b)) :=
  at_lternary writes k _ hpd hps had has hbd hbs hyd hys f hop (nd (k + 1) hy) (nd k hp) (nd k ha) (nd k hb)

/-! ## The arguments are never written -/

theorem st_main_arg0 :
    after (ops (F := F)) (fun b => m (c, b)) (Proc.devRef .tc main_arg0) = m ((c.tc : Thread nD τ).loc main_arg0) :=
  keeps writes _ main_arg0 (not_mem_of_idx_lt ys_idx _ (by decide))
theorem st_main_arg1 :
    after (ops (F := F)) (fun b => m (c, b)) (Proc.devRef .tc main_arg1) = m ((c.tc : Thread nD τ).loc main_arg1) :=
  keeps writes _ main_arg1 (not_mem_of_idx_lt ys_idx _ (by decide))
theorem st_main_arg2 :
    after (ops (F := F)) (fun b => m (c, b)) (Proc.devRef .tc main_arg2) = m ((c.tc : Thread nD τ).loc main_arg2) :=
  keeps writes _ main_arg2 (not_mem_of_idx_lt ys_idx _ (by decide))
theorem st_main_arg3 :
    after (ops (F := F)) (fun b => m (c, b)) (Proc.devRef .tc main_arg3) = m ((c.tc : Thread nD τ).loc main_arg3) :=
  keeps writes _ main_arg3 (not_mem_of_idx_lt ys_idx _ (by decide))
theorem st_main_arg4 :
    after (ops (F := F)) (fun b => m (c, b)) (Proc.devRef .tc main_arg4) = m ((c.tc : Thread nD τ).loc main_arg4) :=
  keeps writes _ main_arg4 (not_mem_of_idx_lt ys_idx _ (by decide))

end

end Cert.ReferenceIdeal.Stages

end
-- ==== Proof.RefStagesA.lean ====
import proofs.«418458_j50414326120960_1_alg».proof.Proof.RefStagesBase

/-!
# The reference program, stage by stage: the normalisation of `x`

The first thirty operations: the column means of `x`, the centred `x`, its column variances, the reciprocal
square root of the variance plus the small constant, and the affine map by `gamma` and `beta`. One lemma per
operation, in program order: after the whole line the buffer the operation writes holds the stage value, the
operation applied to the stage values of its operands, as a function of the launch contents of the arguments. Each
is the one-step equation at the operation's position, rewritten by the operands' lemmas; what is left is the stage
value's definition.
-/

noncomputable section

namespace Cert.ReferenceIdeal.Stages

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibStretch Cert.LibSsa

variable {F : FTy → Type} [FloatOps F]
variable (m : (ℓ : Loc nD τ sig) → Buf (Elt F) ℓ) (c : Dev nD)

/-! ## The column means -/

/-- The zero the column sums start from. -/
theorem st_main_cst :
    after (ops (F := F)) (fun b => m (c, b)) (Proc.devRef .tc main_cst) = val_main_cst (F := F) := by
  rw [one_nullary m c 0 _ _ rfl (by decide)]; rfl

/-- The column sums of `x`. -/
theorem st_main_v0 :
    after (ops (F := F)) (fun b => m (c, b)) (Proc.devRef .tc main_v0)
      = val_main_v0 (F := F) (m ((c.tc : Thread nD τ).loc main_arg0)) := by
  rw [one_binary m c 1 _ _ _ _ rfl (by decide) (by decide) (by decide), st_main_arg0 m c, st_main_cst m c]; rfl

/-- The number of rows. -/
theorem st_main_cst_0 :
    after (ops (F := F)) (fun b => m (c, b)) (Proc.devRef .tc main_cst_0) = val_main_cst_0 (F := F) := by
  rw [one_nullary m c 2 _ _ rfl (by decide)]; rfl

/-- … as a vector over the columns. -/
theorem st_main_v1 :
    after (ops (F := F)) (fun b => m (c, b)) (Proc.devRef .tc main_v1) = val_main_v1 (F := F) := by
  rw [one_unary m c 3 _ _ _ rfl (by decide) (by decide), st_main_cst_0 m c]; rfl

/-- The column means. -/
theorem st_main_v2 :
    after (ops (F := F)) (fun b => m (c, b)) (Proc.devRef .tc main_v2)
      = val_main_v2 (F := F) (m ((c.tc : Thread nD τ).loc main_arg0)) := by
  rw [one_binary m c 4 _ _ _ _ rfl (by decide) (by decide) (by decide), st_main_v0 m c, st_main_v1 m c]; rfl

/-- The means as a row. -/
theorem st_main_v3 :
    after (ops (F := F)) (fun b => m (c, b)) (Proc.devRef .tc main_v3)
      = val_main_v3 (F := F) (m ((c.tc : Thread nD τ).loc main_arg0)) := by
  rw [one_unary m c 5 _ _ _ rfl (by decide) (by decide), st_main_v2 m c]; rfl

/-- The means laid under every row. -/
theorem st_main_v4 :
    after (ops (F := F)) (fun b => m (c, b)) (Proc.devRef .tc main_v4)
      = val_main_v4 (F := F) (m ((c.tc : Thread nD τ).loc main_arg0)) := by
  rw [one_unary m c 6 _ _ _ rfl (by decide) (by decide), st_main_v3 m c]; rfl

/-! ## The column variances -/

/-- `x` centred. -/
theorem st_main_v5 :
    after (ops (F := F)) (fun b => m (c, b)) (Proc.devRef .tc main_v5)
      = val_main_v5 (F := F) (m ((c.tc : Thread nD τ).loc main_arg0)) := by
  rw [one_binary m c 7 _ _ _ _ rfl (by decide) (by decide) (by decide), st_main_arg0 m c, st_main_v4 m c]; rfl

/-- Its squares (both operands are the centred `x`). -/
theorem st_main_v6 :
    after (ops (F := F)) (fun b => m (c, b)) (Proc.devRef .tc main_v6)
      = val_main_v6 (F := F) (m ((c.tc : Thread nD τ).loc main_arg0)) := by
  rw [one_binary m c 8 _ _ _ _ rfl (by decide) (by decide) (by decide), st_main_v5 m c]; rfl

/-- The zero the sums of squares start from. -/
theorem st_main_cst_1 :
    after (ops (F := F)) (fun b => m (c, b)) (Proc.devRef .tc main_cst_1) = val_main_cst_1 (F := F) := by
  rw [one_nullary m c 9 _ _ rfl (by decide)]; rfl

/-- The column sums of the squares. -/
theorem st_main_v7 :
    after (ops (F := F)) (fun b => m (c, b)) (Proc.devRef .tc main_v7)
      = val_main_v7 (F := F) (m ((c.tc : Thread nD τ).loc main_arg0)) := by
  rw [one_binary m c 10 _ _ _ _ rfl (by decide) (by decide) (by decide), st_main_v6 m c, st_main_cst_1 m c]; rfl

/-- The number of rows, again. -/
theorem st_main_cst_2 :
    after (ops (F := F)) (fun b => m (c, b)) (Proc.devRef .tc main_cst_2) = val_main_cst_2 (F := F) := by
  rw [one_nullary m c 11 _ _ rfl (by decide)]; rfl

/-- … as a vector over the columns. -/
theorem st_main_v8 :
    after (ops (F := F)) (fun b => m (c, b)) (Proc.devRef .tc main_v8) = val_main_v8 (F := F) := by
  rw [one_unary m c 12 _ _ _ rfl (by decide) (by decide), st_main_cst_2 m c]; rfl

/-- The column variances. -/
theorem st_main_v9 :
    after (ops (F := F)) (fun b => m (c, b)) (Proc.devRef .tc main_v9)
      = val_main_v9 (F := F) (m ((c.tc : Thread nD τ).loc main_arg0)) := by
  rw [one_binary m c 13 _ _ _ _ rfl (by decide) (by decide) (by decide), st_main_v7 m c, st_main_v8 m c]; rfl

/-! ## The centred `x` once more, for the quotient -/

/-- The means as a row. -/
theorem st_main_v10 :
    after (ops (F := F)) (fun b => m (c, b)) (Proc.devRef .tc main_v10)
      = val_main_v10 (F := F) (m ((c.tc : Thread nD τ).loc main_arg0)) := by
  rw [one_unary m c 14 _ _ _ rfl (by decide) (by decide), st_main_v2 m c]; rfl

/-- The means laid under every row. -/
theorem st_main_v11 :
    after (ops (F := F)) (fun b => m (c, b)) (Proc.devRef .tc main_v11)
      = val_main_v11 (F := F) (m ((c.tc : Thread nD τ).loc main_arg0)) := by
  rw [one_unary m c 15 _ _ _ rfl (by decide) (by decide), st_main_v10 m c]; rfl

/-- `x` centred. -/
theorem st_main_v12 :
    after (ops (F := F)) (fun b => m (c, b)) (Proc.devRef .tc main_v12)
      = val_main_v12 (F := F) (m ((c.tc : Thread nD τ).loc main_arg0)) := by
  rw [one_binary m c 16 _ _ _ _ rfl (by decide) (by decide) (by decide), st_main_arg0 m c, st_main_v11 m c]; rfl

/-! ## The reciprocal standard deviation -/

/-- The small constant added to the variance. -/
theorem st_main_cst_3 :
    after (ops (F := F)) (fun b => m (c, b)) (Proc.devRef .tc main_cst_3) = val_main_cst_3 (F := F) := by
  rw [one_nullary m c 17 _ _ rfl (by decide)]; rfl

/-- … as a vector over the columns. -/
theorem st_main_v13 :
    after (ops (F := F)) (fun b => m (c, b)) (Proc.devRef .tc main_v13) = val_main_v13 (F := F) := by
  rw [one_unary m c 18 _ _ _ rfl (by decide) (by decide), st_main_cst_3 m c]; rfl

/-- The variance plus the small constant. -/
theorem st_main_v14 :
    after (ops (F := F)) (fun b => m (c, b)) (Proc.devRef .tc main_v14)
      = val_main_v14 (F := F) (m ((c.tc : Thread nD τ).loc main_arg0)) := by
  rw [one_binary m c 19 _ _ _ _ rfl (by decide) (by decide) (by decide), st_main_v9 m c, st_main_v13 m c]; rfl

/-- Its reciprocal square root. -/
theorem st_main_v15 :
    after (ops (F := F)) (fun b => m (c, b)) (Proc.devRef .tc main_v15)
      = val_main_v15 (F := F) (m ((c.tc : Thread nD τ).loc main_arg0)) := by
  rw [one_unary m c 20 _ _ _ rfl (by decide) (by decide), st_main_v14 m c]; rfl

/-- … as a row. -/
theorem st_main_v16 :
    after (ops (F := F)) (fun b => m (c, b)) (Proc.devRef .tc main_v16)
      = val_main_v16 (F := F) (m ((c.tc : Thread nD τ).loc main_arg0)) := by
  rw [one_unary m c 21 _ _ _ rfl (by decide) (by decide), st_main_v15 m c]; rfl

/-- … laid under every row. -/
theorem st_main_v17 :
    after (ops (F := F)) (fun b => m (c, b)) (Proc.devRef .tc main_v17)
      = val_main_v17 (F := F) (m ((c.tc : Thread nD τ).loc main_arg0)) := by
  rw [one_unary m c 22 _ _ _ rfl (by decide) (by decide), st_main_v16 m c]; rfl

/-- The standardised `x`. -/
theorem st_main_v18 :
    after (ops (F := F)) (fun b => m (c, b)) (Proc.devRef .tc main_v18)
      = val_main_v18 (F := F) (m ((c.tc : Thread nD τ).loc main_arg0)) := by
  rw [one_binary m c 23 _ _ _ _ rfl (by decide) (by decide) (by decide), st_main_v12 m c, st_main_v17 m c]; rfl

/-! ## The affine map -/

/-- `gamma` as a row. -/
theorem st_main_v19 :
    after (ops (F := F)) (fun b => m (c, b)) (Proc.devRef .tc main_v19)
      = val_main_v19 (F := F) (m ((c.tc : Thread nD τ).loc main_arg3)) := by
  rw [one_unary m c 24 _ _ _ rfl (by decide) (by decide), st_main_arg3 m c]; rfl

/-- `gamma` laid under every row. -/
theorem st_main_v20 :
    after (ops (F := F)) (fun b => m (c, b)) (Proc.devRef .tc main_v20)
      = val_main_v20 (F := F) (m ((c.tc : Thread nD τ).loc main_arg3)) := by
  rw [one_unary m c 25 _ _ _ rfl (by decide) (by decide), st_main_v19 m c]; rfl

/-- The standardised `x` scaled by `gamma`. -/
theorem st_main_v21 :
    after (ops (F := F)) (fun b => m (c, b)) (Proc.devRef .tc main_v21)
      = val_main_v21 (F := F) (m ((c.tc : Thread nD τ).loc main_arg0)) (m ((c.tc : Thread nD τ).loc main_arg3)) := by
  rw [one_binary m c 26 _ _ _ _ rfl (by decide) (by decide) (by decide), st_main_v18 m c, st_main_v20 m c]; rfl

/-- `beta` as a row. -/
theorem st_main_v22 :
    after (ops (F := F)) (fun b => m (c, b)) (Proc.devRef .tc main_v22)
      = val_main_v22 (F := F) (m ((c.tc : Thread nD τ).loc main_arg4)) := by
  rw [one_unary m c 27 _ _ _ rfl (by decide) (by decide), st_main_arg4 m c]; rfl

/-- `beta` laid under every row. -/
theorem st_main_v23 :
    after (ops (F := F)) (fun b => m (c, b)) (Proc.devRef .tc main_v23)
      = val_main_v23 (F := F) (m ((c.tc : Thread nD τ).loc main_arg4)) := by
  rw [one_unary m c 28 _ _ _ rfl (by decide) (by decide), st_main_v22 m c]; rfl

/-- The normalised `x`: scaled by `gamma`, shifted by `beta`. -/
theorem st_main_v24 :
    after (ops (F := F)) (fun b => m (c, b)) (Proc.devRef .tc main_v24)
      = val_main_v24 (F := F) (m ((c.tc : Thread nD τ).loc main_arg0)) (m ((c.tc : Thread nD τ).loc main_arg3))
          (m ((c.tc : Thread nD τ).loc main_arg4)) := by
  rw [one_binary m c 29 _ _ _ _ rfl (by decide) (by decide) (by decide), st_main_v21 m c, st_main_v23 m c]; rfl

end Cert.ReferenceIdeal.Stages

end
-- ==== Proof.RefStagesA2.lean ====
import proofs.«418458_j50414326120960_1_alg».proof.Proof.RefStagesA

/-!
  The reference program's run, stage by stage: from the rows' norms of the normalised features to the unit-norm
  features — the row norm and its clipping, the margin's angle with its cosine and sine, the weight's columns
  brought to unit norm, and the features' rows brought to unit norm.

  The program is a straight line in single-assignment form, so after the whole line each written buffer holds its
  operation applied to what its operand buffers hold after the whole line. Each equation below identifies one buffer's
  final contents with the stage function of the program's arguments: the one-step equation of its operation, the
  operands' equations, and the definition of the stage.
-/

set_option maxRecDepth 8192

noncomputable section

namespace Cert.ReferenceIdeal.Stages

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibStretch Cert.LibSsa

variable {F : FTy → Type} [FloatOps F]
variable (m : (ℓ : Loc nD τ sig) → Buf (Elt F) ℓ) (c : Dev nD)

set_option quotPrecheck false
/-- The launch contents of the device's buffers, and of the arguments the stages here depend on. -/
local notation "LV" => (fun b => m (c, b) : Valuation τ sig (Elt F))
local notation "A0" => m ((c.tc : Thread nD τ).loc main_arg0)
local notation "A2" => m ((c.tc : Thread nD τ).loc main_arg2)
local notation "A3" => m ((c.tc : Thread nD τ).loc main_arg3)
local notation "A4" => m ((c.tc : Thread nD τ).loc main_arg4)

/-! ## The rows' norms -/

-- the squares of the normalised features
theorem st_main_call0_v0 :
    after (ops (F := F)) LV (Proc.devRef .tc main_call0_v0) = val_main_call0_v0 (F := F) A0 A3 A4 := by
  rw [at_lbinary writes 30 _ (a := main_v24) (b := main_v24) (y := main_call0_v0) _ _ _ _ _ _ _ rfl
      (nd 31 (by decide)) (nd 30 (by decide)) (nd 30 (by decide)),
    st_main_v24 m c]; rfl

-- 0.0, the sum's initial value
theorem st_main_call0_cst :
    after (ops (F := F)) LV (Proc.devRef .tc main_call0_cst) = val_main_call0_cst (F := F) := by
  rw [at_lnullary writes 31 _ (y := main_call0_cst) _ _ _ rfl (nd 32 (by decide))]; rfl

-- each row's sum of squares
theorem st_main_call0_v1 :
    after (ops (F := F)) LV (Proc.devRef .tc main_call0_v1) = val_main_call0_v1 (F := F) A0 A3 A4 := by
  rw [at_lbinary writes 32 _ (a := main_call0_v0) (b := main_call0_cst) (y := main_call0_v1) _ _ _ _ _ _ _ rfl
      (nd 33 (by decide)) (nd 32 (by decide)) (nd 32 (by decide)),
    st_main_call0_v0 m c, st_main_call0_cst m c]; rfl

-- as a column
theorem st_main_call0_v2 :
    after (ops (F := F)) LV (Proc.devRef .tc main_call0_v2) = val_main_call0_v2 (F := F) A0 A3 A4 := by
  rw [at_lunary writes 33 _ (x := main_call0_v1) (y := main_call0_v2) _ _ _ _ _ rfl (nd 34 (by decide)) (nd 33 (by decide)),
    st_main_call0_v1 m c]; rfl

-- its square root: each row's norm
theorem st_main_v25 :
    after (ops (F := F)) LV (Proc.devRef .tc main_v25) = val_main_v25 (F := F) A0 A3 A4 := by
  rw [at_lunary writes 34 _ (x := main_call0_v2) (y := main_v25) _ _ _ _ _ rfl (nd 35 (by decide)) (nd 34 (by decide)),
    st_main_call0_v2 m c]; rfl

/-! ## The norm clipped to [10, 110] -/

-- 10.0
theorem st_main_cst_4 :
    after (ops (F := F)) LV (Proc.devRef .tc main_cst_4) = val_main_cst_4 (F := F) := by
  rw [at_nullary writes 35 _ (y := main_cst_4) _ _ rfl (nd 36 (by decide))]; rfl

-- 110.0
theorem st_main_cst_5 :
    after (ops (F := F)) LV (Proc.devRef .tc main_cst_5) = val_main_cst_5 (F := F) := by
  rw [at_nullary writes 36 _ (y := main_cst_5) _ _ rfl (nd 37 (by decide))]; rfl

-- the lower bound, converted (the identity)
theorem st_main_call1_v0 :
    after (ops (F := F)) LV (Proc.devRef .tc main_call1_v0) = val_main_call1_v0 (F := F) := by
  rw [at_lunary writes 37 _ (x := main_cst_4) (y := main_call1_v0) _ _ _ _ _ rfl (nd 38 (by decide)) (nd 37 (by decide)),
    st_main_cst_4 m c]; rfl

-- the lower bound, as a column
theorem st_main_call1_v1 :
    after (ops (F := F)) LV (Proc.devRef .tc main_call1_v1) = val_main_call1_v1 (F := F) := by
  rw [at_lunary writes 38 _ (x := main_call1_v0) (y := main_call1_v1) _ _ _ _ _ rfl (nd 39 (by decide)) (nd 38 (by decide)),
    st_main_call1_v0 m c]; rfl

-- the greater of the lower bound and the norm
theorem st_main_call1_v2 :
    after (ops (F := F)) LV (Proc.devRef .tc main_call1_v2) = val_main_call1_v2 (F := F) A0 A3 A4 := by
  rw [at_lbinary writes 39 _ (a := main_call1_v1) (b := main_v25) (y := main_call1_v2) _ _ _ _ _ _ _ rfl
      (nd 40 (by decide)) (nd 39 (by decide)) (nd 39 (by decide)),
    st_main_call1_v1 m c, st_main_v25 m c]; rfl

-- the upper bound, converted (the identity)
theorem st_main_call1_v3 :
    after (ops (F := F)) LV (Proc.devRef .tc main_call1_v3) = val_main_call1_v3 (F := F) := by
  rw [at_lunary writes 40 _ (x := main_cst_5) (y := main_call1_v3) _ _ _ _ _ rfl (nd 41 (by decide)) (nd 40 (by decide)),
    st_main_cst_5 m c]; rfl

-- the upper bound, as a column
theorem st_main_call1_v4 :
    after (ops (F := F)) LV (Proc.devRef .tc main_call1_v4) = val_main_call1_v4 (F := F) := by
  rw [at_lunary writes 41 _ (x := main_call1_v3) (y := main_call1_v4) _ _ _ _ _ rfl (nd 42 (by decide)) (nd 41 (by decide)),
    st_main_call1_v3 m c]; rfl

-- the lesser of the upper bound and that: the clipped norm
theorem st_main_v26 :
    after (ops (F := F)) LV (Proc.devRef .tc main_v26) = val_main_v26 (F := F) A0 A3 A4 := by
  rw [at_lbinary writes 42 _ (a := main_call1_v4) (b := main_call1_v2) (y := main_v26) _ _ _ _ _ _ _ rfl
      (nd 43 (by decide)) (nd 42 (by decide)) (nd 42 (by decide)),
    st_main_call1_v4 m c, st_main_call1_v2 m c]; rfl

/-! ## The margin's angle, an affine function of the clipped norm, and its cosine and sine -/

-- 10.0
theorem st_main_cst_6 :
    after (ops (F := F)) LV (Proc.devRef .tc main_cst_6) = val_main_cst_6 (F := F) := by
  rw [at_nullary writes 43 _ (y := main_cst_6) _ _ rfl (nd 44 (by decide))]; rfl

-- as a column
theorem st_main_v27 :
    after (ops (F := F)) LV (Proc.devRef .tc main_v27) = val_main_v27 (F := F) := by
  rw [at_unary writes 44 _ (x := main_cst_6) (y := main_v27) _ _ _ rfl (nd 45 (by decide)) (nd 44 (by decide)),
    st_main_cst_6 m c]; rfl

-- the clipped norm less 10
theorem st_main_v28 :
    after (ops (F := F)) LV (Proc.devRef .tc main_v28) = val_main_v28 (F := F) A0 A3 A4 := by
  rw [at_binary writes 45 _ (a := main_v26) (b := main_v27) (y := main_v28) _ _ _ _ rfl
      (nd 46 (by decide)) (nd 45 (by decide)) (nd 45 (by decide)),
    st_main_v26 m c, st_main_v27 m c]; rfl

-- the slope
theorem st_main_cst_7 :
    after (ops (F := F)) LV (Proc.devRef .tc main_cst_7) = val_main_cst_7 (F := F) := by
  rw [at_nullary writes 46 _ (y := main_cst_7) _ _ rfl (nd 47 (by decide))]; rfl

-- as a column
theorem st_main_v29 :
    after (ops (F := F)) LV (Proc.devRef .tc main_v29) = val_main_v29 (F := F) := by
  rw [at_unary writes 47 _ (x := main_cst_7) (y := main_v29) _ _ _ rfl (nd 48 (by decide)) (nd 47 (by decide)),
    st_main_cst_7 m c]; rfl

-- the slope times that
theorem st_main_v30 :
    after (ops (F := F)) LV (Proc.devRef .tc main_v30) = val_main_v30 (F := F) A0 A3 A4 := by
  rw [at_binary writes 48 _ (a := main_v29) (b := main_v28) (y := main_v30) _ _ _ _ rfl
      (nd 49 (by decide)) (nd 48 (by decide)) (nd 48 (by decide)),
    st_main_v29 m c, st_main_v28 m c]; rfl

-- the offset
theorem st_main_cst_8 :
    after (ops (F := F)) LV (Proc.devRef .tc main_cst_8) = val_main_cst_8 (F := F) := by
  rw [at_nullary writes 49 _ (y := main_cst_8) _ _ rfl (nd 50 (by decide))]; rfl

-- as a column
theorem st_main_v31 :
    after (ops (F := F)) LV (Proc.devRef .tc main_v31) = val_main_v31 (F := F) := by
  rw [at_unary writes 50 _ (x := main_cst_8) (y := main_v31) _ _ _ rfl (nd 51 (by decide)) (nd 50 (by decide)),
    st_main_cst_8 m c]; rfl

-- the angle
theorem st_main_v32 :
    after (ops (F := F)) LV (Proc.devRef .tc main_v32) = val_main_v32 (F := F) A0 A3 A4 := by
  rw [at_binary writes 51 _ (a := main_v30) (b := main_v31) (y := main_v32) _ _ _ _ rfl
      (nd 52 (by decide)) (nd 51 (by decide)) (nd 51 (by decide)),
    st_main_v30 m c, st_main_v31 m c]; rfl

-- its cosine
theorem st_main_v33 :
    after (ops (F := F)) LV (Proc.devRef .tc main_v33) = val_main_v33 (F := F) A0 A3 A4 := by
  rw [at_unary writes 52 _ (x := main_v32) (y := main_v33) _ _ _ rfl (nd 53 (by decide)) (nd 52 (by decide)),
    st_main_v32 m c]; rfl

-- its sine
theorem st_main_v34 :
    after (ops (F := F)) LV (Proc.devRef .tc main_v34) = val_main_v34 (F := F) A0 A3 A4 := by
  rw [at_unary writes 53 _ (x := main_v32) (y := main_v34) _ _ _ rfl (nd 54 (by decide)) (nd 53 (by decide)),
    st_main_v32 m c]; rfl

/-! ## The weight's columns at unit norm -/

-- the squares of the weight
theorem st_main_call2_v0 :
    after (ops (F := F)) LV (Proc.devRef .tc main_call2_v0) = val_main_call2_v0 (F := F) A2 := by
  rw [at_lbinary writes 54 _ (a := main_arg2) (b := main_arg2) (y := main_call2_v0) _ _ _ _ _ _ _ rfl
      (nd 55 (by decide)) (nd 54 (by decide)) (nd 54 (by decide)),
    st_main_arg2 m c]; rfl

-- 0.0, the sum's initial value
theorem st_main_call2_cst :
    after (ops (F := F)) LV (Proc.devRef .tc main_call2_cst) = val_main_call2_cst (F := F) := by
  rw [at_lnullary writes 55 _ (y := main_call2_cst) _ _ _ rfl (nd 56 (by decide))]; rfl

-- each column's sum of squares
theorem st_main_call2_v1 :
    after (ops (F := F)) LV (Proc.devRef .tc main_call2_v1) = val_main_call2_v1 (F := F) A2 := by
  rw [at_lbinary writes 56 _ (a := main_call2_v0) (b := main_call2_cst) (y := main_call2_v1) _ _ _ _ _ _ _ rfl
      (nd 57 (by decide)) (nd 56 (by decide)) (nd 56 (by decide)),
    st_main_call2_v0 m c, st_main_call2_cst m c]; rfl

-- as a row
theorem st_main_call2_v2 :
    after (ops (F := F)) LV (Proc.devRef .tc main_call2_v2) = val_main_call2_v2 (F := F) A2 := by
  rw [at_lunary writes 57 _ (x := main_call2_v1) (y := main_call2_v2) _ _ _ _ _ rfl (nd 58 (by decide)) (nd 57 (by decide)),
    st_main_call2_v1 m c]; rfl

-- its square root: each column's norm
theorem st_main_v35 :
    after (ops (F := F)) LV (Proc.devRef .tc main_v35) = val_main_v35 (F := F) A2 := by
  rw [at_lunary writes 58 _ (x := main_call2_v2) (y := main_v35) _ _ _ _ _ rfl (nd 59 (by decide)) (nd 58 (by decide)),
    st_main_call2_v2 m c]; rfl

-- repeated down the rows
theorem st_main_v36 :
    after (ops (F := F)) LV (Proc.devRef .tc main_v36) = val_main_v36 (F := F) A2 := by
  rw [at_unary writes 59 _ (x := main_v35) (y := main_v36) _ _ _ rfl (nd 60 (by decide)) (nd 59 (by decide)),
    st_main_v35 m c]; rfl

-- the weight over its columns' norms
theorem st_main_v37 :
    after (ops (F := F)) LV (Proc.devRef .tc main_v37) = val_main_v37 (F := F) A2 := by
  rw [at_binary writes 60 _ (a := main_arg2) (b := main_v36) (y := main_v37) _ _ _ _ rfl
      (nd 61 (by decide)) (nd 60 (by decide)) (nd 60 (by decide)),
    st_main_arg2 m c, st_main_v36 m c]; rfl

/-! ## The features' rows at unit norm -/

-- the squares of the normalised features
theorem st_main_call3_v0 :
    after (ops (F := F)) LV (Proc.devRef .tc main_call3_v0) = val_main_call3_v0 (F := F) A0 A3 A4 := by
  rw [at_lbinary writes 61 _ (a := main_v24) (b := main_v24) (y := main_call3_v0) _ _ _ _ _ _ _ rfl
      (nd 62 (by decide)) (nd 61 (by decide)) (nd 61 (by decide)),
    st_main_v24 m c]; rfl

-- 0.0, the sum's initial value
theorem st_main_call3_cst :
    after (ops (F := F)) LV (Proc.devRef .tc main_call3_cst) = val_main_call3_cst (F := F) := by
  rw [at_lnullary writes 62 _ (y := main_call3_cst) _ _ _ rfl (nd 63 (by decide))]; rfl

-- each row's sum of squares
theorem st_main_call3_v1 :
    after (ops (F := F)) LV (Proc.devRef .tc main_call3_v1) = val_main_call3_v1 (F := F) A0 A3 A4 := by
  rw [at_lbinary writes 63 _ (a := main_call3_v0) (b := main_call3_cst) (y := main_call3_v1) _ _ _ _ _ _ _ rfl
      (nd 64 (by decide)) (nd 63 (by decide)) (nd 63 (by decide)),
    st_main_call3_v0 m c, st_main_call3_cst m c]; rfl

-- as a column
theorem st_main_call3_v2 :
    after (ops (F := F)) LV (Proc.devRef .tc main_call3_v2) = val_main_call3_v2 (F := F) A0 A3 A4 := by
  rw [at_lunary writes 64 _ (x := main_call3_v1) (y := main_call3_v2) _ _ _ _ _ rfl (nd 65 (by decide)) (nd 64 (by decide)),
    st_main_call3_v1 m c]; rfl

-- its square root: each row's norm
theorem st_main_v38 :
    after (ops (F := F)) LV (Proc.devRef .tc main_v38) = val_main_v38 (F := F) A0 A3 A4 := by
  rw [at_lunary writes 65 _ (x := main_call3_v2) (y := main_v38) _ _ _ _ _ rfl (nd 66 (by decide)) (nd 65 (by decide)),
    st_main_call3_v2 m c]; rfl

-- repeated along the rows
theorem st_main_v39 :
    after (ops (F := F)) LV (Proc.devRef .tc main_v39) = val_main_v39 (F := F) A0 A3 A4 := by
  rw [at_unary writes 66 _ (x := main_v38) (y := main_v39) _ _ _ rfl (nd 67 (by decide)) (nd 66 (by decide)),
    st_main_v38 m c]; rfl

-- the normalised features over their rows' norms
theorem st_main_v40 :
    after (ops (F := F)) LV (Proc.devRef .tc main_v40) = val_main_v40 (F := F) A0 A3 A4 := by
  rw [at_binary writes 67 _ (a := main_v24) (b := main_v39) (y := main_v40) _ _ _ _ rfl
      (nd 68 (by decide)) (nd 67 (by decide)) (nd 67 (by decide)),
    st_main_v24 m c, st_main_v39 m c]; rfl

end Cert.ReferenceIdeal.Stages

end
-- ==== Proof.RefStagesB.lean ====
import proofs.«418458_j50414326120960_1_alg».proof.Proof.RefStagesA2

/-!
  The reference program's run, stage by stage: the buffers from the matrix product to the logits.

  The program is a straight line in single-assignment form, so after the whole line each written buffer holds its
  operation applied to what its operand buffers hold after the whole line. Each equation below identifies one buffer's
  final contents with the stage function of the program's arguments: the one-step equation of its operation, the
  operands' equations, and the definition of the stage.
-/

set_option maxRecDepth 8192

noncomputable section

namespace Cert.ReferenceIdeal.Stages

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibStretch Cert.LibSsa

variable {F : FTy → Type} [FloatOps F]
variable (m : (ℓ : Loc nD τ sig) → Buf (Elt F) ℓ) (c : Dev nD)

set_option quotPrecheck false
/-- The launch contents of the device's buffers, and of the five arguments. -/
local notation "LV" => (fun b => m (c, b) : Valuation τ sig (Elt F))
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)

-- %41 = dot_general %40, %37
theorem st_main_v41 :
    after (ops (F := F)) LV (Proc.devRef .tc main_v41) = val_main_v41 (F := F) A0 A2 A3 A4 := by
  rw [at_binary writes 68 _ (a := main_v40) (b := main_v37) (y := main_v41) _ _ _ _ rfl (nd 69 (by decide)) (nd 68 (by decide)) (nd 68 (by decide)),
    st_main_v40 m c, st_main_v37 m c]; rfl

-- %cst_9 = -1.0
theorem st_main_cst_9 :
    after (ops (F := F)) LV (Proc.devRef .tc main_cst_9) = val_main_cst_9 (F := F) := by
  rw [at_nullary writes 69 _ (y := main_cst_9) _ _ rfl (nd 70 (by decide))]; rfl

-- %cst_10 = 1.0
theorem st_main_cst_10 :
    after (ops (F := F)) LV (Proc.devRef .tc main_cst_10) = val_main_cst_10 (F := F) := by
  rw [at_nullary writes 70 _ (y := main_cst_10) _ _ rfl (nd 71 (by decide))]; rfl

-- @clip_1's %0 = convert %arg1
theorem st_main_call4_v0 :
    after (ops (F := F)) LV (Proc.devRef .tc main_call4_v0) = val_main_call4_v0 (F := F) := by
  rw [at_lunary writes 71 _ (x := main_cst_9) (y := main_call4_v0) _ _ _ _ _ rfl (nd 72 (by decide)) (nd 71 (by decide)),
    st_main_cst_9 m c]; rfl

-- @clip_1's %1 = broadcast %0
theorem st_main_call4_v1 :
    after (ops (F := F)) LV (Proc.devRef .tc main_call4_v1) = val_main_call4_v1 (F := F) := by
  rw [at_lunary writes 72 _ (x := main_call4_v0) (y := main_call4_v1) _ _ _ _ _ rfl (nd 73 (by decide)) (nd 72 (by decide)),
    st_main_call4_v0 m c]; rfl

-- @clip_1's %2 = maximum %1, %arg0
theorem st_main_call4_v2 :
    after (ops (F := F)) LV (Proc.devRef .tc main_call4_v2) = val_main_call4_v2 (F := F) A0 A2 A3 A4 := by
  rw [at_lbinary writes 73 _ (a := main_call4_v1) (b := main_v41) (y := main_call4_v2) _ _ _ _ _ _ _ rfl
      (nd 74 (by decide)) (nd 73 (by decide)) (nd 73 (by decide)),
    st_main_call4_v1 m c, st_main_v41 m c]; rfl

-- @clip_1's %3 = convert %arg2
theorem st_main_call4_v3 :
    after (ops (F := F)) LV (Proc.devRef .tc main_call4_v3) = val_main_call4_v3 (F := F) := by
  rw [at_lunary writes 74 _ (x := main_cst_10) (y := main_call4_v3) _ _ _ _ _ rfl (nd 75 (by decide)) (nd 74 (by decide)),
    st_main_cst_10 m c]; rfl

-- @clip_1's %4 = broadcast %3
theorem st_main_call4_v4 :
    after (ops (F := F)) LV (Proc.devRef .tc main_call4_v4) = val_main_call4_v4 (F := F) := by
  rw [at_lunary writes 75 _ (x := main_call4_v3) (y := main_call4_v4) _ _ _ _ _ rfl (nd 76 (by decide)) (nd 75 (by decide)),
    st_main_call4_v3 m c]; rfl

-- %42 = @clip_1's minimum %4, %2
theorem st_main_v42 :
    after (ops (F := F)) LV (Proc.devRef .tc main_v42) = val_main_v42 (F := F) A0 A2 A3 A4 := by
  rw [at_lbinary writes 76 _ (a := main_call4_v4) (b := main_call4_v2) (y := main_v42) _ _ _ _ _ _ _ rfl
      (nd 77 (by decide)) (nd 76 (by decide)) (nd 76 (by decide)),
    st_main_call4_v4 m c, st_main_call4_v2 m c]; rfl

-- %43 = multiply %42, %42
theorem st_main_v43 :
    after (ops (F := F)) LV (Proc.devRef .tc main_v43) = val_main_v43 (F := F) A0 A2 A3 A4 := by
  rw [at_binary writes 77 _ (a := main_v42) (b := main_v42) (y := main_v43) _ _ _ _ rfl (nd 78 (by decide)) (nd 77 (by decide)) (nd 77 (by decide)),
    st_main_v42 m c]; rfl

-- %cst_11 = 1.0
theorem st_main_cst_11 :
    after (ops (F := F)) LV (Proc.devRef .tc main_cst_11) = val_main_cst_11 (F := F) := by
  rw [at_nullary writes 78 _ (y := main_cst_11) _ _ rfl (nd 79 (by decide))]; rfl

-- %44 = broadcast %cst_11
theorem st_main_v44 :
    after (ops (F := F)) LV (Proc.devRef .tc main_v44) = val_main_v44 (F := F) := by
  rw [at_unary writes 79 _ (x := main_cst_11) (y := main_v44) _ _ _ rfl (nd 80 (by decide)) (nd 79 (by decide)), st_main_cst_11 m c]; rfl

-- %45 = subtract %44, %43
theorem st_main_v45 :
    after (ops (F := F)) LV (Proc.devRef .tc main_v45) = val_main_v45 (F := F) A0 A2 A3 A4 := by
  rw [at_binary writes 80 _ (a := main_v44) (b := main_v43) (y := main_v45) _ _ _ _ rfl (nd 81 (by decide)) (nd 80 (by decide)) (nd 80 (by decide)),
    st_main_v44 m c, st_main_v43 m c]; rfl

-- %46 = sqrt %45
theorem st_main_v46 :
    after (ops (F := F)) LV (Proc.devRef .tc main_v46) = val_main_v46 (F := F) A0 A2 A3 A4 := by
  rw [at_unary writes 81 _ (x := main_v45) (y := main_v46) _ _ _ rfl (nd 82 (by decide)) (nd 81 (by decide)), st_main_v45 m c]; rfl

-- %47 = broadcast %33
theorem st_main_v47 :
    after (ops (F := F)) LV (Proc.devRef .tc main_v47) = val_main_v47 (F := F) A0 A3 A4 := by
  rw [at_unary writes 82 _ (x := main_v33) (y := main_v47) _ _ _ rfl (nd 83 (by decide)) (nd 82 (by decide)), st_main_v33 m c]; rfl

-- %48 = multiply %42, %47
theorem st_main_v48 :
    after (ops (F := F)) LV (Proc.devRef .tc main_v48) = val_main_v48 (F := F) A0 A2 A3 A4 := by
  rw [at_binary writes 83 _ (a := main_v42) (b := main_v47) (y := main_v48) _ _ _ _ rfl (nd 84 (by decide)) (nd 83 (by decide)) (nd 83 (by decide)),
    st_main_v42 m c, st_main_v47 m c]; rfl

-- %49 = broadcast %34
theorem st_main_v49 :
    after (ops (F := F)) LV (Proc.devRef .tc main_v49) = val_main_v49 (F := F) A0 A3 A4 := by
  rw [at_unary writes 84 _ (x := main_v34) (y := main_v49) _ _ _ rfl (nd 85 (by decide)) (nd 84 (by decide)), st_main_v34 m c]; rfl

-- %50 = multiply %46, %49
theorem st_main_v50 :
    after (ops (F := F)) LV (Proc.devRef .tc main_v50) = val_main_v50 (F := F) A0 A2 A3 A4 := by
  rw [at_binary writes 85 _ (a := main_v46) (b := main_v49) (y := main_v50) _ _ _ _ rfl (nd 86 (by decide)) (nd 85 (by decide)) (nd 85 (by decide)),
    st_main_v46 m c, st_main_v49 m c]; rfl

-- %51 = subtract %48, %50
theorem st_main_v51 :
    after (ops (F := F)) LV (Proc.devRef .tc main_v51) = val_main_v51 (F := F) A0 A2 A3 A4 := by
  rw [at_binary writes 86 _ (a := main_v48) (b := main_v50) (y := main_v51) _ _ _ _ rfl (nd 87 (by decide)) (nd 86 (by decide)) (nd 86 (by decide)),
    st_main_v48 m c, st_main_v50 m c]; rfl

-- %cst_12 = 0.0
theorem st_main_cst_12 :
    after (ops (F := F)) LV (Proc.devRef .tc main_cst_12) = val_main_cst_12 (F := F) := by
  rw [at_nullary writes 87 _ (y := main_cst_12) _ _ rfl (nd 88 (by decide))]; rfl

-- %52 = broadcast %cst_12
theorem st_main_v52 :
    after (ops (F := F)) LV (Proc.devRef .tc main_v52) = val_main_v52 (F := F) := by
  rw [at_unary writes 88 _ (x := main_cst_12) (y := main_v52) _ _ _ rfl (nd 89 (by decide)) (nd 88 (by decide)), st_main_cst_12 m c]; rfl

-- %53 = compare GT, %42, %52
theorem st_main_v53 :
    after (ops (F := F)) LV (Proc.devRef .tc main_v53) = val_main_v53 (F := F) A0 A2 A3 A4 := by
  rw [at_binary writes 89 _ (a := main_v42) (b := main_v52) (y := main_v53) _ _ _ _ rfl (nd 90 (by decide)) (nd 89 (by decide)) (nd 89 (by decide)),
    st_main_v42 m c, st_main_v52 m c]; rfl

-- %54 = @_where's select %53, %51, %42
theorem st_main_v54 :
    after (ops (F := F)) LV (Proc.devRef .tc main_v54) = val_main_v54 (F := F) A0 A2 A3 A4 := by
  rw [at_lternary writes 90 _ (c := main_v53) (a := main_v51) (b := main_v42) (y := main_v54) _ _ _ _ _ _ _ _ _ rfl
      (nd 91 (by decide)) (nd 90 (by decide)) (nd 90 (by decide)) (nd 90 (by decide)),
    st_main_v53 m c, st_main_v51 m c, st_main_v42 m c]; rfl

-- @_one_hot's %0 = broadcast %arg0
theorem st_main_call6_v0 :
    after (ops (F := F)) LV (Proc.devRef .tc main_call6_v0) = val_main_call6_v0 (F := F) A1 := by
  rw [at_lunary writes 91 _ (x := main_arg1) (y := main_call6_v0) _ _ _ _ _ rfl (nd 92 (by decide)) (nd 91 (by decide)),
    st_main_arg1 m c]; rfl

-- @_one_hot's %1 = iota
theorem st_main_call6_v1 :
    after (ops (F := F)) LV (Proc.devRef .tc main_call6_v1) = val_main_call6_v1 (F := F) := by
  rw [at_lnullary writes 92 _ (y := main_call6_v1) _ _ _ rfl (nd 93 (by decide))]; rfl

-- @_one_hot's %2 = broadcast %0
theorem st_main_call6_v2 :
    after (ops (F := F)) LV (Proc.devRef .tc main_call6_v2) = val_main_call6_v2 (F := F) A1 := by
  rw [at_lunary writes 93 _ (x := main_call6_v0) (y := main_call6_v2) _ _ _ _ _ rfl (nd 94 (by decide)) (nd 93 (by decide)),
    st_main_call6_v0 m c]; rfl

-- @_one_hot's %3 = broadcast %1
theorem st_main_call6_v3 :
    after (ops (F := F)) LV (Proc.devRef .tc main_call6_v3) = val_main_call6_v3 (F := F) := by
  rw [at_lunary writes 94 _ (x := main_call6_v1) (y := main_call6_v3) _ _ _ _ _ rfl (nd 95 (by decide)) (nd 94 (by decide)),
    st_main_call6_v1 m c]; rfl

-- @_one_hot's %4 = compare EQ, %2, %3
theorem st_main_call6_v4 :
    after (ops (F := F)) LV (Proc.devRef .tc main_call6_v4) = val_main_call6_v4 (F := F) A1 := by
  rw [at_lbinary writes 95 _ (a := main_call6_v2) (b := main_call6_v3) (y := main_call6_v4) _ _ _ _ _ _ _ rfl
      (nd 96 (by decide)) (nd 95 (by decide)) (nd 95 (by decide)),
    st_main_call6_v2 m c, st_main_call6_v3 m c]; rfl

-- %55 = @_one_hot's convert %4
theorem st_main_v55 :
    after (ops (F := F)) LV (Proc.devRef .tc main_v55) = val_main_v55 (F := F) A1 := by
  rw [at_lunary writes 96 _ (x := main_call6_v4) (y := main_v55) _ _ _ _ _ rfl (nd 97 (by decide)) (nd 96 (by decide)),
    st_main_call6_v4 m c]; rfl

-- %56 = multiply %55, %54
theorem st_main_v56 :
    after (ops (F := F)) LV (Proc.devRef .tc main_v56) = val_main_v56 (F := F) A0 A1 A2 A3 A4 := by
  rw [at_binary writes 97 _ (a := main_v55) (b := main_v54) (y := main_v56) _ _ _ _ rfl (nd 98 (by decide)) (nd 97 (by decide)) (nd 97 (by decide)),
    st_main_v55 m c, st_main_v54 m c]; rfl

-- %cst_13 = 1.0
theorem st_main_cst_13 :
    after (ops (F := F)) LV (Proc.devRef .tc main_cst_13) = val_main_cst_13 (F := F) := by
  rw [at_nullary writes 98 _ (y := main_cst_13) _ _ rfl (nd 99 (by decide))]; rfl

-- %57 = broadcast %cst_13
theorem st_main_v57 :
    after (ops (F := F)) LV (Proc.devRef .tc main_v57) = val_main_v57 (F := F) := by
  rw [at_unary writes 99 _ (x := main_cst_13) (y := main_v57) _ _ _ rfl (nd 100 (by decide)) (nd 99 (by decide)), st_main_cst_13 m c]; rfl

-- %58 = subtract %57, %55
theorem st_main_v58 :
    after (ops (F := F)) LV (Proc.devRef .tc main_v58) = val_main_v58 (F := F) A1 := by
  rw [at_binary writes 100 _ (a := main_v57) (b := main_v55) (y := main_v58) _ _ _ _ rfl (nd 101 (by decide)) (nd 100 (by decide)) (nd 100 (by decide)),
    st_main_v57 m c, st_main_v55 m c]; rfl

-- %59 = multiply %58, %42
theorem st_main_v59 :
    after (ops (F := F)) LV (Proc.devRef .tc main_v59) = val_main_v59 (F := F) A0 A1 A2 A3 A4 := by
  rw [at_binary writes 101 _ (a := main_v58) (b := main_v42) (y := main_v59) _ _ _ _ rfl (nd 102 (by decide)) (nd 101 (by decide)) (nd 101 (by decide)),
    st_main_v58 m c, st_main_v42 m c]; rfl

-- %60 = add %56, %59
theorem st_main_v60 :
    after (ops (F := F)) LV (Proc.devRef .tc main_v60) = val_main_v60 (F := F) A0 A1 A2 A3 A4 := by
  rw [at_binary writes 102 _ (a := main_v56) (b := main_v59) (y := main_v60) _ _ _ _ rfl (nd 103 (by decide)) (nd 102 (by decide)) (nd 102 (by decide)),
    st_main_v56 m c, st_main_v59 m c]; rfl

-- %cst_14 = 64.0
theorem st_main_cst_14 :
    after (ops (F := F)) LV (Proc.devRef .tc main_cst_14) = val_main_cst_14 (F := F) := by
  rw [at_nullary writes 103 _ (y := main_cst_14) _ _ rfl (nd 104 (by decide))]; rfl

-- %61 = broadcast %cst_14
theorem st_main_v61 :
    after (ops (F := F)) LV (Proc.devRef .tc main_v61) = val_main_v61 (F := F) := by
  rw [at_unary writes 104 _ (x := main_cst_14) (y := main_v61) _ _ _ rfl (nd 105 (by decide)) (nd 104 (by decide)), st_main_cst_14 m c]; rfl

-- %62 = multiply %61, %60: THE LOGITS
theorem st_main_v62 :
    after (ops (F := F)) LV (Proc.devRef .tc main_v62) = val_main_v62 (F := F) A0 A1 A2 A3 A4 := by
  rw [at_binary writes 105 _ (a := main_v61) (b := main_v60) (y := main_v62) _ _ _ _ rfl (nd 106 (by decide)) (nd 105 (by decide)) (nd 105 (by decide)),
    st_main_v61 m c, st_main_v60 m c]; rfl

end Cert.ReferenceIdeal.Stages

end
-- ==== Proof.RefStagesC.lean ====
import proofs.«418458_j50414326120960_1_alg».proof.Proof.RefStagesB

/-!
  The reference program's run, stage by stage: from the row-wise log-softmax of the logits to the loss.

  The program is a straight line in single-assignment form, so after the whole line each written buffer holds its
  operation applied to what its operand buffers hold after the whole line. Each equation below identifies one buffer's
  final contents with the stage function of the program's arguments: the one-step equation of its operation, the
  operands' equations, and the definition of the stage. This file does the last 57 buffers: the log-softmax of the
  logits, the gather of the target column's log-probability, its mean and sign, and the norm penalty added to it.
-/

set_option maxRecDepth 8192

noncomputable section

namespace Cert.ReferenceIdeal.Stages

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibStretch Cert.LibSsa

variable {F : FTy → Type} [FloatOps F]
variable (m : (ℓ : Loc nD τ sig) → Buf (Elt F) ℓ) (c : Dev nD)

set_option quotPrecheck false
/-- The launch contents of the device's buffers, and of the five arguments. -/
local notation "LV" => (fun b => m (c, b) : Valuation τ sig (Elt F))
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)

/-! ## The row-wise log-softmax of the logits -/

-- the starting value of the row maximum: -∞
theorem st_main_call7_cst :
    after (ops (F := F)) LV (Proc.devRef .tc main_call7_cst) = val_main_call7_cst (F := F) := by
  rw [at_lnullary writes 106 _ (y := main_call7_cst) _ _ _ rfl (nd 107 (by decide))]; rfl

-- the row maximum of the logits: the fold of max along the columns
theorem st_main_call7_v0 :
    after (ops (F := F)) LV (Proc.devRef .tc main_call7_v0) = val_main_call7_v0 (F := F) A0 A1 A2 A3 A4 := by
  rw [at_lbinary writes 107 _ (a := main_v62) (b := main_call7_cst) (y := main_call7_v0) _ _ _ _ _ _ _ rfl
      (nd 108 (by decide)) (nd 107 (by decide)) (nd 107 (by decide)),
    st_main_v62 m c, st_main_call7_cst m c]; rfl

-- -∞ again
theorem st_main_call7_cst_0 :
    after (ops (F := F)) LV (Proc.devRef .tc main_call7_cst_0) = val_main_call7_cst_0 (F := F) := by
  rw [at_lnullary writes 108 _ (y := main_call7_cst_0) _ _ _ rfl (nd 109 (by decide))]; rfl

-- its broadcast to the 256 rows
theorem st_main_call7_v1 :
    after (ops (F := F)) LV (Proc.devRef .tc main_call7_v1) = val_main_call7_v1 (F := F) := by
  rw [at_lunary writes 109 _ (x := main_call7_cst_0) (y := main_call7_v1) _ _ _ _ _ rfl (nd 110 (by decide)) (nd 109 (by decide)),
    st_main_call7_cst_0 m c]; rfl

-- the greater of -∞ and the row maximum
theorem st_main_call7_v2 :
    after (ops (F := F)) LV (Proc.devRef .tc main_call7_v2) = val_main_call7_v2 (F := F) A0 A1 A2 A3 A4 := by
  rw [at_lbinary writes 110 _ (a := main_call7_v1) (b := main_call7_v0) (y := main_call7_v2) _ _ _ _ _ _ _ rfl
      (nd 111 (by decide)) (nd 110 (by decide)) (nd 110 (by decide)),
    st_main_call7_v1 m c, st_main_call7_v0 m c]; rfl

-- the row maximum as a column
theorem st_main_call7_v3 :
    after (ops (F := F)) LV (Proc.devRef .tc main_call7_v3) = val_main_call7_v3 (F := F) A0 A1 A2 A3 A4 := by
  rw [at_lunary writes 111 _ (x := main_call7_v2) (y := main_call7_v3) _ _ _ _ _ rfl (nd 112 (by decide)) (nd 111 (by decide)),
    st_main_call7_v2 m c]; rfl

-- the column broadcast along the 100000 columns
theorem st_main_call7_v4 :
    after (ops (F := F)) LV (Proc.devRef .tc main_call7_v4) = val_main_call7_v4 (F := F) A0 A1 A2 A3 A4 := by
  rw [at_lunary writes 112 _ (x := main_call7_v3) (y := main_call7_v4) _ _ _ _ _ rfl (nd 113 (by decide)) (nd 112 (by decide)),
    st_main_call7_v3 m c]; rfl

-- the logits less their row maximum
theorem st_main_call7_v5 :
    after (ops (F := F)) LV (Proc.devRef .tc main_call7_v5) = val_main_call7_v5 (F := F) A0 A1 A2 A3 A4 := by
  rw [at_lbinary writes 113 _ (a := main_v62) (b := main_call7_v4) (y := main_call7_v5) _ _ _ _ _ _ _ rfl
      (nd 114 (by decide)) (nd 113 (by decide)) (nd 113 (by decide)),
    st_main_v62 m c, st_main_call7_v4 m c]; rfl

-- their exponentials
theorem st_main_call7_v6 :
    after (ops (F := F)) LV (Proc.devRef .tc main_call7_v6) = val_main_call7_v6 (F := F) A0 A1 A2 A3 A4 := by
  rw [at_lunary writes 114 _ (x := main_call7_v5) (y := main_call7_v6) _ _ _ _ _ rfl (nd 115 (by decide)) (nd 114 (by decide)),
    st_main_call7_v5 m c]; rfl

-- the starting value of the row sum: 0
theorem st_main_call7_cst_1 :
    after (ops (F := F)) LV (Proc.devRef .tc main_call7_cst_1) = val_main_call7_cst_1 (F := F) := by
  rw [at_lnullary writes 115 _ (y := main_call7_cst_1) _ _ _ rfl (nd 116 (by decide))]; rfl

-- the row sum of the exponentials
theorem st_main_call7_v7 :
    after (ops (F := F)) LV (Proc.devRef .tc main_call7_v7) = val_main_call7_v7 (F := F) A0 A1 A2 A3 A4 := by
  rw [at_lbinary writes 116 _ (a := main_call7_v6) (b := main_call7_cst_1) (y := main_call7_v7) _ _ _ _ _ _ _ rfl
      (nd 117 (by decide)) (nd 116 (by decide)) (nd 116 (by decide)),
    st_main_call7_v6 m c, st_main_call7_cst_1 m c]; rfl

-- the row sum as a column
theorem st_main_call7_v8 :
    after (ops (F := F)) LV (Proc.devRef .tc main_call7_v8) = val_main_call7_v8 (F := F) A0 A1 A2 A3 A4 := by
  rw [at_lunary writes 117 _ (x := main_call7_v7) (y := main_call7_v8) _ _ _ _ _ rfl (nd 118 (by decide)) (nd 117 (by decide)),
    st_main_call7_v7 m c]; rfl

-- its logarithm
theorem st_main_call7_v9 :
    after (ops (F := F)) LV (Proc.devRef .tc main_call7_v9) = val_main_call7_v9 (F := F) A0 A1 A2 A3 A4 := by
  rw [at_lunary writes 118 _ (x := main_call7_v8) (y := main_call7_v9) _ _ _ _ _ rfl (nd 119 (by decide)) (nd 118 (by decide)),
    st_main_call7_v8 m c]; rfl

-- the logarithm broadcast along the 100000 columns
theorem st_main_call7_v10 :
    after (ops (F := F)) LV (Proc.devRef .tc main_call7_v10) = val_main_call7_v10 (F := F) A0 A1 A2 A3 A4 := by
  rw [at_lunary writes 119 _ (x := main_call7_v9) (y := main_call7_v10) _ _ _ _ _ rfl (nd 120 (by decide)) (nd 119 (by decide)),
    st_main_call7_v9 m c]; rfl

-- the log-probabilities: the shifted logits less the logarithm of the row sum
theorem st_main_v63 :
    after (ops (F := F)) LV (Proc.devRef .tc main_v63) = val_main_v63 (F := F) A0 A1 A2 A3 A4 := by
  rw [at_lbinary writes 120 _ (a := main_call7_v5) (b := main_call7_v10) (y := main_v63) _ _ _ _ _ _ _ rfl
      (nd 121 (by decide)) (nd 120 (by decide)) (nd 120 (by decide)),
    st_main_call7_v5 m c, st_main_call7_v10 m c]; rfl

/-! ## The target column's log-probability: the gather along the columns -/

-- the targets as a column
theorem st_main_v64 :
    after (ops (F := F)) LV (Proc.devRef .tc main_v64) = val_main_v64 (F := F) A1 := by
  rw [at_unary writes 121 _ (x := main_arg1) (y := main_v64) _ _ _ rfl (nd 122 (by decide)) (nd 121 (by decide)),
    st_main_arg1 m c]; rfl

-- the integer 0
theorem st_main_call8_c :
    after (ops (F := F)) LV (Proc.devRef .tc main_call8_c) = val_main_call8_c (F := F) := by
  rw [at_lnullary writes 122 _ (y := main_call8_c) _ _ _ rfl (nd 123 (by decide))]; rfl

-- a column of zeros
theorem st_main_call8_v0 :
    after (ops (F := F)) LV (Proc.devRef .tc main_call8_v0) = val_main_call8_v0 (F := F) := by
  rw [at_lunary writes 123 _ (x := main_call8_c) (y := main_call8_v0) _ _ _ _ _ rfl (nd 124 (by decide)) (nd 123 (by decide)),
    st_main_call8_c m c]; rfl

-- is the target negative
theorem st_main_call8_v1 :
    after (ops (F := F)) LV (Proc.devRef .tc main_call8_v1) = val_main_call8_v1 (F := F) A1 := by
  rw [at_lbinary writes 124 _ (a := main_v64) (b := main_call8_v0) (y := main_call8_v1) _ _ _ _ _ _ _ rfl
      (nd 125 (by decide)) (nd 124 (by decide)) (nd 124 (by decide)),
    st_main_v64 m c, st_main_call8_v0 m c]; rfl

-- the integer 100000
theorem st_main_call8_c_0 :
    after (ops (F := F)) LV (Proc.devRef .tc main_call8_c_0) = val_main_call8_c_0 (F := F) := by
  rw [at_lnullary writes 125 _ (y := main_call8_c_0) _ _ _ rfl (nd 126 (by decide))]; rfl

-- a column of it
theorem st_main_call8_v2 :
    after (ops (F := F)) LV (Proc.devRef .tc main_call8_v2) = val_main_call8_v2 (F := F) := by
  rw [at_lunary writes 126 _ (x := main_call8_c_0) (y := main_call8_v2) _ _ _ _ _ rfl (nd 127 (by decide)) (nd 126 (by decide)),
    st_main_call8_c_0 m c]; rfl

-- the target plus 100000
theorem st_main_call8_v3 :
    after (ops (F := F)) LV (Proc.devRef .tc main_call8_v3) = val_main_call8_v3 (F := F) A1 := by
  rw [at_lbinary writes 127 _ (a := main_v64) (b := main_call8_v2) (y := main_call8_v3) _ _ _ _ _ _ _ rfl
      (nd 128 (by decide)) (nd 127 (by decide)) (nd 127 (by decide)),
    st_main_v64 m c, st_main_call8_v2 m c]; rfl

-- a negative target wrapped around, any other kept
theorem st_main_call8_v4 :
    after (ops (F := F)) LV (Proc.devRef .tc main_call8_v4) = val_main_call8_v4 (F := F) A1 := by
  rw [at_lternary writes 128 _ (c := main_call8_v1) (a := main_call8_v3) (b := main_v64) (y := main_call8_v4)
      _ _ _ _ _ _ _ _ _ rfl (nd 129 (by decide)) (nd 128 (by decide)) (nd 128 (by decide)) (nd 128 (by decide)),
    st_main_call8_v1 m c, st_main_call8_v3 m c, st_main_v64 m c]; rfl

-- the same column with a unit axis appended: a reshape keeps the elements in row-major order
theorem st_main_call8_v5 :
    after (ops (F := F)) LV (Proc.devRef .tc main_call8_v5) = val_main_call8_v5 (F := F) A1 := by
  rw [at_reshape writes 129 _ (x := main_call8_v4) (y := main_call8_v5) _ _ _ _ rfl (nd 130 (by decide)) (nd 129 (by decide)),
    st_main_call8_v4 m c]; rfl

-- the last column number, 99999
theorem st_main_call8_c_1 :
    after (ops (F := F)) LV (Proc.devRef .tc main_call8_c_1) = val_main_call8_c_1 (F := F) := by
  rw [at_lnullary writes 130 _ (y := main_call8_c_1) _ _ _ rfl (nd 131 (by decide))]; rfl

-- the integer 0
theorem st_main_call8_c_2 :
    after (ops (F := F)) LV (Proc.devRef .tc main_call8_c_2) = val_main_call8_c_2 (F := F) := by
  rw [at_lnullary writes 131 _ (y := main_call8_c_2) _ _ _ rfl (nd 132 (by decide))]; rfl

-- zeros at the index shape
theorem st_main_call8_v6 :
    after (ops (F := F)) LV (Proc.devRef .tc main_call8_v6) = val_main_call8_v6 (F := F) := by
  rw [at_lunary writes 132 _ (x := main_call8_c_2) (y := main_call8_v6) _ _ _ _ _ rfl (nd 133 (by decide)) (nd 132 (by decide)),
    st_main_call8_c_2 m c]; rfl

-- is the index at least 0
theorem st_main_call8_v7 :
    after (ops (F := F)) LV (Proc.devRef .tc main_call8_v7) = val_main_call8_v7 (F := F) A1 := by
  rw [at_lbinary writes 133 _ (a := main_call8_v5) (b := main_call8_v6) (y := main_call8_v7) _ _ _ _ _ _ _ rfl
      (nd 134 (by decide)) (nd 133 (by decide)) (nd 133 (by decide)),
    st_main_call8_v5 m c, st_main_call8_v6 m c]; rfl

-- 99999 at three unit axes
theorem st_main_call8_v8 :
    after (ops (F := F)) LV (Proc.devRef .tc main_call8_v8) = val_main_call8_v8 (F := F) := by
  rw [at_lunary writes 134 _ (x := main_call8_c_1) (y := main_call8_v8) _ _ _ _ _ rfl (nd 135 (by decide)) (nd 134 (by decide)),
    st_main_call8_c_1 m c]; rfl

-- 99999 at the index shape
theorem st_main_call8_v9 :
    after (ops (F := F)) LV (Proc.devRef .tc main_call8_v9) = val_main_call8_v9 (F := F) := by
  rw [at_lunary writes 135 _ (x := main_call8_v8) (y := main_call8_v9) _ _ _ _ _ rfl (nd 136 (by decide)) (nd 135 (by decide)),
    st_main_call8_v8 m c]; rfl

-- is the index at most 99999
theorem st_main_call8_v10 :
    after (ops (F := F)) LV (Proc.devRef .tc main_call8_v10) = val_main_call8_v10 (F := F) A1 := by
  rw [at_lbinary writes 136 _ (a := main_call8_v5) (b := main_call8_v9) (y := main_call8_v10) _ _ _ _ _ _ _ rfl
      (nd 137 (by decide)) (nd 136 (by decide)) (nd 136 (by decide)),
    st_main_call8_v5 m c, st_main_call8_v9 m c]; rfl

-- is the index in range
theorem st_main_call8_v11 :
    after (ops (F := F)) LV (Proc.devRef .tc main_call8_v11) = val_main_call8_v11 (F := F) A1 := by
  rw [at_lbinary writes 137 _ (a := main_call8_v7) (b := main_call8_v10) (y := main_call8_v11) _ _ _ _ _ _ _ rfl
      (nd 138 (by decide)) (nd 137 (by decide)) (nd 137 (by decide)),
    st_main_call8_v7 m c, st_main_call8_v10 m c]; rfl

-- the truth value 1
theorem st_main_call8_c_3 :
    after (ops (F := F)) LV (Proc.devRef .tc main_call8_c_3) = val_main_call8_c_3 (F := F) := by
  rw [at_lnullary writes 138 _ (y := main_call8_c_3) _ _ _ rfl (nd 139 (by decide))]; rfl

-- the range test folded over the unit axis
theorem st_main_call8_v12 :
    after (ops (F := F)) LV (Proc.devRef .tc main_call8_v12) = val_main_call8_v12 (F := F) A1 := by
  rw [at_lbinary writes 139 _ (a := main_call8_v11) (b := main_call8_c_3) (y := main_call8_v12) _ _ _ _ _ _ _ rfl
      (nd 140 (by decide)) (nd 139 (by decide)) (nd 139 (by decide)),
    st_main_call8_v11 m c, st_main_call8_c_3 m c]; rfl

-- the gather: each row's log-probability at its index
theorem st_main_call8_v13 :
    after (ops (F := F)) LV (Proc.devRef .tc main_call8_v13) = val_main_call8_v13 (F := F) A0 A1 A2 A3 A4 := by
  rw [at_lbinary writes 140 _ (a := main_v63) (b := main_call8_v5) (y := main_call8_v13) _ _ _ _ _ _ _ rfl
      (nd 141 (by decide)) (nd 140 (by decide)) (nd 140 (by decide)),
    st_main_v63 m c, st_main_call8_v5 m c]; rfl

-- the fill for an index out of range
theorem st_main_call8_cst :
    after (ops (F := F)) LV (Proc.devRef .tc main_call8_cst) = val_main_call8_cst (F := F) := by
  rw [at_lnullary writes 141 _ (y := main_call8_cst) _ _ _ rfl (nd 142 (by decide))]; rfl

-- a column of it
theorem st_main_call8_v14 :
    after (ops (F := F)) LV (Proc.devRef .tc main_call8_v14) = val_main_call8_v14 (F := F) := by
  rw [at_lunary writes 142 _ (x := main_call8_cst) (y := main_call8_v14) _ _ _ _ _ rfl (nd 143 (by decide)) (nd 142 (by decide)),
    st_main_call8_cst m c]; rfl

-- the gathered value where the index is in range, the fill elsewhere
theorem st_main_v65 :
    after (ops (F := F)) LV (Proc.devRef .tc main_v65) = val_main_v65 (F := F) A0 A1 A2 A3 A4 := by
  rw [at_lternary writes 143 _ (c := main_call8_v12) (a := main_call8_v13) (b := main_call8_v14) (y := main_v65)
      _ _ _ _ _ _ _ _ _ rfl (nd 144 (by decide)) (nd 143 (by decide)) (nd 143 (by decide)) (nd 143 (by decide)),
    st_main_call8_v12 m c, st_main_call8_v13 m c, st_main_call8_v14 m c]; rfl

/-! ## The loss: minus the mean log-probability, plus the norm penalty -/

-- 0
theorem st_main_cst_15 :
    after (ops (F := F)) LV (Proc.devRef .tc main_cst_15) = val_main_cst_15 (F := F) := by
  rw [at_nullary writes 144 _ (y := main_cst_15) _ _ rfl (nd 145 (by decide))]; rfl

-- the sum of the 256 log-probabilities
theorem st_main_v66 :
    after (ops (F := F)) LV (Proc.devRef .tc main_v66) = val_main_v66 (F := F) A0 A1 A2 A3 A4 := by
  rw [at_binary writes 145 _ (a := main_v65) (b := main_cst_15) (y := main_v66) _ _ _ _ rfl
      (nd 146 (by decide)) (nd 145 (by decide)) (nd 145 (by decide)),
    st_main_v65 m c, st_main_cst_15 m c]; rfl

-- 256
theorem st_main_cst_16 :
    after (ops (F := F)) LV (Proc.devRef .tc main_cst_16) = val_main_cst_16 (F := F) := by
  rw [at_nullary writes 146 _ (y := main_cst_16) _ _ rfl (nd 147 (by decide))]; rfl

-- their mean
theorem st_main_v67 :
    after (ops (F := F)) LV (Proc.devRef .tc main_v67) = val_main_v67 (F := F) A0 A1 A2 A3 A4 := by
  rw [at_binary writes 147 _ (a := main_v66) (b := main_cst_16) (y := main_v67) _ _ _ _ rfl
      (nd 148 (by decide)) (nd 147 (by decide)) (nd 147 (by decide)),
    st_main_v66 m c, st_main_cst_16 m c]; rfl

-- its negation
theorem st_main_v68 :
    after (ops (F := F)) LV (Proc.devRef .tc main_v68) = val_main_v68 (F := F) A0 A1 A2 A3 A4 := by
  rw [at_unary writes 148 _ (x := main_v67) (y := main_v68) _ _ _ rfl (nd 149 (by decide)) (nd 148 (by decide)),
    st_main_v67 m c]; rfl

-- the norm scale
theorem st_main_cst_17 :
    after (ops (F := F)) LV (Proc.devRef .tc main_cst_17) = val_main_cst_17 (F := F) := by
  rw [at_nullary writes 149 _ (y := main_cst_17) _ _ rfl (nd 150 (by decide))]; rfl

-- a column of it
theorem st_main_v69 :
    after (ops (F := F)) LV (Proc.devRef .tc main_v69) = val_main_v69 (F := F) := by
  rw [at_unary writes 150 _ (x := main_cst_17) (y := main_v69) _ _ _ rfl (nd 151 (by decide)) (nd 150 (by decide)),
    st_main_cst_17 m c]; rfl

-- the row norms over the scale
theorem st_main_v70 :
    after (ops (F := F)) LV (Proc.devRef .tc main_v70) = val_main_v70 (F := F) A0 A3 A4 := by
  rw [at_binary writes 151 _ (a := main_v26) (b := main_v69) (y := main_v70) _ _ _ _ rfl
      (nd 152 (by decide)) (nd 151 (by decide)) (nd 151 (by decide)),
    st_main_v26 m c, st_main_v69 m c]; rfl

-- 1
theorem st_main_cst_18 :
    after (ops (F := F)) LV (Proc.devRef .tc main_cst_18) = val_main_cst_18 (F := F) := by
  rw [at_nullary writes 152 _ (y := main_cst_18) _ _ rfl (nd 153 (by decide))]; rfl

-- a column of ones
theorem st_main_v71 :
    after (ops (F := F)) LV (Proc.devRef .tc main_v71) = val_main_v71 (F := F) := by
  rw [at_unary writes 153 _ (x := main_cst_18) (y := main_v71) _ _ _ rfl (nd 154 (by decide)) (nd 153 (by decide)),
    st_main_cst_18 m c]; rfl

-- the reciprocals of the row norms
theorem st_main_v72 :
    after (ops (F := F)) LV (Proc.devRef .tc main_v72) = val_main_v72 (F := F) A0 A3 A4 := by
  rw [at_binary writes 154 _ (a := main_v71) (b := main_v26) (y := main_v72) _ _ _ _ rfl
      (nd 155 (by decide)) (nd 154 (by decide)) (nd 154 (by decide)),
    st_main_v71 m c, st_main_v26 m c]; rfl

-- their sum, row by row
theorem st_main_v73 :
    after (ops (F := F)) LV (Proc.devRef .tc main_v73) = val_main_v73 (F := F) A0 A3 A4 := by
  rw [at_binary writes 155 _ (a := main_v70) (b := main_v72) (y := main_v73) _ _ _ _ rfl
      (nd 156 (by decide)) (nd 155 (by decide)) (nd 155 (by decide)),
    st_main_v70 m c, st_main_v72 m c]; rfl

-- 0
theorem st_main_cst_19 :
    after (ops (F := F)) LV (Proc.devRef .tc main_cst_19) = val_main_cst_19 (F := F) := by
  rw [at_nullary writes 156 _ (y := main_cst_19) _ _ rfl (nd 157 (by decide))]; rfl

-- the sum over the 256 rows
theorem st_main_v74 :
    after (ops (F := F)) LV (Proc.devRef .tc main_v74) = val_main_v74 (F := F) A0 A3 A4 := by
  rw [at_binary writes 157 _ (a := main_v73) (b := main_cst_19) (y := main_v74) _ _ _ _ rfl
      (nd 158 (by decide)) (nd 157 (by decide)) (nd 157 (by decide)),
    st_main_v73 m c, st_main_cst_19 m c]; rfl

-- 256
theorem st_main_cst_20 :
    after (ops (F := F)) LV (Proc.devRef .tc main_cst_20) = val_main_cst_20 (F := F) := by
  rw [at_nullary writes 158 _ (y := main_cst_20) _ _ rfl (nd 159 (by decide))]; rfl

-- the mean over the rows
theorem st_main_v75 :
    after (ops (F := F)) LV (Proc.devRef .tc main_v75) = val_main_v75 (F := F) A0 A3 A4 := by
  rw [at_binary writes 159 _ (a := main_v74) (b := main_cst_20) (y := main_v75) _ _ _ _ rfl
      (nd 160 (by decide)) (nd 159 (by decide)) (nd 159 (by decide)),
    st_main_v74 m c, st_main_cst_20 m c]; rfl

-- the penalty's weight
theorem st_main_cst_21 :
    after (ops (F := F)) LV (Proc.devRef .tc main_cst_21) = val_main_cst_21 (F := F) := by
  rw [at_nullary writes 160 _ (y := main_cst_21) _ _ rfl (nd 161 (by decide))]; rfl

-- the weighted penalty
theorem st_main_v76 :
    after (ops (F := F)) LV (Proc.devRef .tc main_v76) = val_main_v76 (F := F) A0 A3 A4 := by
  rw [at_binary writes 161 _ (a := main_cst_21) (b := main_v75) (y := main_v76) _ _ _ _ rfl
      (nd 162 (by decide)) (nd 161 (by decide)) (nd 161 (by decide)),
    st_main_cst_21 m c, st_main_v75 m c]; rfl

-- THE LOSS: minus the mean log-probability plus the weighted penalty
theorem st_main_v77 :
    after (ops (F := F)) LV (Proc.devRef .tc main_v77) = val_main_v77 (F := F) A0 A1 A2 A3 A4 := by
  rw [at_binary writes 162 _ (a := main_v68) (b := main_v76) (y := main_v77) _ _ _ _ rfl
      (nd 163 (by decide)) (nd 162 (by decide)) (nd 162 (by decide)),
    st_main_v68 m c, st_main_v76 m c]; rfl

end Cert.ReferenceIdeal.Stages

end
-- ==== Proof.RefRunStages.lean ====
import proofs.«418458_j50414326120960_1_alg».proof.Proof.RefStagesC

/-!
  The reference program's run over its stages: every weakly fair execution of the program terminates with the loss
  buffer and the logits buffer holding the stage functions of the arguments' launch contents, and the five arguments
  unchanged. The run itself is the straight line's: each buffer ends at the fold of the operations over the launch
  contents; the stage equations read that fold at the two result buffers and at the arguments.
-/

noncomputable section

namespace Cert.RefRunStages

open Cert.ReferenceIdeal Cert.ReferenceIdeal.Gen Cert.ReferenceIdeal.Value Cert.ReferenceIdeal.Stages Idealize.ShloMosaic
  Idealize.ShloMosaic.TcCoe Idealize.SL.Sem Idealize.ShloMosaic.StableHlo

variable {F : FTy → Type} [FloatOps F]

set_option maxRecDepth 8192 in
set_option maxHeartbeats 4000000 in
/-- On every device, for any float values, from any memory with zero counters: every weakly fair execution of the
    reference program terminates with the loss and the logits at their stages of the arguments, the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = Read.val_main_v77 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_v62)
          = Read.val_main_v62 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v77).trans (st_main_v77 m c),
      (h c main_v62).trans (st_main_v62 m c),
      (h c main_arg0).trans (st_main_arg0 m c),
      (h c main_arg1).trans (st_main_arg1 m c),
      (h c main_arg2).trans (st_main_arg2 m c),
      (h c main_arg3).trans (st_main_arg3 m c),
      (h c main_arg4).trans (st_main_arg4 m c)⟩)
    (run_seq scopedRefs_eq scopedSems_eq defs main (fun _ => ops) main_eq (fun _ => ops_sub) m ρ)

end Cert.RefRunStages

end
-- ==== Proof.lean ====
/-
  The certificate of a margin-cosine classification loss kernel against its reference.

  The kernel computes, tile by tile over 100000 classes (49 tiles of 2048 columns, the last one overhanging
  the arrays by 352 columns), the cosine of each of 256 normalised activation rows with each weight column,
  the margin-adjusted logit, and — in three scratch columns carried from tile to tile — the running maximum,
  the running sum of exponentials relative to it and the target's logit, from which the last tile forms the
  negative log-probability of each row's target; the host lines around it normalise the activations and average.
  The reference normalises the weight columns first, mixes the margin branch in with a 0/1 weight, and takes a
  plain log-softmax.

  Over the extended reals the two agree under the stated precondition (finite inputs, targets in range,
  no zero weight column): dividing the dot product by a positive real norm is dividing each term; the guard
  max(1 - c², 0) never binds on a clipped cosine; a select is the 0/1 mix; a padded column's logit -∞
  contributes exp(-∞) = 0 to the running sum and nothing to the maximum, and rescaling the running sum by
  exp(m_old - m_new) at every tile telescopes to the sum of exp(logit - max) over all columns.

  The claims: the word-level kernel's frame from proof data that name no contents (its scratch depends on
  the unnamed words of the overhanging weight tile); the idealized kernel's frame and values from one run
  over tracked contents; the reference's run stage by stage; the one ledger entry of the idealization.
-/
import proofs.«418458_j50414326120960_1_alg».proof.Defs
import proofs.«418458_j50414326120960_1_alg».proof.Proof.Gen.Kernel
import proofs.«418458_j50414326120960_1_alg».proof.Proof.Gen.KernelIdeal
import proofs.«418458_j50414326120960_1_alg».proof.Proof.Gen.ReferenceIdeal
import proofs.«418458_j50414326120960_1_alg».proof.Proof.Gen.Pre_finite_inputs
import proofs.«418458_j50414326120960_1_alg».proof.Proof.BitsFrame
import proofs.«418458_j50414326120960_1_alg».proof.Proof.Preserves
import proofs.«418458_j50414326120960_1_alg».proof.Proof.IdealRun
import proofs.«418458_j50414326120960_1_alg».proof.Proof.KernelValue
import proofs.«418458_j50414326120960_1_alg».proof.Proof.RefRunStages

noncomputable section

namespace Cert.Proof

open Idealize.ShloMosaic Idealize.ShloMosaic.TcCoe Idealize.SL.Sem
open Idealize.ShloMosaic.Pipeline (Dat)

/-- The idealized kernel's frame: its run over the tracked contents, read at the argument arrays. -/
theorem frame_ki : Cert.frame_KernelIdeal (hKernelIdeal := Cert.KernelIdeal.Gen.facts) (hPre_finite_inputs := Cert.Pre_finite_inputs.Gen.facts) :=
  fun m ρ _ => Cert.IdealRun.frame m ρ (Cert.KernelValue.T m) (Cert.KernelValue.steps m)

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.RefRunStages.ref_run (F := Ideal) m ρ)

open Cert.KernelIdeal Cert.KernelIdeal.Gen in
/-- Both idealized programs end with the reference's stage functions of the (agreeing) arguments as results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v77 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    fun c => Cert.ReferenceIdeal.Read.val_main_v62 (F := Ideal) (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · refine (θ_run defs _ _).mono (fun r h c => ?_)
      (Cert.IdealRun.run_main m ρ (Cert.KernelValue.T m) (Cert.KernelValue.steps m))
    exact ⟨((h c).2 main_v49 (Pipeline.mem_restRefs_of main_v49 (by decide) (by decide))).trans (Cert.KernelValue.loss_final m hpre c),
      ((h c).1 5).trans (Cert.KernelValue.out_final m hpre c),
      ((h c).2 main_arg0 (Pipeline.mem_restRefs_of main_arg0 (by decide) (by decide))).trans (W_main_arg0 m (Cert.IdealRun.dats m (Cert.KernelValue.T m)) c),
      ((h c).1 2).trans (((Cert.IdealRun.dats m (Cert.KernelValue.T m) 0 c).arrAt_in 2 rfl _).trans ((Cert.IdealRun.A_eq m (Cert.KernelValue.T m) c 2).trans (V_main_arg1 m c))),
      ((h c).1 1).trans (((Cert.IdealRun.dats m (Cert.KernelValue.T m) 0 c).arrAt_in 1 rfl _).trans ((Cert.IdealRun.A_eq m (Cert.KernelValue.T m) c 1).trans (V_main_arg2 m c))),
      ((h c).2 main_arg3 (Pipeline.mem_restRefs_of main_arg3 (by decide) (by decide))).trans (W_main_arg3 m (Cert.IdealRun.dats m (Cert.KernelValue.T m)) c),
      ((h c).2 main_arg4 (Pipeline.mem_restRefs_of main_arg4 (by decide) (by decide))).trans (W_main_arg4 m (Cert.IdealRun.dats m (Cert.KernelValue.T m)) c)⟩
  · refine (θ_run Cert.ReferenceIdeal.defs _ _).mono (fun r h c => ?_) (Cert.RefRunStages.ref_run (F := Ideal) m' ρ')
    obtain ⟨h77, h62, hrest⟩ := h c
    obtain ⟨e0, e1, e2, e3, e4⟩ := hagree c
    refine ⟨h77.trans ?_, h62.trans ?_, hrest⟩
    · rw [e0, e1, e2, e3, e4]
    · rw [e0, e1, e2, e3, e4]

/-- The certificate. -/
theorem claim : Cert.Claim := ⟨Cert.Kernel.Gen.facts, Cert.KernelIdeal.Gen.facts, Cert.ReferenceIdeal.Gen.facts, Cert.Pre_finite_inputs.Gen.facts,
  Cert.BitsFrame.frame, frame_ki, frame_ri, Cert.Preserves.preserves, algebraic⟩

end Cert.Proof

end
